-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : FVec F S64x64 .f32) (main_arg6 : FVec F S64 .f32) (main_arg7 : IVec S1600000 32) (main_arg8 : IVec S1600000 32) (main_arg9 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩
abbrev S1600000x64 : Shape := ⟨2, ![1600000, 64]⟩
abbrev S64x1 : Shape := ⟨2, ![64, 1]⟩

abbrev nBuf : Space → Nat
  | .hbm => 115
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S100000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x1, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S1x64, .f32⟩
  | .hbm, ⟨73, _⟩ => ⟨S100000x64, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x64, .f32⟩
  | .hbm, ⟨86, _⟩ => ⟨S_, .f32⟩
  | .hbm, ⟨87, _⟩ => ⟨S100000x64, .f32⟩
  | .hbm, ⟨88, _⟩ => ⟨S1600000x1, .i32⟩
  | .hbm, ⟨89, _⟩ => ⟨S100000x64, .f32⟩
  | .hbm, ⟨90, _⟩ => ⟨S100000x1, .f32⟩
  | .hbm, ⟨91, _⟩ => ⟨S100000x64, .f32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x1, .i32⟩
  | .hbm, ⟨96, _⟩ => ⟨S64, .i32⟩
  | .hbm, ⟨97, _⟩ => ⟨S1x64, .i32⟩
  | .hbm, ⟨98, _⟩ => ⟨S100000x64, .i32⟩
  | .hbm, ⟨99, _⟩ => ⟨S100000x64, .i32⟩
  | .hbm, ⟨100, _⟩ => ⟨S100000x64, .i1⟩
  | .hbm, ⟨101, _⟩ => ⟨S100000x64, .bf16⟩
  | .hbm, ⟨102, _⟩ => ⟨S_, .f32⟩
  | .hbm, ⟨103, _⟩ => ⟨S100000, .f32⟩
  | .hbm, ⟨104, _⟩ => ⟨S_, .f32⟩
  | .hbm, ⟨105, _⟩ => ⟨S64, .f32⟩
  | .hbm, ⟨106, _⟩ => ⟨S100000x1, .i32⟩
  | .hbm, ⟨107, _⟩ => ⟨S64, .f32⟩
  | .hbm, ⟨108, _⟩ => ⟨S64x64, .f32⟩
  | .hbm, ⟨109, _⟩ => ⟨S_, .f32⟩
  | .hbm, ⟨110, _⟩ => ⟨S64, .f32⟩
  | .hbm, ⟨111, _⟩ => ⟨S64, .f32⟩
  | .hbm, ⟨112, _⟩ => ⟨S64x1, .f32⟩
  | .hbm, ⟨113, _⟩ => ⟨S64x64, .f32⟩
  | .hbm, ⟨114, _⟩ => ⟨S64x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .bf16⟩
  | .local _ .vmem, ⟨19, _⟩ => ⟨S5000x64, .bf16⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_16 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v14 : BitVec 1 := Scalar.cmpi .eq arg0 c19_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  shapeCasts_S64x64_S64x64 : S64x64.ShapeCasts S64x64
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S64_S100000x1_S100000_n_0_0_1_wf : ScatterDims.WF S64 S100000x1 S100000 [] [0] [0] 1
  dot_S5000x64_S5000x64_S64x64_0_0_1_1_n_n_wf : DotDims.WF S5000x64 S5000x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .bf16 = 32 ∨ (Rect.block (s := S100000x64) S5000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf

abbrev win0_0 : Pipeline.Window sig grid0 :=
  Pipeline.Window.ofSpec (Memref.whole main_v30) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v66) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v75) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v80) S64x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩
abbrev S1600000x64 : Shape := ⟨2, ![1600000, 64]⟩
abbrev S64x1 : Shape := ⟨2, ![64, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S100000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | .hbm, ⟨84, _⟩ => ⟨S100000x1, .f32⟩
  | .hbm, ⟨85, _⟩ => ⟨S100000x64, .f32⟩
  | .hbm, ⟨86, _⟩ => ⟨S100000x64, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x64, .f32⟩
  | .hbm, ⟨96, _⟩ => ⟨S_, .f32⟩
  | .hbm, ⟨97, _⟩ => ⟨S100000x64, .f32⟩
  | .hbm, ⟨98, _⟩ => ⟨S1600000x1, .i32⟩
  | .hbm, ⟨99, _⟩ => ⟨S100000x64, .f32⟩
  | .hbm, ⟨100, _⟩ => ⟨S100000x1, .f32⟩
  | .hbm, ⟨101, _⟩ => ⟨S100000x64, .f32⟩
  | .hbm, ⟨102, _⟩ => ⟨S100000x64, .f32⟩
  | .hbm, ⟨103, _⟩ => ⟨S100000x64, .f32⟩
  | .hbm, ⟨104, _⟩ => ⟨S1x64, .f32⟩
  | .hbm, ⟨105, _⟩ => ⟨S100000x64, .f32⟩
  | .hbm, ⟨106, _⟩ => ⟨S100000x64, .f32⟩
  | .hbm, ⟨107, _⟩ => ⟨S_, .f32⟩
  | .hbm, ⟨108, _⟩ => ⟨S100000, .f32⟩
  | .hbm, ⟨109, _⟩ => ⟨S_, .f32⟩
  | .hbm, ⟨110, _⟩ => ⟨S64, .f32⟩
  | .hbm, ⟨111, _⟩ => ⟨S100000x1, .i32⟩
  | .hbm, ⟨112, _⟩ => ⟨S64, .f32⟩
  | .hbm, ⟨113, _⟩ => ⟨S_, .f32⟩
  | .hbm, ⟨114, _⟩ => ⟨S64x64, .f32⟩
  | .hbm, ⟨115, _⟩ => ⟨S100000x1, .i32⟩
  | .hbm, ⟨116, _⟩ => ⟨S64x64, .f32⟩
  | .hbm, ⟨117, _⟩ => ⟨S_, .f32⟩
  | .hbm, ⟨118, _⟩ => ⟨S64, .f32⟩
  | .hbm, ⟨119, _⟩ => ⟨S64, .f32⟩
  | .hbm, ⟨120, _⟩ => ⟨S64x1, .f32⟩
  | .hbm, ⟨121, _⟩ => ⟨S64x64, .f32⟩
  | .hbm, ⟨122, _⟩ => ⟨S64x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call0_cst : Ref sig .tc := ⟨.hbm, 55, rfl⟩
abbrev main_call0_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call1_cst : Ref sig .tc := ⟨.hbm, 81, rfl⟩
abbrev main_call1_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_11 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_16 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S64_S100000x1_S100000_n_0_0_1_wf : ScatterDims.WF S64 S100000x1 S100000 [] [0] [0] 1
  scatter_S64x64_S100000x1_S100000x64_1_0_0_1_wf : ScatterDims.WF S64x64 S100000x1 S100000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf

class Facts : Prop extends Facts₀ where

variable [Facts]
-- ==== Proof.K.Dense0.lean ====
/- Region 0 of the program: one dense layer, row tile by row tile. At grid point t the body reads a tile of
   5000 rows of the aggregated features (window 0), the whole weight matrix (window 1) and the bias row (window 2),
   and stores into the output tile (window 3) the payload: the product of the tile with the weights plus the bias
   row on every row, with every negative entry replaced by zero. Stated at a parameter V, the contents of the core's buffers when the region
   is entered: what each window's block holds at a point, what the body leaves in the output tile as a function of
   the three input blocks, the body's triple, and the per-point data the pipeline library asks of a region. -/
import proofs.«420597_j62139586839006_1_alg».proof.Proof.Gen.Kernel.Launch
import proofs.«420597_j62139586839006_1_alg».proof.Proof.Gen.Kernel.Skeleton
import proofs.«420597_j62139586839006_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there (the row
    tile: every point) or kept it from the first point (the weights and the bias row: their block index never moves),
    for any per-point data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of each buffer the body touches: the row tile, the weights, the bias row, the output tile. -/
abbrev rX0 : Rect S5000x128 := Rect.unit (s := S5000x128) ![0, 0] S5000x128.size inb_S5000x128_S5000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0
abbrev rO0 : Rect S5000x128 := Rect.unit (s := S5000x128) ![0, 0] S5000x128.size inb_S5000x128_S5000x128_0_0

/-- What the body leaves in the output tile, from the three input blocks: its one store, of the payload of the three
    loads, covering the tile. -/
def out0_3 (x0 : Vec F S5000x128 .f32) (x1 : Vec F S128x128 .f32) (x2 : Vec F S1x128 .f32) : Vec F S5000x128 .f32 :=
  View.canon [⟨rO0, k0_pay1 (View.ld x0 rX0) (View.ld x1 rW0) (View.ld x2 rB0)⟩]

/-- The one store tiles the output tile, so it covers it. -/
theorem cover0_3 (p0 : Vec F S5000x128 .f32) (y : S5000x128.Idx) :
    ∃ pc ∈ ([⟨rO0, p0⟩] : List (View.Piece (Elt F) S5000x128 .f32)), y ∈ pc.1.set :=
  View.cover_of_tiled [⟨rO0, p0⟩] S5000x128.size (by rfl) y

set_option maxHeartbeats 1000000 in
/-- The body on whole staging buffers, the inputs' at contents x0, x1, x2 and the output's at anything, runs to its end
    with the inputs' buffers as they were and the output's at out0_3 of the inputs'. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The per-point data of this region on core c: the arrays as the region finds them; after the body at point t each
    input's buffer at its block and the output's at out0_3 of the three input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Layers

end
-- ==== Proof.K.Dense1.lean ====
/- Region 1 of the program: one dense layer, row tile by row tile. At grid point t the body reads a tile of
   5000 rows of the aggregated features (window 0), the whole weight matrix (window 1) and the bias row (window 2),
   and stores into the output tile (window 3) the payload: the product of the tile with the weights plus the bias
   row on every row, with every negative entry replaced by zero. Stated at a parameter V, the contents of the core's buffers when the region
   is entered: what each window's block holds at a point, what the body leaves in the output tile as a function of
   the three input blocks, the body's triple, and the per-point data the pipeline library asks of a region. -/
import proofs.«420597_j62139586839006_1_alg».proof.Proof.Gen.Kernel.Launch
import proofs.«420597_j62139586839006_1_alg».proof.Proof.Gen.Kernel.Skeleton
import proofs.«420597_j62139586839006_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there (the row
    tile: every point) or kept it from the first point (the weights and the bias row: their block index never moves),
    for any per-point data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of each buffer the body touches: the row tile, the weights, the bias row, the output tile. -/
abbrev rX1 : Rect S5000x128 := Rect.unit (s := S5000x128) ![0, 0] S5000x128.size inb_S5000x128_S5000x128_0_0
abbrev rW1 : Rect S128x64 := Rect.unit (s := S128x64) ![0, 0] S128x64.size inb_S128x64_S128x64_0_0
abbrev rB1 : Rect S1x64 := Rect.unit (s := S1x64) ![0, 0] S1x64.size inb_S1x64_S1x64_0_0
abbrev rO1 : Rect S5000x64 := Rect.unit (s := S5000x64) ![0, 0] S5000x64.size inb_S5000x64_S5000x64_0_0

/-- What the body leaves in the output tile, from the three input blocks: its one store, of the payload of the three
    loads, covering the tile. -/
def out1_3 (x0 : Vec F S5000x128 .f32) (x1 : Vec F S128x64 .f32) (x2 : Vec F S1x64 .f32) : Vec F S5000x64 .f32 :=
  View.canon [⟨rO1, k1_pay1 (View.ld x0 rX1) (View.ld x1 rW1) (View.ld x2 rB1)⟩]

/-- The one store tiles the output tile, so it covers it. -/
theorem cover1_3 (p0 : Vec F S5000x64 .f32) (y : S5000x64.Idx) :
    ∃ pc ∈ ([⟨rO1, p0⟩] : List (View.Piece (Elt F) S5000x64 .f32)), y ∈ pc.1.set :=
  View.cover_of_tiled [⟨rO1, p0⟩] S5000x64.size (by rfl) y

set_option maxHeartbeats 1000000 in
/-- The body on whole staging buffers, the inputs' at contents x0, x1, x2 and the output's at anything, runs to its end
    with the inputs' buffers as they were and the output's at out1_3 of the inputs'. -/
theorem sound_kernel1 (c : Dev nD) (E : Set ℕ) (i : grid1.Coords)
    (arg1 : Memref sig .tc .vmem S5000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The per-point data of this region on core c: the arrays as the region finds them; after the body at point t each
    input's buffer at its block and the output's at out1_3 of the three input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Layers

end
-- ==== Proof.K.Dense2.lean ====
/- Region 2 of the program: one dense layer, row tile by row tile. At grid point t the body reads a tile of
   5000 rows of the aggregated features (window 0), the whole weight matrix (window 1) and the bias row (window 2),
   and stores into the output tile (window 3) the payload: the product of the tile with the weights plus the bias
   row on every row. Stated at a parameter V, the contents of the core's buffers when the region
   is entered: what each window's block holds at a point, what the body leaves in the output tile as a function of
   the three input blocks, the body's triple, and the per-point data the pipeline library asks of a region. -/
import proofs.«420597_j62139586839006_1_alg».proof.Proof.Gen.Kernel.Launch
import proofs.«420597_j62139586839006_1_alg».proof.Proof.Gen.Kernel.Skeleton
import proofs.«420597_j62139586839006_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the pipeline fetched it there (the row
    tile: every point) or kept it from the first point (the weights and the bias row: their block index never moves),
    for any per-point data whose array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of each buffer the body touches: the row tile, the weights, the bias row, the output tile. -/
abbrev rX2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0
abbrev rO2 : Rect S5000x64 := Rect.unit (s := S5000x64) ![0, 0] S5000x64.size inb_S5000x64_S5000x64_0_0

/-- What the body leaves in the output tile, from the three input blocks: its one store, of the payload of the three
    loads, covering the tile. -/
def out2_3 (x0 : Vec F S5000x64 .f32) (x1 : Vec F S64x64 .f32) (x2 : Vec F S1x64 .f32) : Vec F S5000x64 .f32 :=
  View.canon [⟨rO2, k2_pay1 (View.ld x0 rX2) (View.ld x1 rW2) (View.ld x2 rB2)⟩]

/-- The one store tiles the output tile, so it covers it. -/
theorem cover2_3 (p0 : Vec F S5000x64 .f32) (y : S5000x64.Idx) :
    ∃ pc ∈ ([⟨rO2, p0⟩] : List (View.Piece (Elt F) S5000x64 .f32)), y ∈ pc.1.set :=
  View.cover_of_tiled [⟨rO2, p0⟩] S5000x64.size (by rfl) y

set_option maxHeartbeats 1000000 in
/-- The body on whole staging buffers, the inputs' at contents x0, x1, x2 and the output's at anything, runs to its end
    with the inputs' buffers as they were and the output's at out2_3 of the inputs'. -/
theorem sound_kernel2 (c : Dev nD) (E : Set ℕ) (i : grid2.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The per-point data of this region on core c: the arrays as the region finds them; after the body at point t each
    input's buffer at its block and the output's at out2_3 of the three input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Layers

end
-- ==== Proof.K.Pool.lean ====
-- laid out by: scratch/gen_kpool.js  (from proof/Proof/KI/Pool.lean; KernelIdeal -> Kernel)
/- Region 3 of the program: the per-graph sums as a product with the one-hot matrix, accumulated over the 20 row
   tiles in a scratch buffer the kernel keeps between grid points. At point t the body (at t = 0 only) first
   stores zeros into the scratch, then reads the tile's 5000 rows of the one-hot matrix (window 0) and of the node
   features (window 1), adds to the scratch the product that contracts the 5000 rows, and (at t = 19 only) copies
   the scratch into the output block (window 2), which the pipeline writes back there and nowhere else. Stated at
   a parameter V, the contents of the core's buffers when the region is entered: what the scratch holds after each
   point, the invariant that carries it from point to point, and the per-point data the pipeline library asks. -/
import proofs.«420597_j62139586839006_1_alg».proof.Proof.Gen.Kernel.Launch
import proofs.«420597_j62139586839006_1_alg».proof.Proof.Gen.Kernel.Skeleton
import proofs.«420597_j62139586839006_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- THE ACCUMULATION. What the scratch holds after the body at point n: at the first point the tile's product added
    to the zeros just stored; afterwards the tile's product added to what the point before left. -/
def poolAt (c : Dev nD) : (n : ℕ) → n < cfg3.N → Vec F S64x64 .f32
  | 0, h => k3_pay2 (iblk3 V c 0 ⟨0, h⟩) (iblk3 V c 1 ⟨0, h⟩) (k3_pay1 (F := F))
  | n + 1, h => k3_pay2 (iblk3 V c 0 ⟨n + 1, h⟩) (iblk3 V c 1 ⟨n + 1, h⟩) (poolAt c n (Nat.lt_of_succ_lt h))

/-- The kernel's scratch operand: a whole scoped buffer of its own, passed beside the windows. -/
abbrev scM3 : Memref sig .tc .vmem S64x64 .f32 := Memref.whole cc3_scratch0

/-- The region invariant before position n: before the first point every scoped buffer that is no staging buffer at
    anything and the generator register at some state; afterwards the same with the scratch at what the point before
    left in it. -/
def PhiS3 (c : Dev nD) : (n : ℕ) → n ≤ cfg3.N → sProp 𝕄
  | 0, _ => Pipeline.ΦA spec3 c
  | n + 1, hn => iprop(owns (c : Thread nD τ) scM3 fullShare (poolAt V c n hn)
      ∗ Pipeline.scopedRestBut (Ix := Unit) (Name := ℕ) (U := UR sig nD τ) (Lvl := ℕ) (Val := Elt F) spec3 c [cc3_scratch0]
      ∗ (∃ r, prngReg c r))

/-- The per-point data of this region on core c: the arrays as the region finds them; after the body at point t each
    input's buffer at its block and the output's at the scratch's contents (copied there at the last point; at the
    other points the window is idle and this entry is consulted by nothing); the invariant PhiS3; nothing owed; full
    shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => poolAt V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = poolAt V c t.val t.isLt := by dsimp only [dat3]

/-! ## The inputs' staging buffers -/

/-- An input window's staging buffer holds its block at every point (both inputs are fetched at every point, and
    their blocks are whole tiles), for any per-point data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The two branches of the body, and where the output window is idle -/

/-- The reset branch's condition as the body computes it from the grid coordinate: the coordinate is zero. -/
abbrev cond3_0 (i : grid3.Coords) : Prop := (Scalar.cmpi .ne (Scalar.extui (Scalar.cmpi .eq (BitVec.ofNat 32 (i 0).val) 0#32)) 0#32) = 1#1
/-- The copy-out branch's condition: the coordinate is the last one. -/
abbrev cond3_1 (i : grid3.Coords) : Prop := k3_cond2 i = 1#1

/-- The reset branch is taken at the first point only, -/
theorem hcond3_0 : ∀ t : Fin cfg3.N, cond3_0 (grid3.coords t) ↔ t.val = 0 :=
  (by decide +kernel : ∀ t : Fin grid3.N, cond3_0 (grid3.coords t) ↔ t.val = 0)
/-- and the copy-out branch at the last point only: both decided over the twenty points. -/
theorem hcond3_1 : ∀ t : Fin cfg3.N, cond3_1 (grid3.coords t) ↔ t.val = 19 :=
  (by decide +kernel : ∀ t : Fin grid3.N, cond3_1 (grid3.coords t) ↔ t.val = 19)

/-- The input windows are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
/-- Where the copy-out branch is not taken the output window is idle (the body stores nothing into it) -/
theorem idleAt3_2 : ∀ t : Fin cfg3.N, ¬cond3_1 (grid3.coords t) → cfg3.idle 2 (grid3.coords t) = true := by decide +kernel
/-- and the pipeline does not write its block back; -/
theorem noFlush3_2 : ∀ t : Fin cfg3.N, ¬cond3_1 (grid3.coords t) → (cfg3.win 2).flush t = false := by decide +kernel
/-- where it is taken the window is live. -/
theorem liveAt3_2 : ∀ t : Fin cfg3.N, cond3_1 (grid3.coords t) → cfg3.idle 2 (grid3.coords t) = false := by decide +kernel

/-! ## The body's triple, case by case -/

/-- The offsets of every whole-buffer rectangle of the body are zero. -/
theorem pool_hz : (![0, 0] : Fin 2 → Nat) = fun _ => 0 := funext fun a => by fin_cases a <;> rfl

/-- The whole rectangle of the scratch and of the output block, through which every load and store of them goes. -/
abbrev rS3 : Rect S64x64 := Rect.unit (s := S64x64) ![0, 0] S64x64.size inb_S64x64_S64x64_0_0

/-- A store through the whole rectangle, made last, covers the buffer whatever was stored before it. -/
theorem pool_cover (p0 : Vec F S64x64 .f32) (L : List (View.Piece (Elt F) S64x64 .f32)) (y : S64x64.Idx) :
    ∃ pc ∈ ((⟨rS3, p0⟩ : View.Piece (Elt F) S64x64 .f32) :: L), y ∈ pc.1.set :=
  ⟨_, List.mem_cons_self, View.mem_set_unit_zero pool_hz inb_S64x64_S64x64_0_0 y⟩

set_option maxHeartbeats 1000000 in
/-- THE FIRST POINT (the reset branch taken, the copy-out branch not). On whole buffers, the inputs' at x0 and x1, the
    output's at xi and the scratch at anything, the body runs to its end with the inputs' and the output's buffers as
    they were and the scratch at the tile's product added to the zeros it stored first: the load of the scratch after
    the zeroing store reads the zeros, and the second store, through the whole rectangle, is what remains. -/
theorem run3_A (c : Dev nD) (E : Set ℕ) (i : grid3.Coords)
    (arg1 : Memref sig .tc .vmem S5000x64 .bf16) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (hc0 : cond3_0 i) (hc1 : ¬cond3_1 i)
    (x0 : Vec F S5000x64 .bf16) (x1 : Vec F S5000x64 .f32) (xi : Vec F S64x64 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k3_pay2 x0 x1 (k3_pay1 (F := F)))) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (pool_cover _ _), View.canon_cons_unit_zero pool_hz, View.readCov_unit_zero _ pool_hz]
  simp only [View.readAt_eq_ld, View.ld_unit_zero (S := S5000x64) pool_hz]

set_option maxHeartbeats 1000000 in
/-- A MIDDLE POINT (neither branch taken). On whole buffers, the inputs' at x0 and x1, the output's at xi and the
    scratch at xs, the body runs to its end with the inputs' and the output's buffers as they were and the scratch at
    the tile's product added to xs. -/
theorem run3_B (c : Dev nD) (E : Set ℕ) (i : grid3.Coords)
    (arg1 : Memref sig .tc .vmem S5000x64 .bf16) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (hc0 : ¬cond3_0 i) (hc1 : ¬cond3_1 i)
    (x0 : Vec F S5000x64 .bf16) (x1 : Vec F S5000x64 .f32) (xi : Vec F S64x64 .f32) (xs : Vec F S64x64 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k3_pay2 x0 x1 xs)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (pool_cover _ _), View.canon_unit_zero pool_hz]
  simp only [View.readAt_eq_ld, View.ld_unit_zero (S := S5000x64) pool_hz, View.ld_unit_zero (S := S64x64) pool_hz]

set_option maxHeartbeats 1000000 in
/-- THE LAST POINT (the copy-out branch taken, the reset branch not). On whole buffers, the inputs' at x0 and x1, the
    output's at anything and the scratch at xs, the body runs to its end with the inputs' buffers as they were and both
    the scratch and the output's buffer at the tile's product added to xs: the load of the scratch after its store
    reads what was stored, and that is what the branch stores over the whole output block. -/
theorem run3_C (c : Dev nD) (E : Set ℕ) (i : grid3.Coords)
    (arg1 : Memref sig .tc .vmem S5000x64 .bf16) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (hc0 : ¬cond3_0 i) (hc1 : cond3_1 i)
    (x0 : Vec F S5000x64 .bf16) (x1 : Vec F S5000x64 .f32) (xs : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1 ∗ owns (c : Thread nD τ) arg3 fullShare (k3_pay2 x0 x1 xs)
            ∗ owns (c : Thread nD τ) arg4 fullShare (k3_pay2 x0 x1 xs)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (pool_cover _ _), View.canon_unit_zero pool_hz, View.readCov_unit_zero _ pool_hz]
    simp only [View.readAt_eq_ld, View.ld_unit_zero (S := S5000x64) pool_hz, View.ld_unit_zero (S := S64x64) pool_hz]
  iexists _; isplitr
  swap; · iexact H3
  ipureintro
  sl_unfold_words
  rw [View.read_writes_eq_canon _ _ _ (pool_cover _ _), View.canon_unit_zero pool_hz]
  simp only [View.readAt_eq_ld, View.ld_unit_zero (S := S5000x64) pool_hz, View.ld_unit_zero (S := S64x64) pool_hz]

/-! ## The invariant, position by position -/

/-- The class's invariant with the scratch set apart: the scratch owned whole at some contents, every other scoped
    buffer that is no staging buffer of this region at anything, and the generator register at some state. -/
theorem PhiA3_eq (c : Dev nD) :
    (Pipeline.ΦA spec3 c : sProp 𝕄)
      = iprop((∃ d, owns (c : Thread nD τ) scM3 fullShare d)
          ∗ Pipeline.scopedRestBut (Ix := Unit) (Name := ℕ) (U := UR sig nD τ) (Lvl := ℕ) (Val := Elt F) spec3 c [cc3_scratch0]
          ∗ (∃ r, prngReg c r)) := by
  unfold Pipeline.ΦA
  rw [Pipeline.scopedRest_split_of_list spec3 c [cc3_scratch0] (by decide) (by decide)]
  simp only [scM3, owns_whole, bigSepL_singleton]
  exact equiv_iff.mp ⟨BI.sep_assoc, BI.sep_assoc'⟩

theorem PhiS3_zero (c : Dev nD) (n : ℕ) (h : n ≤ cfg3.N) (hz : n = 0) : PhiS3 V c n h = Pipeline.ΦA spec3 c := by
  subst hz; rfl

/-- Before any point but the first: the scratch at what the point before left. -/
theorem PhiS3_pos (c : Dev nD) (n : ℕ) (h : n ≤ cfg3.N) (hz : n ≠ 0) :
    PhiS3 V c n h = iprop(owns (c : Thread nD τ) scM3 fullShare (poolAt V c (n - 1) (by omega))
      ∗ Pipeline.scopedRestBut (Ix := Unit) (Name := ℕ) (U := UR sig nD τ) (Lvl := ℕ) (Val := Elt F) spec3 c [cc3_scratch0]
      ∗ (∃ r, prngReg c r)) := by
  cases n with
  | zero => exact absurd rfl hz
  | succ n => rfl

/-- After point n: the scratch at that point's contents. -/
theorem PhiS3_succ (c : Dev nD) (n : ℕ) (hn : n < cfg3.N) :
    PhiS3 V c (n + 1) hn = iprop(owns (c : Thread nD τ) scM3 fullShare (poolAt V c n hn)
      ∗ Pipeline.scopedRestBut (Ix := Unit) (Name := ℕ) (U := UR sig nD τ) (Lvl := ℕ) (Val := Elt F) spec3 c [cc3_scratch0]
      ∗ (∃ r, prngReg c r)) := rfl

/-- The invariant at a point's start, restated at the point's number. -/
theorem PhiS3_castSucc (c : Dev nD) (t : Fin cfg3.N) :
    (dat3 V c).Φ t.castSucc = PhiS3 V c t.val (Nat.le_of_lt t.isLt) := by
  dsimp only [dat3]; simp only [Fin.coe_castSucc]

/-- The accumulation at the first point: the tile's product added to zeros. -/
theorem poolAt_first (c : Dev nD) (t : Fin cfg3.N) (hz : t.val = 0) :
    poolAt V c t.val t.isLt = k3_pay2 (iblk3 V c 0 t) (iblk3 V c 1 t) (k3_pay1 (F := F)) := by
  obtain ⟨n, hn⟩ := t
  cases n with
  | zero => rfl
  | succ n => exact absurd hz (Nat.succ_ne_zero n)

/-- The accumulation at a later point: the tile's product added to what the point before left. -/
theorem poolAt_later (c : Dev nD) (t : Fin cfg3.N) (hz : t.val ≠ 0) :
    poolAt V c t.val t.isLt
      = k3_pay2 (iblk3 V c 0 t) (iblk3 V c 1 t) (poolAt V c (t.val - 1) (Nat.lt_of_le_of_lt (Nat.sub_le _ _) t.isLt)) := by
  obtain ⟨n, hn⟩ := t
  cases n with
  | zero => exact absurd rfl hz
  | succ n => rfl

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4000000 in
/-- The body at any point. The inputs' buffers hold their blocks. At the first point the invariant hands over the
    scratch at anything, the body resets it and the triple of the first point applies; at a later point it hands it
    over at what the point before left, and the triple of a middle point or of the last point applies. In each case
    the scratch comes back at this point's term of the accumulation. At every point but the last the output window is
    idle and its buffer goes back as it came; at the last it holds the accumulation's last term. The other scoped
    buffers, the generator register and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  have hN : t.val < 20 := lt_of_lt_of_eq t.isLt (show cfg3.N = 20 from N_3)
  by_cases h0 : t.val = 0
  · have h1 : ¬t.val = 19 := by omega
    rw [Dat.leavesExact_idle (dat3 V c) 2 t (idleAt3_2 t (fun h => h1 ((hcond3_1 t).mp h))) (noFlush3_2 t (fun h => h1 ((hcond3_1 t).mp h)))]
    rw [poolAt_first V c t h0, PhiS3_castSucc V c t, PhiS3_zero V c _ _ h0, PhiA3_eq]
    iintro ⟨⟨HS, HR, Hg⟩, Ho, ⟨%d0, H0⟩, ⟨%d1, H1⟩, ⟨%d2, H2⟩⟩
    iapply (run3_A c Set.univ (grid3.coords t) _ _ _ _ _ _ _ _ ((hcond3_0 t).mpr h0) (fun h => h1 ((hcond3_1 t).mp h))
      (iblk3 V c 0 t) (iblk3 V c 1 t) ((dat3 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · rw [poolAt_later V c t h0, PhiS3_castSucc V c t, PhiS3_pos V c _ _ h0]
    by_cases h1 : t.val = 19
    · rw [show (dat3 V c).leavesExact 2 t = owns (c : Thread nD τ) (st3_2 t) fullShare ((dat3 V c).after 2 t) from by
        unfold Dat.leavesExact; rw [liveAt3_2 t ((hcond3_1 t).mpr h1)], after3_2, poolAt_later V c t h0]
      iintro ⟨⟨HS, HR, Hg⟩, Ho, ⟨%d0, H0⟩, ⟨%d1, H1⟩, ⟨%d2, H2⟩⟩
      iapply (run3_C c Set.univ (grid3.coords t) _ _ _ _ _ _ _ _ (fun h => h0 ((hcond3_0 t).mp h)) ((hcond3_1 t).mpr h1)
        (iblk3 V c 0 t) (iblk3 V c 1 t) (poolAt V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [Dat.leavesExact_idle (dat3 V c) 2 t (idleAt3_2 t (fun h => h1 ((hcond3_1 t).mp h))) (noFlush3_2 t (fun h => h1 ((hcond3_1 t).mp h)))]
      iintro ⟨⟨HS, HR, Hg⟩, Ho, ⟨%d0, H0⟩, ⟨%d1, H1⟩, ⟨%d2, H2⟩⟩
      iapply (run3_B c Set.univ (grid3.coords t) _ _ _ _ _ _ _ _ (fun h => h0 ((hcond3_0 t).mp h)) (fun h => h1 ((hcond3_1 t).mp h))
        (iblk3 V c 0 t) (iblk3 V c 1 t) ((dat3 V c).before 2 t d2) (poolAt V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the scratch's named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 20 := N_3; omega), PhiA3_eq]
  iintro ⟨HS, HR, Hg⟩
  isplitl [HS]; · iexists _; iexact HS
  isplitl [HR]; · iexact HR
  iexact Hg

end Cert.Kernel.Layers

end
-- ==== Proof.K.Whole.lean ====
-- laid out by: scratch/gen_whole.js  (template scratch/Whole.lean.tmpl; NS=Kernel D=K)
/- The whole program as nine items: a stretch of host operations, a region, a stretch, a region, … The buffers'
   contents at each boundary are a fold from the launch memory: after a stretch, what its operations leave; after a
   region, the same contents with the region's one output array replaced by what the pipeline's write-backs leave there
   (the three dense layers' arrays, then the pooled sums). Each region is entered from every unscoped buffer at the
   boundary's contents beside the generator register and the core owing nothing, and is left the same way; the launch
   theorem for several regions then gives: every weakly fair execution terminates, the result buffer holds what the last
   stretch leaves, and every argument array holds its launch contents. -/
import proofs.«420597_j62139586839006_1_alg».proof.Proof.K.RunCond
import proofs.«420597_j62139586839006_1_alg».proof.Proof.K.Dense0
import proofs.«420597_j62139586839006_1_alg».proof.Proof.K.Dense1
import proofs.«420597_j62139586839006_1_alg».proof.Proof.K.Dense2
import proofs.«420597_j62139586839006_1_alg».proof.Proof.K.Pool

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Region 0 is entered after the first stretch. -/
abbrev E0 (c : Dev nD) (b : Ref sig .tc) : Buf (Elt F) ((c : Thread nD τ).loc b) := Gen.V1 m c b
/-- What region 0 leaves in its output array: the first layer. -/
def o2 (c : Dev nD) : Buf (Elt F) ((c : Thread nD τ).loc main_v32) := (dat0 (E0 m) c).arrAt 3 cfg0.N
abbrev W2 (c : Dev nD) : Valuation τ sig (Elt F) := Function.update (Gen.V1 m c) main_v32 (o2 m c)
abbrev W3 (c : Dev nD) : Valuation τ sig (Elt F) := StableHlo.after hostOps1 (W2 m c)
abbrev E1 (c : Dev nD) (b : Ref sig .tc) : Buf (Elt F) ((c : Thread nD τ).loc b) := W3 m c b
/-- What region 1 leaves in its output array: the second layer. -/
def o4 (c : Dev nD) : Buf (Elt F) ((c : Thread nD τ).loc main_v50) := (dat1 (E1 m) c).arrAt 3 cfg1.N
abbrev W4 (c : Dev nD) : Valuation τ sig (Elt F) := Function.update (W3 m c) main_v50 (o4 m c)
abbrev W5 (c : Dev nD) : Valuation τ sig (Elt F) := StableHlo.after hostOps2 (W4 m c)
abbrev E2 (c : Dev nD) (b : Ref sig .tc) : Buf (Elt F) ((c : Thread nD τ).loc b) := W5 m c b
/-- What region 2 leaves in its output array: the third layer. -/
def o6 (c : Dev nD) : Buf (Elt F) ((c : Thread nD τ).loc main_v68) := (dat2 (E2 m) c).arrAt 3 cfg2.N
abbrev W6 (c : Dev nD) : Valuation τ sig (Elt F) := Function.update (W5 m c) main_v68 (o6 m c)
abbrev W7 (c : Dev nD) : Valuation τ sig (Elt F) := StableHlo.after hostOps3 (W6 m c)
abbrev E3 (c : Dev nD) (b : Ref sig .tc) : Buf (Elt F) ((c : Thread nD τ).loc b) := W7 m c b
/-- What region 3 leaves in its output array: the pooled sums. -/
def o8 (c : Dev nD) : Buf (Elt F) ((c : Thread nD τ).loc main_v80) := (dat3 (E3 m) c).arrAt 2 cfg3.N

/-- What the regions leave, as the one family the generated fold is written over: each region's output array at the
    contents above, any other buffer (read nowhere) at its launch contents. -/
def outs : Gen.Outs (F := F) := fun _ r c =>
  if h : r = main_v32 then h ▸ o2 m c
  else if h : r = main_v50 then h ▸ o4 m c
  else if h : r = main_v68 then h ▸ o6 m c
  else if h : r = main_v80 then h ▸ o8 m c
  else m ((c : Thread nD τ).loc r)

theorem outs_v32 (c : Dev nD) : outs m 2 main_v32 c = o2 m c := by unfold outs; rw [dif_pos rfl]
theorem outs_v50 (c : Dev nD) : outs m 4 main_v50 c = o4 m c := by unfold outs; rw [dif_neg (by decide), dif_pos rfl]
theorem outs_v68 (c : Dev nD) : outs m 6 main_v68 c = o6 m c := by
  unfold outs; rw [dif_neg (by decide), dif_neg (by decide), dif_pos rfl]
theorem outs_v80 (c : Dev nD) : outs m 8 main_v80 c = o8 m c := by
  unfold outs; rw [dif_neg (by decide), dif_neg (by decide), dif_neg (by decide), dif_pos rfl]

/-- The generated fold at this family is the fold above. -/
theorem V2_eq (c : Dev nD) : Gen.V2 m (outs m) c = W2 m c := by
  show Function.update (Gen.V1 m c) main_v32 (outs m 2 main_v32 c) = _; rw [outs_v32]
theorem V3_eq (c : Dev nD) : Gen.V3 m (outs m) c = W3 m c := by
  show StableHlo.after hostOps1 (Gen.V2 m (outs m) c) = _; rw [V2_eq]
theorem V4_eq (c : Dev nD) : Gen.V4 m (outs m) c = W4 m c := by
  show Function.update (Gen.V3 m (outs m) c) main_v50 (outs m 4 main_v50 c) = _; rw [V3_eq, outs_v50]
theorem V5_eq (c : Dev nD) : Gen.V5 m (outs m) c = W5 m c := by
  show StableHlo.after hostOps2 (Gen.V4 m (outs m) c) = _; rw [V4_eq]
theorem V6_eq (c : Dev nD) : Gen.V6 m (outs m) c = W6 m c := by
  show Function.update (Gen.V5 m (outs m) c) main_v68 (outs m 6 main_v68 c) = _; rw [V5_eq, outs_v68]
theorem V7_eq (c : Dev nD) : Gen.V7 m (outs m) c = W7 m c := by
  show StableHlo.after hostOps3 (Gen.V6 m (outs m) c) = _; rw [V6_eq]

/-! ## The per-point data of the four pipelines, each at its region's entry contents -/

def pdats : (p : Fin 4) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c

/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## Each region leaves its output array at the contents named, every other buffer as entered -/

abbrev W8 (c : Dev nD) : Valuation τ sig (Elt F) := Function.update (W7 m c) main_v80 (o8 m c)
theorem V8_eq (c : Dev nD) : Gen.V8 m (outs m) c = W8 m c := by
  show Function.update (Gen.V7 m (outs m) c) main_v80 (outs m 8 main_v80 c) = _; rw [V7_eq, outs_v80]

theorem hF0 (c : Dev nD) (w : Fin cfg0.W) : (pdats m 0 c).arrAt w cfg0.N = W2 m c (Proc.devRef .tc (Pipeline.arrRef spec0 w)) := by
  match w with
  | ⟨0, _⟩ =>
    show (dat0 (E0 m) c).arrAt 0 cfg0.N = Function.update (Gen.V1 m c) (Proc.devRef .tc main_v32) (o2 m c) (Proc.devRef .tc main_v30)
    rw [Function.update_of_ne (StableHlo.devRef_ne_of_ne (by decide : main_v30 ≠ main_v32))]
    exact ((dat0 (E0 m) c).arrAt_in 0 rfl _).trans (A_eq0 (E0 m) c 0)
  | ⟨1, _⟩ =>
    show (dat0 (E0 m) c).arrAt 1 cfg0.N = Function.update (Gen.V1 m c) (Proc.devRef .tc main_v32) (o2 m c) (Proc.devRef .tc main_arg1)
    rw [Function.update_of_ne (StableHlo.devRef_ne_of_ne (by decide : main_arg1 ≠ main_v32))]
    exact ((dat0 (E0 m) c).arrAt_in 1 rfl _).trans (A_eq0 (E0 m) c 1)
  | ⟨2, _⟩ =>
    show (dat0 (E0 m) c).arrAt 2 cfg0.N = Function.update (Gen.V1 m c) (Proc.devRef .tc main_v32) (o2 m c) (Proc.devRef .tc main_v31)
    rw [Function.update_of_ne (StableHlo.devRef_ne_of_ne (by decide : main_v31 ≠ main_v32))]
    exact ((dat0 (E0 m) c).arrAt_in 2 rfl _).trans (A_eq0 (E0 m) c 2)
  | ⟨3, _⟩ =>
    show o2 m c = Function.update (Gen.V1 m c) (Proc.devRef .tc main_v32) (o2 m c) (Proc.devRef .tc main_v32)
    rw [Function.update_self]
theorem hrest0 (c : Dev nD) : ∀ b, b ∉ Finset.univ.image (Pipeline.arrRef spec0) → W2 m c (Proc.devRef .tc b) = E0 m c b :=
  fun b hb => Function.update_of_ne (StableHlo.devRef_ne_of_ne fun e => hb (Finset.mem_image.mpr ⟨3, Finset.mem_univ _, e.symm⟩)) _ _

theorem hF1 (c : Dev nD) (w : Fin cfg1.W) : (pdats m 1 c).arrAt w cfg1.N = W4 m c (Proc.devRef .tc (Pipeline.arrRef spec1 w)) := by
  match w with
  | ⟨0, _⟩ =>
    show (dat1 (E1 m) c).arrAt 0 cfg1.N = Function.update (W3 m c) (Proc.devRef .tc main_v50) (o4 m c) (Proc.devRef .tc main_v48)
    rw [Function.update_of_ne (StableHlo.devRef_ne_of_ne (by decide : main_v48 ≠ main_v50))]
    exact ((dat1 (E1 m) c).arrAt_in 0 rfl _).trans (A_eq1 (E1 m) c 0)
  | ⟨1, _⟩ =>
    show (dat1 (E1 m) c).arrAt 1 cfg1.N = Function.update (W3 m c) (Proc.devRef .tc main_v50) (o4 m c) (Proc.devRef .tc main_arg3)
    rw [Function.update_of_ne (StableHlo.devRef_ne_of_ne (by decide : main_arg3 ≠ main_v50))]
    exact ((dat1 (E1 m) c).arrAt_in 1 rfl _).trans (A_eq1 (E1 m) c 1)
  | ⟨2, _⟩ =>
    show (dat1 (E1 m) c).arrAt 2 cfg1.N = Function.update (W3 m c) (Proc.devRef .tc main_v50) (o4 m c) (Proc.devRef .tc main_v49)
    rw [Function.update_of_ne (StableHlo.devRef_ne_of_ne (by decide : main_v49 ≠ main_v50))]
    exact ((dat1 (E1 m) c).arrAt_in 2 rfl _).trans (A_eq1 (E1 m) c 2)
  | ⟨3, _⟩ =>
    show o4 m c = Function.update (W3 m c) (Proc.devRef .tc main_v50) (o4 m c) (Proc.devRef .tc main_v50)
    rw [Function.update_self]
theorem hrest1 (c : Dev nD) : ∀ b, b ∉ Finset.univ.image (Pipeline.arrRef spec1) → W4 m c (Proc.devRef .tc b) = E1 m c b :=
  fun b hb => Function.update_of_ne (StableHlo.devRef_ne_of_ne fun e => hb (Finset.mem_image.mpr ⟨3, Finset.mem_univ _, e.symm⟩)) _ _

theorem hF2 (c : Dev nD) (w : Fin cfg2.W) : (pdats m 2 c).arrAt w cfg2.N = W6 m c (Proc.devRef .tc (Pipeline.arrRef spec2 w)) := by
  match w with
  | ⟨0, _⟩ =>
    show (dat2 (E2 m) c).arrAt 0 cfg2.N = Function.update (W5 m c) (Proc.devRef .tc main_v68) (o6 m c) (Proc.devRef .tc main_v66)
    rw [Function.update_of_ne (StableHlo.devRef_ne_of_ne (by decide : main_v66 ≠ main_v68))]
    exact ((dat2 (E2 m) c).arrAt_in 0 rfl _).trans (A_eq2 (E2 m) c 0)
  | ⟨1, _⟩ =>
    show (dat2 (E2 m) c).arrAt 1 cfg2.N = Function.update (W5 m c) (Proc.devRef .tc main_v68) (o6 m c) (Proc.devRef .tc main_arg5)
    rw [Function.update_of_ne (StableHlo.devRef_ne_of_ne (by decide : main_arg5 ≠ main_v68))]
    exact ((dat2 (E2 m) c).arrAt_in 1 rfl _).trans (A_eq2 (E2 m) c 1)
  | ⟨2, _⟩ =>
    show (dat2 (E2 m) c).arrAt 2 cfg2.N = Function.update (W5 m c) (Proc.devRef .tc main_v68) (o6 m c) (Proc.devRef .tc main_v67)
    rw [Function.update_of_ne (StableHlo.devRef_ne_of_ne (by decide : main_v67 ≠ main_v68))]
    exact ((dat2 (E2 m) c).arrAt_in 2 rfl _).trans (A_eq2 (E2 m) c 2)
  | ⟨3, _⟩ =>
    show o6 m c = Function.update (W5 m c) (Proc.devRef .tc main_v68) (o6 m c) (Proc.devRef .tc main_v68)
    rw [Function.update_self]
theorem hrest2 (c : Dev nD) : ∀ b, b ∉ Finset.univ.image (Pipeline.arrRef spec2) → W6 m c (Proc.devRef .tc b) = E2 m c b :=
  fun b hb => Function.update_of_ne (StableHlo.devRef_ne_of_ne fun e => hb (Finset.mem_image.mpr ⟨3, Finset.mem_univ _, e.symm⟩)) _ _

theorem hF3 (c : Dev nD) (w : Fin cfg3.W) : (pdats m 3 c).arrAt w cfg3.N = W8 m c (Proc.devRef .tc (Pipeline.arrRef spec3 w)) := by
  match w with
  | ⟨0, _⟩ =>
    show (dat3 (E3 m) c).arrAt 0 cfg3.N = Function.update (W7 m c) (Proc.devRef .tc main_v80) (o8 m c) (Proc.devRef .tc main_v75)
    rw [Function.update_of_ne (StableHlo.devRef_ne_of_ne (by decide : main_v75 ≠ main_v80))]
    exact ((dat3 (E3 m) c).arrAt_in 0 rfl _).trans (A_eq3 (E3 m) c 0)
  | ⟨1, _⟩ =>
    show (dat3 (E3 m) c).arrAt 1 cfg3.N = Function.update (W7 m c) (Proc.devRef .tc main_v80) (o8 m c) (Proc.devRef .tc main_v68)
    rw [Function.update_of_ne (StableHlo.devRef_ne_of_ne (by decide : main_v68 ≠ main_v80))]
    exact ((dat3 (E3 m) c).arrAt_in 1 rfl _).trans (A_eq3 (E3 m) c 1)
  | ⟨2, _⟩ =>
    show o8 m c = Function.update (W7 m c) (Proc.devRef .tc main_v80) (o8 m c) (Proc.devRef .tc main_v80)
    rw [Function.update_self]
theorem hrest3 (c : Dev nD) : ∀ b, b ∉ Finset.univ.image (Pipeline.arrRef spec3) → W8 m c (Proc.devRef .tc b) = E3 m c b :=
  fun b hb => Function.update_of_ne (StableHlo.devRef_ne_of_ne fun e => hb (Finset.mem_image.mpr ⟨2, Finset.mem_univ _, e.symm⟩)) _ _

/-! ## The regions as segments -/

set_option backward.isDefEq.respectTransparency.types false in
/-- Region 0 (the first dense layer) as a segment: entered from every unscoped buffer at the boundary's contents, left with its
    output array replaced. Its arrays are split out of the unscoped buffers and put back at the exit contents; the
    generator register goes into the region's invariant and comes back; nothing is owed; the kernel has no semaphore
    of its own. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (the second dense layer) as a segment: entered from every unscoped buffer at the boundary's contents, left with its
    output array replaced. Its arrays are split out of the unscoped buffers and put back at the exit contents; the
    generator register goes into the region's invariant and comes back; nothing is owed; the kernel has no semaphore
    of its own. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E1 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (the third dense layer) as a segment: entered from every unscoped buffer at the boundary's contents, left with its
    output array replaced. Its arrays are split out of the unscoped buffers and put back at the exit contents; the
    generator register goes into the region's invariant and comes back; nothing is owed; the kernel has no semaphore
    of its own. -/
def reg2 : Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E2 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (the pooling) as a segment: entered from every unscoped buffer at the boundary's contents, left with its
    output array replaced. Its arrays are split out of the unscoped buffers and put back at the exit contents; the
    generator register goes into the region's invariant and comes back; nothing is owed; the kernel has no semaphore
    of its own. -/
def reg3 : Pipeline.RegionSeg (pcfgs (F := F)) Gen.adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (E3 m) c)
    unfold Pipeline.ΦA
    iintro ⟨Hp, -, Hr⟩
    isplitl [Hr]; · iexact Hr
    iexact Hp
  hout c := by
    rw [Pipeline.ownSems0_none]
    refine BIBase.Entails.trans (hout3 (E3 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (E3 m c) (fun b => W8 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of the program terminates, faulting nowhere; at the
    end the result buffer holds what the last stretch of host operations leaves of the pooled sums, and every argument
    array holds its launch contents. -/
theorem run (ρ : Dev nD → PrngReg) :
    θ_run defs (onTc (τ := τ) (main (F := F))) ⟨m, fun _ => 0, ρ⟩ (fun r => ∀ c : Dev nD,
      r.2.mem ((c.tc : Thread nD τ).loc main_v85) = Gen.V9 m (outs m) c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  GenP.run_cond m (emb₁ : Emb (UR sig nD τ) 𝕄) () Variants.none L lv (fun _ _ => rfl) ρ (outs m) (pdats m)
    (0 : Dev nD → CellTallies nD τ sig Unit) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)

end Cert.Kernel.Layers

end
-- ==== Proof.KI.Dense0.lean ====
/- Region 0 of the program: one dense layer, row tile by row tile. At grid point t the body reads a tile of
   5000 rows of the aggregated features (window 0), the whole weight matrix (window 1) and the bias row (window 2),
   and stores into the output tile (window 3) the payload: the product of the tile with the weights plus the bias
   row on every row, with every negative entry replaced by zero. Stated at a parameter V, the contents of the core's buffers when the region
   is entered: what each window's block holds at a point, what the body leaves in the output tile as a function of
   the three input blocks, the body's triple, and the per-point data the pipeline library asks of a region. -/
import proofs.«420597_j62139586839006_1_alg».proof.Proof.Gen.KernelIdeal.Launch
import proofs.«420597_j62139586839006_1_alg».proof.Proof.Gen.KernelIdeal.Skeleton
import proofs.«420597_j62139586839006_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there (the row
    tile: every point) or kept it from the first point (the weights and the bias row: their block index never moves),
    for any per-point data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of each buffer the body touches: the row tile, the weights, the bias row, the output tile. -/
abbrev rX0 : Rect S5000x128 := Rect.unit (s := S5000x128) ![0, 0] S5000x128.size inb_S5000x128_S5000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0
abbrev rO0 : Rect S5000x128 := Rect.unit (s := S5000x128) ![0, 0] S5000x128.size inb_S5000x128_S5000x128_0_0

/-- What the body leaves in the output tile, from the three input blocks: its one store, of the payload of the three
    loads, covering the tile. -/
def out0_3 (x0 : Vec F S5000x128 .f32) (x1 : Vec F S128x128 .f32) (x2 : Vec F S1x128 .f32) : Vec F S5000x128 .f32 :=
  View.canon [⟨rO0, k0_pay1 (View.ld x0 rX0) (View.ld x1 rW0) (View.ld x2 rB0)⟩]

/-- The one store tiles the output tile, so it covers it. -/
theorem cover0_3 (p0 : Vec F S5000x128 .f32) (y : S5000x128.Idx) :
    ∃ pc ∈ ([⟨rO0, p0⟩] : List (View.Piece (Elt F) S5000x128 .f32)), y ∈ pc.1.set :=
  View.cover_of_tiled [⟨rO0, p0⟩] S5000x128.size (by rfl) y

set_option maxHeartbeats 1000000 in
/-- The body on whole staging buffers, the inputs' at contents x0, x1, x2 and the output's at anything, runs to its end
    with the inputs' buffers as they were and the output's at out0_3 of the inputs'. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The per-point data of this region on core c: the arrays as the region finds them; after the body at point t each
    input's buffer at its block and the output's at out0_3 of the three input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Layers

end
-- ==== Proof.KI.Dense1.lean ====
/- Region 1 of the program: one dense layer, row tile by row tile. At grid point t the body reads a tile of
   5000 rows of the aggregated features (window 0), the whole weight matrix (window 1) and the bias row (window 2),
   and stores into the output tile (window 3) the payload: the product of the tile with the weights plus the bias
   row on every row, with every negative entry replaced by zero. Stated at a parameter V, the contents of the core's buffers when the region
   is entered: what each window's block holds at a point, what the body leaves in the output tile as a function of
   the three input blocks, the body's triple, and the per-point data the pipeline library asks of a region. -/
import proofs.«420597_j62139586839006_1_alg».proof.Proof.Gen.KernelIdeal.Launch
import proofs.«420597_j62139586839006_1_alg».proof.Proof.Gen.KernelIdeal.Skeleton
import proofs.«420597_j62139586839006_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there (the row
    tile: every point) or kept it from the first point (the weights and the bias row: their block index never moves),
    for any per-point data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of each buffer the body touches: the row tile, the weights, the bias row, the output tile. -/
abbrev rX1 : Rect S5000x128 := Rect.unit (s := S5000x128) ![0, 0] S5000x128.size inb_S5000x128_S5000x128_0_0
abbrev rW1 : Rect S128x64 := Rect.unit (s := S128x64) ![0, 0] S128x64.size inb_S128x64_S128x64_0_0
abbrev rB1 : Rect S1x64 := Rect.unit (s := S1x64) ![0, 0] S1x64.size inb_S1x64_S1x64_0_0
abbrev rO1 : Rect S5000x64 := Rect.unit (s := S5000x64) ![0, 0] S5000x64.size inb_S5000x64_S5000x64_0_0

/-- What the body leaves in the output tile, from the three input blocks: its one store, of the payload of the three
    loads, covering the tile. -/
def out1_3 (x0 : Vec F S5000x128 .f32) (x1 : Vec F S128x64 .f32) (x2 : Vec F S1x64 .f32) : Vec F S5000x64 .f32 :=
  View.canon [⟨rO1, k1_pay1 (View.ld x0 rX1) (View.ld x1 rW1) (View.ld x2 rB1)⟩]

/-- The one store tiles the output tile, so it covers it. -/
theorem cover1_3 (p0 : Vec F S5000x64 .f32) (y : S5000x64.Idx) :
    ∃ pc ∈ ([⟨rO1, p0⟩] : List (View.Piece (Elt F) S5000x64 .f32)), y ∈ pc.1.set :=
  View.cover_of_tiled [⟨rO1, p0⟩] S5000x64.size (by rfl) y

set_option maxHeartbeats 1000000 in
/-- The body on whole staging buffers, the inputs' at contents x0, x1, x2 and the output's at anything, runs to its end
    with the inputs' buffers as they were and the output's at out1_3 of the inputs'. -/
theorem sound_kernel1 (c : Dev nD) (E : Set ℕ) (i : grid1.Coords)
    (arg1 : Memref sig .tc .vmem S5000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The per-point data of this region on core c: the arrays as the region finds them; after the body at point t each
    input's buffer at its block and the output's at out1_3 of the three input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Layers

end
-- ==== Proof.KI.Dense2.lean ====
/- Region 2 of the program: one dense layer, row tile by row tile. At grid point t the body reads a tile of
   5000 rows of the aggregated features (window 0), the whole weight matrix (window 1) and the bias row (window 2),
   and stores into the output tile (window 3) the payload: the product of the tile with the weights plus the bias
   row on every row. Stated at a parameter V, the contents of the core's buffers when the region
   is entered: what each window's block holds at a point, what the body leaves in the output tile as a function of
   the three input blocks, the body's triple, and the per-point data the pipeline library asks of a region. -/
import proofs.«420597_j62139586839006_1_alg».proof.Proof.Gen.KernelIdeal.Launch
import proofs.«420597_j62139586839006_1_alg».proof.Proof.Gen.KernelIdeal.Skeleton
import proofs.«420597_j62139586839006_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the pipeline fetched it there (the row
    tile: every point) or kept it from the first point (the weights and the bias row: their block index never moves),
    for any per-point data whose array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of each buffer the body touches: the row tile, the weights, the bias row, the output tile. -/
abbrev rX2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0
abbrev rO2 : Rect S5000x64 := Rect.unit (s := S5000x64) ![0, 0] S5000x64.size inb_S5000x64_S5000x64_0_0

/-- What the body leaves in the output tile, from the three input blocks: its one store, of the payload of the three
    loads, covering the tile. -/
def out2_3 (x0 : Vec F S5000x64 .f32) (x1 : Vec F S64x64 .f32) (x2 : Vec F S1x64 .f32) : Vec F S5000x64 .f32 :=
  View.canon [⟨rO2, k2_pay1 (View.ld x0 rX2) (View.ld x1 rW2) (View.ld x2 rB2)⟩]

/-- The one store tiles the output tile, so it covers it. -/
theorem cover2_3 (p0 : Vec F S5000x64 .f32) (y : S5000x64.Idx) :
    ∃ pc ∈ ([⟨rO2, p0⟩] : List (View.Piece (Elt F) S5000x64 .f32)), y ∈ pc.1.set :=
  View.cover_of_tiled [⟨rO2, p0⟩] S5000x64.size (by rfl) y

set_option maxHeartbeats 1000000 in
/-- The body on whole staging buffers, the inputs' at contents x0, x1, x2 and the output's at anything, runs to its end
    with the inputs' buffers as they were and the output's at out2_3 of the inputs'. -/
theorem sound_kernel2 (c : Dev nD) (E : Set ℕ) (i : grid2.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The per-point data of this region on core c: the arrays as the region finds them; after the body at point t each
    input's buffer at its block and the output's at out2_3 of the three input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Layers

end
-- ==== Proof.KI.Pool.lean ====
/- Region 3 of the program: the per-graph sums as a product with the one-hot matrix, accumulated over the 20 row
   tiles in a scratch buffer the kernel keeps between grid points. At point t the body (at t = 0 only) first
   stores zeros into the scratch, then reads the tile's 5000 rows of the one-hot matrix (window 0) and of the node
   features (window 1), adds to the scratch the product that contracts the 5000 rows, and (at t = 19 only) copies
   the scratch into the output block (window 2), which the pipeline writes back there and nowhere else. Stated at
   a parameter V, the contents of the core's buffers when the region is entered: what the scratch holds after each
   point, the invariant that carries it from point to point, and the per-point data the pipeline library asks. -/
import proofs.«420597_j62139586839006_1_alg».proof.Proof.Gen.KernelIdeal.Launch
import proofs.«420597_j62139586839006_1_alg».proof.Proof.Gen.KernelIdeal.Skeleton
import proofs.«420597_j62139586839006_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- THE ACCUMULATION. What the scratch holds after the body at point n: at the first point the tile's product added
    to the zeros just stored; afterwards the tile's product added to what the point before left. -/
def poolAt (c : Dev nD) : (n : ℕ) → n < cfg3.N → Vec F S64x64 .f32
  | 0, h => k3_pay2 (iblk3 V c 0 ⟨0, h⟩) (iblk3 V c 1 ⟨0, h⟩) (k3_pay1 (F := F))
  | n + 1, h => k3_pay2 (iblk3 V c 0 ⟨n + 1, h⟩) (iblk3 V c 1 ⟨n + 1, h⟩) (poolAt c n (Nat.lt_of_succ_lt h))

/-- The kernel's scratch operand: a whole scoped buffer of its own, passed beside the windows. -/
abbrev scM3 : Memref sig .tc .vmem S64x64 .f32 := Memref.whole cc3_scratch0

/-- The region invariant before position n: before the first point every scoped buffer that is no staging buffer at
    anything and the generator register at some state; afterwards the same with the scratch at what the point before
    left in it. -/
def PhiS3 (c : Dev nD) : (n : ℕ) → n ≤ cfg3.N → sProp 𝕄
  | 0, _ => Pipeline.ΦA spec3 c
  | n + 1, hn => iprop(owns (c : Thread nD τ) scM3 fullShare (poolAt V c n hn)
      ∗ Pipeline.scopedRestBut (Ix := Unit) (Name := ℕ) (U := UR sig nD τ) (Lvl := ℕ) (Val := Elt F) spec3 c [cc3_scratch0]
      ∗ (∃ r, prngReg c r))

/-- The per-point data of this region on core c: the arrays as the region finds them; after the body at point t each
    input's buffer at its block and the output's at the scratch's contents (copied there at the last point; at the
    other points the window is idle and this entry is consulted by nothing); the invariant PhiS3; nothing owed; full
    shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => poolAt V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = poolAt V c t.val t.isLt := by dsimp only [dat3]

/-! ## The inputs' staging buffers -/

/-- An input window's staging buffer holds its block at every point (both inputs are fetched at every point, and
    their blocks are whole tiles), for any per-point data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The two branches of the body, and where the output window is idle -/

/-- The reset branch's condition as the body computes it from the grid coordinate: the coordinate is zero. -/
abbrev cond3_0 (i : grid3.Coords) : Prop := (Scalar.cmpi .ne (Scalar.extui (Scalar.cmpi .eq (BitVec.ofNat 32 (i 0).val) 0#32)) 0#32) = 1#1
/-- The copy-out branch's condition: the coordinate is the last one. -/
abbrev cond3_1 (i : grid3.Coords) : Prop := k3_cond2 i = 1#1

/-- The reset branch is taken at the first point only, -/
theorem hcond3_0 : ∀ t : Fin cfg3.N, cond3_0 (grid3.coords t) ↔ t.val = 0 :=
  (by decide +kernel : ∀ t : Fin grid3.N, cond3_0 (grid3.coords t) ↔ t.val = 0)
/-- and the copy-out branch at the last point only: both decided over the twenty points. -/
theorem hcond3_1 : ∀ t : Fin cfg3.N, cond3_1 (grid3.coords t) ↔ t.val = 19 :=
  (by decide +kernel : ∀ t : Fin grid3.N, cond3_1 (grid3.coords t) ↔ t.val = 19)

/-- The input windows are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
/-- Where the copy-out branch is not taken the output window is idle (the body stores nothing into it) -/
theorem idleAt3_2 : ∀ t : Fin cfg3.N, ¬cond3_1 (grid3.coords t) → cfg3.idle 2 (grid3.coords t) = true := by decide +kernel
/-- and the pipeline does not write its block back; -/
theorem noFlush3_2 : ∀ t : Fin cfg3.N, ¬cond3_1 (grid3.coords t) → (cfg3.win 2).flush t = false := by decide +kernel
/-- where it is taken the window is live. -/
theorem liveAt3_2 : ∀ t : Fin cfg3.N, cond3_1 (grid3.coords t) → cfg3.idle 2 (grid3.coords t) = false := by decide +kernel

/-! ## The body's triple, case by case -/

/-- The offsets of every whole-buffer rectangle of the body are zero. -/
theorem pool_hz : (![0, 0] : Fin 2 → Nat) = fun _ => 0 := funext fun a => by fin_cases a <;> rfl

/-- The whole rectangle of the scratch and of the output block, through which every load and store of them goes. -/
abbrev rS3 : Rect S64x64 := Rect.unit (s := S64x64) ![0, 0] S64x64.size inb_S64x64_S64x64_0_0

/-- A store through the whole rectangle, made last, covers the buffer whatever was stored before it. -/
theorem pool_cover (p0 : Vec F S64x64 .f32) (L : List (View.Piece (Elt F) S64x64 .f32)) (y : S64x64.Idx) :
    ∃ pc ∈ ((⟨rS3, p0⟩ : View.Piece (Elt F) S64x64 .f32) :: L), y ∈ pc.1.set :=
  ⟨_, List.mem_cons_self, View.mem_set_unit_zero pool_hz inb_S64x64_S64x64_0_0 y⟩

set_option maxHeartbeats 1000000 in
/-- THE FIRST POINT (the reset branch taken, the copy-out branch not). On whole buffers, the inputs' at x0 and x1, the
    output's at xi and the scratch at anything, the body runs to its end with the inputs' and the output's buffers as
    they were and the scratch at the tile's product added to the zeros it stored first: the load of the scratch after
    the zeroing store reads the zeros, and the second store, through the whole rectangle, is what remains. -/
theorem run3_A (c : Dev nD) (E : Set ℕ) (i : grid3.Coords)
    (arg1 : Memref sig .tc .vmem S5000x64 .bf16) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (hc0 : cond3_0 i) (hc1 : ¬cond3_1 i)
    (x0 : Vec F S5000x64 .bf16) (x1 : Vec F S5000x64 .f32) (xi : Vec F S64x64 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k3_pay2 x0 x1 (k3_pay1 (F := F)))) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (pool_cover _ _), View.canon_cons_unit_zero pool_hz, View.readCov_unit_zero _ pool_hz]
  simp only [View.readAt_eq_ld, View.ld_unit_zero (S := S5000x64) pool_hz]

set_option maxHeartbeats 1000000 in
/-- A MIDDLE POINT (neither branch taken). On whole buffers, the inputs' at x0 and x1, the output's at xi and the
    scratch at xs, the body runs to its end with the inputs' and the output's buffers as they were and the scratch at
    the tile's product added to xs. -/
theorem run3_B (c : Dev nD) (E : Set ℕ) (i : grid3.Coords)
    (arg1 : Memref sig .tc .vmem S5000x64 .bf16) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (hc0 : ¬cond3_0 i) (hc1 : ¬cond3_1 i)
    (x0 : Vec F S5000x64 .bf16) (x1 : Vec F S5000x64 .f32) (xi : Vec F S64x64 .f32) (xs : Vec F S64x64 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k3_pay2 x0 x1 xs)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (pool_cover _ _), View.canon_unit_zero pool_hz]
  simp only [View.readAt_eq_ld, View.ld_unit_zero (S := S5000x64) pool_hz, View.ld_unit_zero (S := S64x64) pool_hz]

set_option maxHeartbeats 1000000 in
/-- THE LAST POINT (the copy-out branch taken, the reset branch not). On whole buffers, the inputs' at x0 and x1, the
    output's at anything and the scratch at xs, the body runs to its end with the inputs' buffers as they were and both
    the scratch and the output's buffer at the tile's product added to xs: the load of the scratch after its store
    reads what was stored, and that is what the branch stores over the whole output block. -/
theorem run3_C (c : Dev nD) (E : Set ℕ) (i : grid3.Coords)
    (arg1 : Memref sig .tc .vmem S5000x64 .bf16) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (hc0 : ¬cond3_0 i) (hc1 : cond3_1 i)
    (x0 : Vec F S5000x64 .bf16) (x1 : Vec F S5000x64 .f32) (xs : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1 ∗ owns (c : Thread nD τ) arg3 fullShare (k3_pay2 x0 x1 xs)
            ∗ owns (c : Thread nD τ) arg4 fullShare (k3_pay2 x0 x1 xs)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (pool_cover _ _), View.canon_unit_zero pool_hz, View.readCov_unit_zero _ pool_hz]
    simp only [View.readAt_eq_ld, View.ld_unit_zero (S := S5000x64) pool_hz, View.ld_unit_zero (S := S64x64) pool_hz]
  iexists _; isplitr
  swap; · iexact H3
  ipureintro
  sl_unfold_words
  rw [View.read_writes_eq_canon _ _ _ (pool_cover _ _), View.canon_unit_zero pool_hz]
  simp only [View.readAt_eq_ld, View.ld_unit_zero (S := S5000x64) pool_hz, View.ld_unit_zero (S := S64x64) pool_hz]

/-! ## The invariant, position by position -/

/-- The class's invariant with the scratch set apart: the scratch owned whole at some contents, every other scoped
    buffer that is no staging buffer of this region at anything, and the generator register at some state. -/
theorem PhiA3_eq (c : Dev nD) :
    (Pipeline.ΦA spec3 c : sProp 𝕄)
      = iprop((∃ d, owns (c : Thread nD τ) scM3 fullShare d)
          ∗ Pipeline.scopedRestBut (Ix := Unit) (Name := ℕ) (U := UR sig nD τ) (Lvl := ℕ) (Val := Elt F) spec3 c [cc3_scratch0]
          ∗ (∃ r, prngReg c r)) := by
  unfold Pipeline.ΦA
  rw [Pipeline.scopedRest_split_of_list spec3 c [cc3_scratch0] (by decide) (by decide)]
  simp only [scM3, owns_whole, bigSepL_singleton]
  exact equiv_iff.mp ⟨BI.sep_assoc, BI.sep_assoc'⟩

theorem PhiS3_zero (c : Dev nD) (n : ℕ) (h : n ≤ cfg3.N) (hz : n = 0) : PhiS3 V c n h = Pipeline.ΦA spec3 c := by
  subst hz; rfl

/-- Before any point but the first: the scratch at what the point before left. -/
theorem PhiS3_pos (c : Dev nD) (n : ℕ) (h : n ≤ cfg3.N) (hz : n ≠ 0) :
    PhiS3 V c n h = iprop(owns (c : Thread nD τ) scM3 fullShare (poolAt V c (n - 1) (by omega))
      ∗ Pipeline.scopedRestBut (Ix := Unit) (Name := ℕ) (U := UR sig nD τ) (Lvl := ℕ) (Val := Elt F) spec3 c [cc3_scratch0]
      ∗ (∃ r, prngReg c r)) := by
  cases n with
  | zero => exact absurd rfl hz
  | succ n => rfl

/-- After point n: the scratch at that point's contents. -/
theorem PhiS3_succ (c : Dev nD) (n : ℕ) (hn : n < cfg3.N) :
    PhiS3 V c (n + 1) hn = iprop(owns (c : Thread nD τ) scM3 fullShare (poolAt V c n hn)
      ∗ Pipeline.scopedRestBut (Ix := Unit) (Name := ℕ) (U := UR sig nD τ) (Lvl := ℕ) (Val := Elt F) spec3 c [cc3_scratch0]
      ∗ (∃ r, prngReg c r)) := rfl

/-- The invariant at a point's start, restated at the point's number. -/
theorem PhiS3_castSucc (c : Dev nD) (t : Fin cfg3.N) :
    (dat3 V c).Φ t.castSucc = PhiS3 V c t.val (Nat.le_of_lt t.isLt) := by
  dsimp only [dat3]; simp only [Fin.coe_castSucc]

/-- The accumulation at the first point: the tile's product added to zeros. -/
theorem poolAt_first (c : Dev nD) (t : Fin cfg3.N) (hz : t.val = 0) :
    poolAt V c t.val t.isLt = k3_pay2 (iblk3 V c 0 t) (iblk3 V c 1 t) (k3_pay1 (F := F)) := by
  obtain ⟨n, hn⟩ := t
  cases n with
  | zero => rfl
  | succ n => exact absurd hz (Nat.succ_ne_zero n)

/-- The accumulation at a later point: the tile's product added to what the point before left. -/
theorem poolAt_later (c : Dev nD) (t : Fin cfg3.N) (hz : t.val ≠ 0) :
    poolAt V c t.val t.isLt
      = k3_pay2 (iblk3 V c 0 t) (iblk3 V c 1 t) (poolAt V c (t.val - 1) (Nat.lt_of_le_of_lt (Nat.sub_le _ _) t.isLt)) := by
  obtain ⟨n, hn⟩ := t
  cases n with
  | zero => exact absurd rfl hz
  | succ n => rfl

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4000000 in
/-- The body at any point. The inputs' buffers hold their blocks. At the first point the invariant hands over the
    scratch at anything, the body resets it and the triple of the first point applies; at a later point it hands it
    over at what the point before left, and the triple of a middle point or of the last point applies. In each case
    the scratch comes back at this point's term of the accumulation. At every point but the last the output window is
    idle and its buffer goes back as it came; at the last it holds the accumulation's last term. The other scoped
    buffers, the generator register and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  have hN : t.val < 20 := lt_of_lt_of_eq t.isLt (show cfg3.N = 20 from N_3)
  by_cases h0 : t.val = 0
  · have h1 : ¬t.val = 19 := by omega
    rw [Dat.leavesExact_idle (dat3 V c) 2 t (idleAt3_2 t (fun h => h1 ((hcond3_1 t).mp h))) (noFlush3_2 t (fun h => h1 ((hcond3_1 t).mp h)))]
    rw [poolAt_first V c t h0, PhiS3_castSucc V c t, PhiS3_zero V c _ _ h0, PhiA3_eq]
    iintro ⟨⟨HS, HR, Hg⟩, Ho, ⟨%d0, H0⟩, ⟨%d1, H1⟩, ⟨%d2, H2⟩⟩
    iapply (run3_A c Set.univ (grid3.coords t) _ _ _ _ _ _ _ _ ((hcond3_0 t).mpr h0) (fun h => h1 ((hcond3_1 t).mp h))
      (iblk3 V c 0 t) (iblk3 V c 1 t) ((dat3 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · rw [poolAt_later V c t h0, PhiS3_castSucc V c t, PhiS3_pos V c _ _ h0]
    by_cases h1 : t.val = 19
    · rw [show (dat3 V c).leavesExact 2 t = owns (c : Thread nD τ) (st3_2 t) fullShare ((dat3 V c).after 2 t) from by
        unfold Dat.leavesExact; rw [liveAt3_2 t ((hcond3_1 t).mpr h1)], after3_2, poolAt_later V c t h0]
      iintro ⟨⟨HS, HR, Hg⟩, Ho, ⟨%d0, H0⟩, ⟨%d1, H1⟩, ⟨%d2, H2⟩⟩
      iapply (run3_C c Set.univ (grid3.coords t) _ _ _ _ _ _ _ _ (fun h => h0 ((hcond3_0 t).mp h)) ((hcond3_1 t).mpr h1)
        (iblk3 V c 0 t) (iblk3 V c 1 t) (poolAt V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [Dat.leavesExact_idle (dat3 V c) 2 t (idleAt3_2 t (fun h => h1 ((hcond3_1 t).mp h))) (noFlush3_2 t (fun h => h1 ((hcond3_1 t).mp h)))]
      iintro ⟨⟨HS, HR, Hg⟩, Ho, ⟨%d0, H0⟩, ⟨%d1, H1⟩, ⟨%d2, H2⟩⟩
      iapply (run3_B c Set.univ (grid3.coords t) _ _ _ _ _ _ _ _ (fun h => h0 ((hcond3_0 t).mp h)) (fun h => h1 ((hcond3_1 t).mp h))
        (iblk3 V c 0 t) (iblk3 V c 1 t) ((dat3 V c).before 2 t d2) (poolAt V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the scratch's named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 20 := N_3; omega), PhiA3_eq]
  iintro ⟨HS, HR, Hg⟩
  isplitl [HS]; · iexists _; iexact HS
  isplitl [HR]; · iexact HR
  iexact Hg

end Cert.KernelIdeal.Layers

end
-- ==== Proof.KI.Whole.lean ====
-- laid out by: scratch/gen_whole.js  (template scratch/Whole.lean.tmpl; NS=KernelIdeal D=KI)
/- The whole program as nine items: a stretch of host operations, a region, a stretch, a region, … The buffers'
   contents at each boundary are a fold from the launch memory: after a stretch, what its operations leave; after a
   region, the same contents with the region's one output array replaced by what the pipeline's write-backs leave there
   (the three dense layers' arrays, then the pooled sums). Each region is entered from every unscoped buffer at the
   boundary's contents beside the generator register and the core owing nothing, and is left the same way; the launch
   theorem for several regions then gives: every weakly fair execution terminates, the result buffer holds what the last
   stretch leaves, and every argument array holds its launch contents. -/
import proofs.«420597_j62139586839006_1_alg».proof.Proof.KI.RunCond
import proofs.«420597_j62139586839006_1_alg».proof.Proof.KI.Dense0
import proofs.«420597_j62139586839006_1_alg».proof.Proof.KI.Dense1
import proofs.«420597_j62139586839006_1_alg».proof.Proof.KI.Dense2
import proofs.«420597_j62139586839006_1_alg».proof.Proof.KI.Pool

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Region 0 is entered after the first stretch. -/
abbrev E0 (c : Dev nD) (b : Ref sig .tc) : Buf (Elt F) ((c : Thread nD τ).loc b) := Gen.V1 m c b
/-- What region 0 leaves in its output array: the first layer. -/
def o2 (c : Dev nD) : Buf (Elt F) ((c : Thread nD τ).loc main_v32) := (dat0 (E0 m) c).arrAt 3 cfg0.N
abbrev W2 (c : Dev nD) : Valuation τ sig (Elt F) := Function.update (Gen.V1 m c) main_v32 (o2 m c)
abbrev W3 (c : Dev nD) : Valuation τ sig (Elt F) := StableHlo.after hostOps1 (W2 m c)
abbrev E1 (c : Dev nD) (b : Ref sig .tc) : Buf (Elt F) ((c : Thread nD τ).loc b) := W3 m c b
/-- What region 1 leaves in its output array: the second layer. -/
def o4 (c : Dev nD) : Buf (Elt F) ((c : Thread nD τ).loc main_v50) := (dat1 (E1 m) c).arrAt 3 cfg1.N
abbrev W4 (c : Dev nD) : Valuation τ sig (Elt F) := Function.update (W3 m c) main_v50 (o4 m c)
abbrev W5 (c : Dev nD) : Valuation τ sig (Elt F) := StableHlo.after hostOps2 (W4 m c)
abbrev E2 (c : Dev nD) (b : Ref sig .tc) : Buf (Elt F) ((c : Thread nD τ).loc b) := W5 m c b
/-- What region 2 leaves in its output array: the third layer. -/
def o6 (c : Dev nD) : Buf (Elt F) ((c : Thread nD τ).loc main_v68) := (dat2 (E2 m) c).arrAt 3 cfg2.N
abbrev W6 (c : Dev nD) : Valuation τ sig (Elt F) := Function.update (W5 m c) main_v68 (o6 m c)
abbrev W7 (c : Dev nD) : Valuation τ sig (Elt F) := StableHlo.after hostOps3 (W6 m c)
abbrev E3 (c : Dev nD) (b : Ref sig .tc) : Buf (Elt F) ((c : Thread nD τ).loc b) := W7 m c b
/-- What region 3 leaves in its output array: the pooled sums. -/
def o8 (c : Dev nD) : Buf (Elt F) ((c : Thread nD τ).loc main_v80) := (dat3 (E3 m) c).arrAt 2 cfg3.N

/-- What the regions leave, as the one family the generated fold is written over: each region's output array at the
    contents above, any other buffer (read nowhere) at its launch contents. -/
def outs : Gen.Outs (F := F) := fun _ r c =>
  if h : r = main_v32 then h ▸ o2 m c
  else if h : r = main_v50 then h ▸ o4 m c
  else if h : r = main_v68 then h ▸ o6 m c
  else if h : r = main_v80 then h ▸ o8 m c
  else m ((c : Thread nD τ).loc r)

theorem outs_v32 (c : Dev nD) : outs m 2 main_v32 c = o2 m c := by unfold outs; rw [dif_pos rfl]
theorem outs_v50 (c : Dev nD) : outs m 4 main_v50 c = o4 m c := by unfold outs; rw [dif_neg (by decide), dif_pos rfl]
theorem outs_v68 (c : Dev nD) : outs m 6 main_v68 c = o6 m c := by
  unfold outs; rw [dif_neg (by decide), dif_neg (by decide), dif_pos rfl]
theorem outs_v80 (c : Dev nD) : outs m 8 main_v80 c = o8 m c := by
  unfold outs; rw [dif_neg (by decide), dif_neg (by decide), dif_neg (by decide), dif_pos rfl]

/-- The generated fold at this family is the fold above. -/
theorem V2_eq (c : Dev nD) : Gen.V2 m (outs m) c = W2 m c := by
  show Function.update (Gen.V1 m c) main_v32 (outs m 2 main_v32 c) = _; rw [outs_v32]
theorem V3_eq (c : Dev nD) : Gen.V3 m (outs m) c = W3 m c := by
  show StableHlo.after hostOps1 (Gen.V2 m (outs m) c) = _; rw [V2_eq]
theorem V4_eq (c : Dev nD) : Gen.V4 m (outs m) c = W4 m c := by
  show Function.update (Gen.V3 m (outs m) c) main_v50 (outs m 4 main_v50 c) = _; rw [V3_eq, outs_v50]
theorem V5_eq (c : Dev nD) : Gen.V5 m (outs m) c = W5 m c := by
  show StableHlo.after hostOps2 (Gen.V4 m (outs m) c) = _; rw [V4_eq]
theorem V6_eq (c : Dev nD) : Gen.V6 m (outs m) c = W6 m c := by
  show Function.update (Gen.V5 m (outs m) c) main_v68 (outs m 6 main_v68 c) = _; rw [V5_eq, outs_v68]
theorem V7_eq (c : Dev nD) : Gen.V7 m (outs m) c = W7 m c := by
  show StableHlo.after hostOps3 (Gen.V6 m (outs m) c) = _; rw [V6_eq]

/-! ## The per-point data of the four pipelines, each at its region's entry contents -/

def pdats : (p : Fin 4) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c

/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## Each region leaves its output array at the contents named, every other buffer as entered -/

abbrev W8 (c : Dev nD) : Valuation τ sig (Elt F) := Function.update (W7 m c) main_v80 (o8 m c)
theorem V8_eq (c : Dev nD) : Gen.V8 m (outs m) c = W8 m c := by
  show Function.update (Gen.V7 m (outs m) c) main_v80 (outs m 8 main_v80 c) = _; rw [V7_eq, outs_v80]

theorem hF0 (c : Dev nD) (w : Fin cfg0.W) : (pdats m 0 c).arrAt w cfg0.N = W2 m c (Proc.devRef .tc (Pipeline.arrRef spec0 w)) := by
  match w with
  | ⟨0, _⟩ =>
    show (dat0 (E0 m) c).arrAt 0 cfg0.N = Function.update (Gen.V1 m c) (Proc.devRef .tc main_v32) (o2 m c) (Proc.devRef .tc main_v30)
    rw [Function.update_of_ne (StableHlo.devRef_ne_of_ne (by decide : main_v30 ≠ main_v32))]
    exact ((dat0 (E0 m) c).arrAt_in 0 rfl _).trans (A_eq0 (E0 m) c 0)
  | ⟨1, _⟩ =>
    show (dat0 (E0 m) c).arrAt 1 cfg0.N = Function.update (Gen.V1 m c) (Proc.devRef .tc main_v32) (o2 m c) (Proc.devRef .tc main_arg1)
    rw [Function.update_of_ne (StableHlo.devRef_ne_of_ne (by decide : main_arg1 ≠ main_v32))]
    exact ((dat0 (E0 m) c).arrAt_in 1 rfl _).trans (A_eq0 (E0 m) c 1)
  | ⟨2, _⟩ =>
    show (dat0 (E0 m) c).arrAt 2 cfg0.N = Function.update (Gen.V1 m c) (Proc.devRef .tc main_v32) (o2 m c) (Proc.devRef .tc main_v31)
    rw [Function.update_of_ne (StableHlo.devRef_ne_of_ne (by decide : main_v31 ≠ main_v32))]
    exact ((dat0 (E0 m) c).arrAt_in 2 rfl _).trans (A_eq0 (E0 m) c 2)
  | ⟨3, _⟩ =>
    show o2 m c = Function.update (Gen.V1 m c) (Proc.devRef .tc main_v32) (o2 m c) (Proc.devRef .tc main_v32)
    rw [Function.update_self]
theorem hrest0 (c : Dev nD) : ∀ b, b ∉ Finset.univ.image (Pipeline.arrRef spec0) → W2 m c (Proc.devRef .tc b) = E0 m c b :=
  fun b hb => Function.update_of_ne (StableHlo.devRef_ne_of_ne fun e => hb (Finset.mem_image.mpr ⟨3, Finset.mem_univ _, e.symm⟩)) _ _

theorem hF1 (c : Dev nD) (w : Fin cfg1.W) : (pdats m 1 c).arrAt w cfg1.N = W4 m c (Proc.devRef .tc (Pipeline.arrRef spec1 w)) := by
  match w with
  | ⟨0, _⟩ =>
    show (dat1 (E1 m) c).arrAt 0 cfg1.N = Function.update (W3 m c) (Proc.devRef .tc main_v50) (o4 m c) (Proc.devRef .tc main_v48)
    rw [Function.update_of_ne (StableHlo.devRef_ne_of_ne (by decide : main_v48 ≠ main_v50))]
    exact ((dat1 (E1 m) c).arrAt_in 0 rfl _).trans (A_eq1 (E1 m) c 0)
  | ⟨1, _⟩ =>
    show (dat1 (E1 m) c).arrAt 1 cfg1.N = Function.update (W3 m c) (Proc.devRef .tc main_v50) (o4 m c) (Proc.devRef .tc main_arg3)
    rw [Function.update_of_ne (StableHlo.devRef_ne_of_ne (by decide : main_arg3 ≠ main_v50))]
    exact ((dat1 (E1 m) c).arrAt_in 1 rfl _).trans (A_eq1 (E1 m) c 1)
  | ⟨2, _⟩ =>
    show (dat1 (E1 m) c).arrAt 2 cfg1.N = Function.update (W3 m c) (Proc.devRef .tc main_v50) (o4 m c) (Proc.devRef .tc main_v49)
    rw [Function.update_of_ne (StableHlo.devRef_ne_of_ne (by decide : main_v49 ≠ main_v50))]
    exact ((dat1 (E1 m) c).arrAt_in 2 rfl _).trans (A_eq1 (E1 m) c 2)
  | ⟨3, _⟩ =>
    show o4 m c = Function.update (W3 m c) (Proc.devRef .tc main_v50) (o4 m c) (Proc.devRef .tc main_v50)
    rw [Function.update_self]
theorem hrest1 (c : Dev nD) : ∀ b, b ∉ Finset.univ.image (Pipeline.arrRef spec1) → W4 m c (Proc.devRef .tc b) = E1 m c b :=
  fun b hb => Function.update_of_ne (StableHlo.devRef_ne_of_ne fun e => hb (Finset.mem_image.mpr ⟨3, Finset.mem_univ _, e.symm⟩)) _ _

theorem hF2 (c : Dev nD) (w : Fin cfg2.W) : (pdats m 2 c).arrAt w cfg2.N = W6 m c (Proc.devRef .tc (Pipeline.arrRef spec2 w)) := by
  match w with
  | ⟨0, _⟩ =>
    show (dat2 (E2 m) c).arrAt 0 cfg2.N = Function.update (W5 m c) (Proc.devRef .tc main_v68) (o6 m c) (Proc.devRef .tc main_v66)
    rw [Function.update_of_ne (StableHlo.devRef_ne_of_ne (by decide : main_v66 ≠ main_v68))]
    exact ((dat2 (E2 m) c).arrAt_in 0 rfl _).trans (A_eq2 (E2 m) c 0)
  | ⟨1, _⟩ =>
    show (dat2 (E2 m) c).arrAt 1 cfg2.N = Function.update (W5 m c) (Proc.devRef .tc main_v68) (o6 m c) (Proc.devRef .tc main_arg5)
    rw [Function.update_of_ne (StableHlo.devRef_ne_of_ne (by decide : main_arg5 ≠ main_v68))]
    exact ((dat2 (E2 m) c).arrAt_in 1 rfl _).trans (A_eq2 (E2 m) c 1)
  | ⟨2, _⟩ =>
    show (dat2 (E2 m) c).arrAt 2 cfg2.N = Function.update (W5 m c) (Proc.devRef .tc main_v68) (o6 m c) (Proc.devRef .tc main_v67)
    rw [Function.update_of_ne (StableHlo.devRef_ne_of_ne (by decide : main_v67 ≠ main_v68))]
    exact ((dat2 (E2 m) c).arrAt_in 2 rfl _).trans (A_eq2 (E2 m) c 2)
  | ⟨3, _⟩ =>
    show o6 m c = Function.update (W5 m c) (Proc.devRef .tc main_v68) (o6 m c) (Proc.devRef .tc main_v68)
    rw [Function.update_self]
theorem hrest2 (c : Dev nD) : ∀ b, b ∉ Finset.univ.image (Pipeline.arrRef spec2) → W6 m c (Proc.devRef .tc b) = E2 m c b :=
  fun b hb => Function.update_of_ne (StableHlo.devRef_ne_of_ne fun e => hb (Finset.mem_image.mpr ⟨3, Finset.mem_univ _, e.symm⟩)) _ _

theorem hF3 (c : Dev nD) (w : Fin cfg3.W) : (pdats m 3 c).arrAt w cfg3.N = W8 m c (Proc.devRef .tc (Pipeline.arrRef spec3 w)) := by
  match w with
  | ⟨0, _⟩ =>
    show (dat3 (E3 m) c).arrAt 0 cfg3.N = Function.update (W7 m c) (Proc.devRef .tc main_v80) (o8 m c) (Proc.devRef .tc main_v75)
    rw [Function.update_of_ne (StableHlo.devRef_ne_of_ne (by decide : main_v75 ≠ main_v80))]
    exact ((dat3 (E3 m) c).arrAt_in 0 rfl _).trans (A_eq3 (E3 m) c 0)
  | ⟨1, _⟩ =>
    show (dat3 (E3 m) c).arrAt 1 cfg3.N = Function.update (W7 m c) (Proc.devRef .tc main_v80) (o8 m c) (Proc.devRef .tc main_v68)
    rw [Function.update_of_ne (StableHlo.devRef_ne_of_ne (by decide : main_v68 ≠ main_v80))]
    exact ((dat3 (E3 m) c).arrAt_in 1 rfl _).trans (A_eq3 (E3 m) c 1)
  | ⟨2, _⟩ =>
    show o8 m c = Function.update (W7 m c) (Proc.devRef .tc main_v80) (o8 m c) (Proc.devRef .tc main_v80)
    rw [Function.update_self]
theorem hrest3 (c : Dev nD) : ∀ b, b ∉ Finset.univ.image (Pipeline.arrRef spec3) → W8 m c (Proc.devRef .tc b) = E3 m c b :=
  fun b hb => Function.update_of_ne (StableHlo.devRef_ne_of_ne fun e => hb (Finset.mem_image.mpr ⟨2, Finset.mem_univ _, e.symm⟩)) _ _

/-! ## The regions as segments -/

set_option backward.isDefEq.respectTransparency.types false in
/-- Region 0 (the first dense layer) as a segment: entered from every unscoped buffer at the boundary's contents, left with its
    output array replaced. Its arrays are split out of the unscoped buffers and put back at the exit contents; the
    generator register goes into the region's invariant and comes back; nothing is owed; the kernel has no semaphore
    of its own. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (the second dense layer) as a segment: entered from every unscoped buffer at the boundary's contents, left with its
    output array replaced. Its arrays are split out of the unscoped buffers and put back at the exit contents; the
    generator register goes into the region's invariant and comes back; nothing is owed; the kernel has no semaphore
    of its own. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E1 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (the third dense layer) as a segment: entered from every unscoped buffer at the boundary's contents, left with its
    output array replaced. Its arrays are split out of the unscoped buffers and put back at the exit contents; the
    generator register goes into the region's invariant and comes back; nothing is owed; the kernel has no semaphore
    of its own. -/
def reg2 : Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E2 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (the pooling) as a segment: entered from every unscoped buffer at the boundary's contents, left with its
    output array replaced. Its arrays are split out of the unscoped buffers and put back at the exit contents; the
    generator register goes into the region's invariant and comes back; nothing is owed; the kernel has no semaphore
    of its own. -/
def reg3 : Pipeline.RegionSeg (pcfgs (F := F)) Gen.adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (E3 m) c)
    unfold Pipeline.ΦA
    iintro ⟨Hp, -, Hr⟩
    isplitl [Hr]; · iexact Hr
    iexact Hp
  hout c := by
    rw [Pipeline.ownSems0_none]
    refine BIBase.Entails.trans (hout3 (E3 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (E3 m c) (fun b => W8 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of the program terminates, faulting nowhere; at the
    end the result buffer holds what the last stretch of host operations leaves of the pooled sums, and every argument
    array holds its launch contents. -/
theorem run (ρ : Dev nD → PrngReg) :
    θ_run defs (onTc (τ := τ) (main (F := F))) ⟨m, fun _ => 0, ρ⟩ (fun r => ∀ c : Dev nD,
      r.2.mem ((c.tc : Thread nD τ).loc main_v85) = Gen.V9 m (outs m) c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  GenP.run_cond m (emb₁ : Emb (UR sig nD τ) 𝕄) () Variants.none L lv (fun _ _ => rfl) ρ (outs m) (pdats m)
    (0 : Dev nD → CellTallies nD τ sig Unit) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)

end Cert.KernelIdeal.Layers

end
-- ==== Proof.RefGen.lean ====
/- The reference program's run and its operations read one at a time: both are the generated modules, gathered
   here so that the modules about the reference's value import one name. -/
import proofs.«420597_j62139586839006_1_alg».proof.Proof.Gen.ReferenceIdeal.Run
import proofs.«420597_j62139586839006_1_alg».proof.Proof.Gen.ReferenceIdeal.Read
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.Value.Layers.lean ====
/- The three dense regions' arrays, read entry by entry at the extended reals, are the reference's three layers. -/
import proofs.«420597_j62139586839006_1_alg».proof.Proof.KI.Dense0
import proofs.«420597_j62139586839006_1_alg».proof.Proof.KI.Dense1
import proofs.«420597_j62139586839006_1_alg».proof.Proof.KI.Dense2
import proofs.«420597_j62139586839006_1_alg».proof.Proof.RefGen
import proofs.«420597_j62139586839006_1_alg».proof.Proof.LibPlainDot
import Idealize.ShloMosaic.Lib.ValueIdx
import Idealize.ShloMosaic.Lib.Pipeline.Value
import Idealize.ShloMosaic.PureOps.Ideal.Laws

set_option maxRecDepth 16384

noncomputable section

namespace Cert.Bridge.Layers

open Cert.KernelIdeal Cert.KernelIdeal.Gen Cert.KernelIdeal.Layers
open Idealize.ShloMosaic Idealize.ShloMosaic.TcCoe Idealize.SL.Sem Idealize.ShloMosaic.ValueIdx

/-- The contents of a core's buffers, as a region of the idealized kernel's program finds them. -/
abbrev KV : Type := (c : Dev nD) → (b : Ref sig .tc) → Buf (Elt Ideal) ((c : Thread nD τ).loc b)

/-! Each region runs over 20 grid points; point t loads rows 5000 t … 5000 t + 4999 of its input array, the whole
    weight matrix and the bias row, and stores over the same rows of its output array the tile times the weights plus
    the bias row (clamped at zero in the first two regions). At the extended reals the narrowing of the operands is
    the identity and the product into the zero accumulator is the plain sum of products, so entry (r, j) of the output
    array is  ∑ k, a (r, k) · W (k, j) + b (0, j)  (clamped), whichever point wrote it: one function of the whole
    arrays, of which every point writes back its own block, and whose row r lies in the block of point r / 5000. The
    reference's layer, read at the same entry, is the same sum over the same operands. -/

/-- The offsets of a whole-buffer rectangle are zero on both axes. -/
theorem offsets_zero : (![0, 0] : Fin 2 → Nat) = fun _ => 0 := funext fun a => by fin_cases a <;> rfl

/-! ## Region 0: 128 features to 128, with the clamp -/

/-- Region 0's payload at entry (p, q): row p of the tile times column q of the weights, plus the bias row's entry q,
    negatives replaced by zero. -/
theorem pay0_apply (x : Vec Ideal S5000x128 .f32) (W : Vec Ideal S128x128 .f32) (b : Vec Ideal S1x128 .f32)
    (p : Fin 5000) (q : Fin 128) :
    k0_pay1 (F := Ideal) x W b (ix2 p q)
      = max ((∑ k : Fin 128, x (ix2 p k) * W (ix2 k q)) + b (ix2 (0 : Fin 1) q)) (Ideal.ofBits .f32 0x00000000#32) := by
  unfold k0_pay1
  refine congrArg₂ max (congrArg₂ (· + ·) ?_ ?_) rfl
  · refine (PlainDot.matmul_zero_apply (M := 5000) (K := 128) (N := 128) dot_S5000x128_S128x128_S5000x128_1_0_0_1_n_n
      rfl rfl rfl rfl rfl rfl rfl rfl none _ _ p q).trans ?_
    refine Finset.sum_congr rfl fun k _ => ?_
    rw [shapeCast_self]
    rfl
  · rw [shapeCast_self]
    exact broadcastTo_apply b broadcasts_S1x128_S5000x128 (ix2 p q) (ix2 (0 : Fin 1) q) (fun a => by
      match a with
      | ⟨0, _⟩ => rfl
      | ⟨1, _⟩ => rfl)

/-- The first dense layer as one function of the whole arrays: at row i and column j, row i of the features times
    column j of the weights, plus the bias row's entry j, negatives replaced by zero. -/
def dense0 (a : Vec Ideal S100000x128 .f32) (W : Vec Ideal S128x128 .f32) (b : Vec Ideal S1x128 .f32) :
    Vec Ideal S100000x128 .f32 := fun i =>
  max ((∑ k : Fin 128, a (ix2 (⟨(i 0).val, (i 0).isLt⟩ : Fin 100000) k) * W (ix2 k (⟨(i 1).val, (i 1).isLt⟩ : Fin 128)))
      + b (ix2 (0 : Fin 1) (⟨(i 1).val, (i 1).isLt⟩ : Fin 128))) (Ideal.ofBits .f32 0x00000000#32)

/-- That function at row r and column q. -/
theorem dense0_apply (a : Vec Ideal S100000x128 .f32) (W : Vec Ideal S128x128 .f32) (b : Vec Ideal S1x128 .f32)
    (r : Fin 100000) (q : Fin 128) :
    dense0 a W b (ix2 r q)
      = max ((∑ k : Fin 128, a (ix2 r k) * W (ix2 k q)) + b (ix2 (0 : Fin 1) q)) (Ideal.ofBits .f32 0x00000000#32) := rfl

/-- The block indices of region 0's four windows at every grid point: the row tiles move with the point, the weights
    and the bias row stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Region 0 has 20 points. -/
theorem point0_lt (t : Fin cfg0.N) : t.val < 20 := Nat.lt_of_lt_of_eq t.isLt N_0

/-- The feature tile at point t is rows 5000 t … 5000 t + 4999 of the feature array. -/
theorem iblk0_0_apply (V : KV) (c : Dev nD) (t : Fin cfg0.N) (p : Fin 5000) (k : Fin 128) :
    (iblk0 (F := Ideal) V c 0 t : Vec Ideal S5000x128 .f32) (ix2 p k)
      = (V c main_v30 : Vec Ideal S100000x128 .f32)
          (ix2 (⟨t.val * 5000 + p.val, by have := point0_lt t; omega⟩ : Fin 100000) k) := by
  obtain ⟨e00, e01, -⟩ := idx0 t
  show V c main_v30 (((cfg0.win 0).blk t).view.emb (ix2 p k)) = _
  refine congrArg (V c main_v30) (funext fun a => Fin.ext ?_)
  match a with
  | ⟨0, _⟩ => show win0_0.index t (0 : Fin 2) * 5000 + 1 * p.val = t.val * 5000 + p.val; rw [e00]; omega
  | ⟨1, _⟩ => show win0_0.index t (1 : Fin 2) * 128 + 1 * k.val = k.val; rw [e01]; omega

/-- The weights' block at every point is the weight matrix. -/
theorem iblk0_1_apply (V : KV) (c : Dev nD) (t : Fin cfg0.N) (k : Fin 128) (q : Fin 128) :
    (iblk0 (F := Ideal) V c 1 t : Vec Ideal S128x128 .f32) (ix2 k q)
      = (V c main_arg1 : Vec Ideal S128x128 .f32) (ix2 k q) := by
  obtain ⟨-, -, e10, e11, -⟩ := idx0 t
  show V c main_arg1 (((cfg0.win 1).blk t).view.emb (ix2 k q)) = _
  refine congrArg (V c main_arg1) (funext fun a => Fin.ext ?_)
  match a with
  | ⟨0, _⟩ => show win0_1.index t (0 : Fin 2) * 128 + 1 * k.val = k.val; rw [e10]; omega
  | ⟨1, _⟩ => show win0_1.index t (1 : Fin 2) * 128 + 1 * q.val = q.val; rw [e11]; omega

/-- The bias row's block at every point is the bias row. -/
theorem iblk0_2_apply (V : KV) (c : Dev nD) (t : Fin cfg0.N) (q : Fin 128) :
    (iblk0 (F := Ideal) V c 2 t : Vec Ideal S1x128 .f32) (ix2 (0 : Fin 1) q)
      = (V c main_v31 : Vec Ideal S1x128 .f32) (ix2 (0 : Fin 1) q) := by
  obtain ⟨-, -, -, -, e20, e21, -⟩ := idx0 t
  show V c main_v31 (((cfg0.win 2).blk t).view.emb (ix2 (0 : Fin 1) q)) = _
  refine congrArg (V c main_v31) (funext fun a => Fin.ext ?_)
  match a with
  | ⟨0, _⟩ => show win0_2.index t (0 : Fin 2) * 1 + 1 * 0 = 0; rw [e20]
  | ⟨1, _⟩ => show win0_2.index t (1 : Fin 2) * 128 + 1 * q.val = q.val; rw [e21]; omega

/-- What point t writes back is block t of the layer's function of the arrays the region finds. -/
theorem flushed0_eq (V : KV) (c : Dev nD) (t : Fin cfg0.N) :
    (dat0 (F := Ideal) V c).flushed 3 t
      = ((cfg0.win 3).blk t).view.read (Elt Ideal) (dense0 (V c main_v30) (V c main_arg1) (V c main_v31)) := by
  show (cfg0.win 3).cut (grid0.coords t) ((dat0 (F := Ideal) V c).after 3 t) = _
  rw [after0_3]
  unfold out0_3
  rw [View.canon_unit_zero offsets_zero]
  simp only [View.ld_unit_zero (S := S5000x128) offsets_zero, View.ld_unit_zero (S := S128x128) offsets_zero,
    View.ld_unit_zero (S := S1x128) offsets_zero]
  funext j
  obtain ⟨-, -, -, -, -, -, e30, e31⟩ := idx0 t
  have ht := point0_lt t
  have hj0 : (j 0).val < 5000 := (j 0).isLt
  have hj1 : (j 1).val < 128 := (j 1).isLt
  have hx : (win0 3).xinj (grid0.coords t) j = ix2 (⟨(j 0).val, hj0⟩ : Fin 5000) (⟨(j 1).val, hj1⟩ : Fin 128) :=
    funext fun a => match a with | ⟨0, _⟩ => rfl | ⟨1, _⟩ => rfl
  have hemb : ((cfg0.win 3).blk t).view.emb j
      = ix2 (⟨t.val * 5000 + (j 0).val, by omega⟩ : Fin 100000) (⟨(j 1).val, hj1⟩ : Fin 128) :=
    funext fun a => Fin.ext (by
      match a with
      | ⟨0, _⟩ => show win0_3.index t (0 : Fin 2) * 5000 + 1 * (j 0).val = t.val * 5000 + (j 0).val; rw [e30]; omega
      | ⟨1, _⟩ => show win0_3.index t (1 : Fin 2) * 128 + 1 * (j 1).val = (j 1).val; rw [e31]; omega)
  show k0_pay1 (F := Ideal) (iblk0 V c 0 t) (iblk0 V c 1 t) (iblk0 V c 2 t) ((win0 3).xinj (grid0.coords t) j)
    = dense0 (V c main_v30) (V c main_arg1) (V c main_v31) (((cfg0.win 3).blk t).view.emb j)
  rw [hx, hemb]
  refine (pay0_apply (iblk0 V c 0 t) (iblk0 V c 1 t) (iblk0 V c 2 t) ⟨(j 0).val, hj0⟩ ⟨(j 1).val, hj1⟩).trans ?_
  refine Eq.trans ?_ (dense0_apply (V c main_v30) (V c main_arg1) (V c main_v31)
    ⟨t.val * 5000 + (j 0).val, by omega⟩ ⟨(j 1).val, hj1⟩).symm
  exact congrArg₂ max (congrArg₂ (· + ·) (Finset.sum_congr rfl fun k _ => congrArg₂ (· * ·)
    (iblk0_0_apply V c t ⟨(j 0).val, hj0⟩ k) (iblk0_1_apply V c t k ⟨(j 1).val, hj1⟩))
    (iblk0_2_apply V c t ⟨(j 1).val, hj1⟩)) rfl

/-- Row i of the output lies in the tile of point i / 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, e30, e31⟩ := idx0 t
  refine ⟨t, flush0_3 t, ?_⟩
  show i ∈ ((View.whole main_v32).slice (win0_3.rect t)).set
  rw [View.set_slice_whole, Rect.mem_set_unit]
  intro a
  match a with
  | ⟨0, _⟩ =>
    show win0_3.index t (0 : Fin 2) * 5000 ≤ (i 0).val ∧ (i 0).val < win0_3.index t (0 : Fin 2) * 5000 + 5000
    rw [e30, ht]; omega
  | ⟨1, _⟩ =>
    show win0_3.index t (1 : Fin 2) * 128 ≤ (i 1).val ∧ (i 1).val < win0_3.index t (1 : Fin 2) * 128 + 128
    rw [e31]; omega

/-- The array region 0 leaves is the layer's function of the arrays it found. -/
theorem final0 (V : KV) (c : Dev nD) :
    (dat0 (F := Ideal) V c).arrAt 3 cfg0.N = dense0 (V c main_v30) (V c main_arg1) (V c main_v31) :=
  (dat0 (F := Ideal) V c).arrAt_eq_of_cover 3 (dense0 (V c main_v30) (V c main_arg1) (V c main_v31))
    (fun t _ => flushed0_eq V c t) cover0

/-- The reference's first hidden layer is the same function, of the aggregated features, the weights and any bias row
    whose entries are the bias vector's. -/
theorem ref0_eq (x0 : (⟨Cert.ReferenceIdeal.S100000x128, .f32⟩ : BufTy).Contents (Elt Ideal)) (x1 : (⟨Cert.ReferenceIdeal.S128x128, .f32⟩ : BufTy).Contents (Elt Ideal)) (x2 : (⟨Cert.ReferenceIdeal.S128, .f32⟩ : BufTy).Contents (Elt Ideal)) (x7 x8 : (⟨Cert.ReferenceIdeal.S1600000, .i32⟩ : BufTy).Contents (Elt Ideal))
    (b : Vec Ideal S1x128 .f32) (hb : ∀ j : Fin 128, b (ix2 (0 : Fin 1) j) = x2 (ix1 j)) :
    dense0 (Cert.ReferenceIdeal.Read.val_main_v30 x0 x7 x8) x1 b = Cert.ReferenceIdeal.Read.val_main_v35 x0 x1 x2 x7 x8 := by
  funext i
  have hl : ∀ k : Fin 128, Cert.ReferenceIdeal.Read.lidx_main_v31 i k = ix2 (⟨(i 0).val, (i 0).isLt⟩ : Fin 100000) k :=
    fun k => funext fun a => match a with | ⟨0, _⟩ => rfl | ⟨1, _⟩ => rfl
  have hr : ∀ k : Fin 128, Cert.ReferenceIdeal.Read.ridx_main_v31 i k = ix2 k (⟨(i 1).val, (i 1).isLt⟩ : Fin 128) :=
    fun k => funext fun a => match a with | ⟨0, _⟩ => rfl | ⟨1, _⟩ => rfl
  have hbi : Cert.ReferenceIdeal.Read.idx_main_v32 (Cert.ReferenceIdeal.Read.idx_main_v33 i)
      = ix1 (⟨(i 1).val, (i 1).isLt⟩ : Fin 128) :=
    funext fun a => match a with | ⟨0, _⟩ => rfl
  rw [Cert.ReferenceIdeal.Read.val_main_v35_apply, Cert.ReferenceIdeal.Read.val_main_v34_apply,
    Cert.ReferenceIdeal.Read.val_main_v31_apply, Cert.ReferenceIdeal.Read.val_main_v33_apply,
    Cert.ReferenceIdeal.Read.val_main_v32_apply, Cert.ReferenceIdeal.Read.val_main_call0_v0_apply,
    Cert.ReferenceIdeal.Read.val_main_call0_cst_apply, hbi, ← hb]
  simp only [hl, hr]
  rfl

/-! ## Region 1: 128 features to 64, with the clamp -/

/-- Region 1's payload at entry (p, q): row p of the tile times column q of the weights, plus the bias row's entry q,
    negatives replaced by zero. -/
theorem pay1_apply (x : Vec Ideal S5000x128 .f32) (W : Vec Ideal S128x64 .f32) (b : Vec Ideal S1x64 .f32)
    (p : Fin 5000) (q : Fin 64) :
    k1_pay1 (F := Ideal) x W b (ix2 p q)
      = max ((∑ k : Fin 128, x (ix2 p k) * W (ix2 k q)) + b (ix2 (0 : Fin 1) q)) (Ideal.ofBits .f32 0x00000000#32) := by
  unfold k1_pay1
  refine congrArg₂ max (congrArg₂ (· + ·) ?_ ?_) rfl
  · refine (PlainDot.matmul_zero_apply (M := 5000) (K := 128) (N := 64) dot_S5000x128_S128x64_S5000x64_1_0_0_1_n_n
      rfl rfl rfl rfl rfl rfl rfl rfl none _ _ p q).trans ?_
    refine Finset.sum_congr rfl fun k _ => ?_
    rw [shapeCast_self]
    rfl
  · rw [shapeCast_self]
    exact broadcastTo_apply b broadcasts_S1x64_S5000x64 (ix2 p q) (ix2 (0 : Fin 1) q) (fun a => by
      match a with
      | ⟨0, _⟩ => rfl
      | ⟨1, _⟩ => rfl)

/-- The second dense layer as one function of the whole arrays: at row i and column j, row i of the features times
    column j of the weights, plus the bias row's entry j, negatives replaced by zero. -/
def dense1 (a : Vec Ideal S100000x128 .f32) (W : Vec Ideal S128x64 .f32) (b : Vec Ideal S1x64 .f32) :
    Vec Ideal S100000x64 .f32 := fun i =>
  max ((∑ k : Fin 128, a (ix2 (⟨(i 0).val, (i 0).isLt⟩ : Fin 100000) k) * W (ix2 k (⟨(i 1).val, (i 1).isLt⟩ : Fin 64)))
      + b (ix2 (0 : Fin 1) (⟨(i 1).val, (i 1).isLt⟩ : Fin 64))) (Ideal.ofBits .f32 0x00000000#32)

/-- That function at row r and column q. -/
theorem dense1_apply (a : Vec Ideal S100000x128 .f32) (W : Vec Ideal S128x64 .f32) (b : Vec Ideal S1x64 .f32)
    (r : Fin 100000) (q : Fin 64) :
    dense1 a W b (ix2 r q)
      = max ((∑ k : Fin 128, a (ix2 r k) * W (ix2 k q)) + b (ix2 (0 : Fin 1) q)) (Ideal.ofBits .f32 0x00000000#32) := rfl

/-- The block indices of region 1's four windows at every grid point: the row tiles move with the point, the weights
    and the bias row stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Region 1 has 20 points. -/
theorem point1_lt (t : Fin cfg1.N) : t.val < 20 := Nat.lt_of_lt_of_eq t.isLt N_1

/-- The feature tile at point t is rows 5000 t … 5000 t + 4999 of the feature array. -/
theorem iblk1_0_apply (V : KV) (c : Dev nD) (t : Fin cfg1.N) (p : Fin 5000) (k : Fin 128) :
    (iblk1 (F := Ideal) V c 0 t : Vec Ideal S5000x128 .f32) (ix2 p k)
      = (V c main_v48 : Vec Ideal S100000x128 .f32)
          (ix2 (⟨t.val * 5000 + p.val, by have := point1_lt t; omega⟩ : Fin 100000) k) := by
  obtain ⟨e00, e01, -⟩ := idx1 t
  show V c main_v48 (((cfg1.win 0).blk t).view.emb (ix2 p k)) = _
  refine congrArg (V c main_v48) (funext fun a => Fin.ext ?_)
  match a with
  | ⟨0, _⟩ => show win1_0.index t (0 : Fin 2) * 5000 + 1 * p.val = t.val * 5000 + p.val; rw [e00]; omega
  | ⟨1, _⟩ => show win1_0.index t (1 : Fin 2) * 128 + 1 * k.val = k.val; rw [e01]; omega

/-- The weights' block at every point is the weight matrix. -/
theorem iblk1_1_apply (V : KV) (c : Dev nD) (t : Fin cfg1.N) (k : Fin 128) (q : Fin 64) :
    (iblk1 (F := Ideal) V c 1 t : Vec Ideal S128x64 .f32) (ix2 k q)
      = (V c main_arg3 : Vec Ideal S128x64 .f32) (ix2 k q) := by
  obtain ⟨-, -, e10, e11, -⟩ := idx1 t
  show V c main_arg3 (((cfg1.win 1).blk t).view.emb (ix2 k q)) = _
  refine congrArg (V c main_arg3) (funext fun a => Fin.ext ?_)
  match a with
  | ⟨0, _⟩ => show win1_1.index t (0 : Fin 2) * 128 + 1 * k.val = k.val; rw [e10]; omega
  | ⟨1, _⟩ => show win1_1.index t (1 : Fin 2) * 64 + 1 * q.val = q.val; rw [e11]; omega

/-- The bias row's block at every point is the bias row. -/
theorem iblk1_2_apply (V : KV) (c : Dev nD) (t : Fin cfg1.N) (q : Fin 64) :
    (iblk1 (F := Ideal) V c 2 t : Vec Ideal S1x64 .f32) (ix2 (0 : Fin 1) q)
      = (V c main_v49 : Vec Ideal S1x64 .f32) (ix2 (0 : Fin 1) q) := by
  obtain ⟨-, -, -, -, e20, e21, -⟩ := idx1 t
  show V c main_v49 (((cfg1.win 2).blk t).view.emb (ix2 (0 : Fin 1) q)) = _
  refine congrArg (V c main_v49) (funext fun a => Fin.ext ?_)
  match a with
  | ⟨0, _⟩ => show win1_2.index t (0 : Fin 2) * 1 + 1 * 0 = 0; rw [e20]
  | ⟨1, _⟩ => show win1_2.index t (1 : Fin 2) * 64 + 1 * q.val = q.val; rw [e21]; omega

/-- What point t writes back is block t of the layer's function of the arrays the region finds. -/
theorem flushed1_eq (V : KV) (c : Dev nD) (t : Fin cfg1.N) :
    (dat1 (F := Ideal) V c).flushed 3 t
      = ((cfg1.win 3).blk t).view.read (Elt Ideal) (dense1 (V c main_v48) (V c main_arg3) (V c main_v49)) := by
  show (cfg1.win 3).cut (grid1.coords t) ((dat1 (F := Ideal) V c).after 3 t) = _
  rw [after1_3]
  unfold out1_3
  rw [View.canon_unit_zero offsets_zero]
  simp only [View.ld_unit_zero (S := S5000x128) offsets_zero, View.ld_unit_zero (S := S128x64) offsets_zero,
    View.ld_unit_zero (S := S1x64) offsets_zero]
  funext j
  obtain ⟨-, -, -, -, -, -, e30, e31⟩ := idx1 t
  have ht := point1_lt t
  have hj0 : (j 0).val < 5000 := (j 0).isLt
  have hj1 : (j 1).val < 64 := (j 1).isLt
  have hx : (win1 3).xinj (grid1.coords t) j = ix2 (⟨(j 0).val, hj0⟩ : Fin 5000) (⟨(j 1).val, hj1⟩ : Fin 64) :=
    funext fun a => match a with | ⟨0, _⟩ => rfl | ⟨1, _⟩ => rfl
  have hemb : ((cfg1.win 3).blk t).view.emb j
      = ix2 (⟨t.val * 5000 + (j 0).val, by omega⟩ : Fin 100000) (⟨(j 1).val, hj1⟩ : Fin 64) :=
    funext fun a => Fin.ext (by
      match a with
      | ⟨0, _⟩ => show win1_3.index t (0 : Fin 2) * 5000 + 1 * (j 0).val = t.val * 5000 + (j 0).val; rw [e30]; omega
      | ⟨1, _⟩ => show win1_3.index t (1 : Fin 2) * 64 + 1 * (j 1).val = (j 1).val; rw [e31]; omega)
  show k1_pay1 (F := Ideal) (iblk1 V c 0 t) (iblk1 V c 1 t) (iblk1 V c 2 t) ((win1 3).xinj (grid1.coords t) j)
    = dense1 (V c main_v48) (V c main_arg3) (V c main_v49) (((cfg1.win 3).blk t).view.emb j)
  rw [hx, hemb]
  refine (pay1_apply (iblk1 V c 0 t) (iblk1 V c 1 t) (iblk1 V c 2 t) ⟨(j 0).val, hj0⟩ ⟨(j 1).val, hj1⟩).trans ?_
  refine Eq.trans ?_ (dense1_apply (V c main_v48) (V c main_arg3) (V c main_v49)
    ⟨t.val * 5000 + (j 0).val, by omega⟩ ⟨(j 1).val, hj1⟩).symm
  exact congrArg₂ max (congrArg₂ (· + ·) (Finset.sum_congr rfl fun k _ => congrArg₂ (· * ·)
    (iblk1_0_apply V c t ⟨(j 0).val, hj0⟩ k) (iblk1_1_apply V c t k ⟨(j 1).val, hj1⟩))
    (iblk1_2_apply V c t ⟨(j 1).val, hj1⟩)) rfl

/-- Row i of the output lies in the tile of point i / 5000. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, e30, e31⟩ := idx1 t
  refine ⟨t, flush1_3 t, ?_⟩
  show i ∈ ((View.whole main_v50).slice (win1_3.rect t)).set
  rw [View.set_slice_whole, Rect.mem_set_unit]
  intro a
  match a with
  | ⟨0, _⟩ =>
    show win1_3.index t (0 : Fin 2) * 5000 ≤ (i 0).val ∧ (i 0).val < win1_3.index t (0 : Fin 2) * 5000 + 5000
    rw [e30, ht]; omega
  | ⟨1, _⟩ =>
    show win1_3.index t (1 : Fin 2) * 64 ≤ (i 1).val ∧ (i 1).val < win1_3.index t (1 : Fin 2) * 64 + 64
    rw [e31]; omega

/-- The array region 1 leaves is the layer's function of the arrays it found. -/
theorem final1 (V : KV) (c : Dev nD) :
    (dat1 (F := Ideal) V c).arrAt 3 cfg1.N = dense1 (V c main_v48) (V c main_arg3) (V c main_v49) :=
  (dat1 (F := Ideal) V c).arrAt_eq_of_cover 3 (dense1 (V c main_v48) (V c main_arg3) (V c main_v49))
    (fun t _ => flushed1_eq V c t) cover1

/-- The reference's second hidden layer is the same function, of the aggregated first layer, the weights and any bias
    row whose entries are the bias vector's. -/
theorem ref1_eq (x0 : (⟨Cert.ReferenceIdeal.S100000x128, .f32⟩ : BufTy).Contents (Elt Ideal)) (x1 : (⟨Cert.ReferenceIdeal.S128x128, .f32⟩ : BufTy).Contents (Elt Ideal)) (x2 : (⟨Cert.ReferenceIdeal.S128, .f32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x7 x8 : (⟨Cert.ReferenceIdeal.S1600000, .i32⟩ : BufTy).Contents (Elt Ideal))
    (b : Vec Ideal S1x64 .f32) (hb : ∀ j : Fin 64, b (ix2 (0 : Fin 1) j) = x4 (ix1 j)) :
    dense1 (Cert.ReferenceIdeal.Read.val_main_v51 x0 x1 x2 x7 x8) x3 b
      = Cert.ReferenceIdeal.Read.val_main_v56 x0 x1 x2 x3 x4 x7 x8 := by
  funext i
  have hl : ∀ k : Fin 128, Cert.ReferenceIdeal.Read.lidx_main_v52 i k = ix2 (⟨(i 0).val, (i 0).isLt⟩ : Fin 100000) k :=
    fun k => funext fun a => match a with | ⟨0, _⟩ => rfl | ⟨1, _⟩ => rfl
  have hr : ∀ k : Fin 128, Cert.ReferenceIdeal.Read.ridx_main_v52 i k = ix2 k (⟨(i 1).val, (i 1).isLt⟩ : Fin 64) :=
    fun k => funext fun a => match a with | ⟨0, _⟩ => rfl | ⟨1, _⟩ => rfl
  have hbi : Cert.ReferenceIdeal.Read.idx_main_v53 (Cert.ReferenceIdeal.Read.idx_main_v54 i)
      = ix1 (⟨(i 1).val, (i 1).isLt⟩ : Fin 64) :=
    funext fun a => match a with | ⟨0, _⟩ => rfl
  rw [Cert.ReferenceIdeal.Read.val_main_v56_apply, Cert.ReferenceIdeal.Read.val_main_v55_apply,
    Cert.ReferenceIdeal.Read.val_main_v52_apply, Cert.ReferenceIdeal.Read.val_main_v54_apply,
    Cert.ReferenceIdeal.Read.val_main_v53_apply, Cert.ReferenceIdeal.Read.val_main_call1_v0_apply,
    Cert.ReferenceIdeal.Read.val_main_call1_cst_apply, hbi, ← hb]
  simp only [hl, hr]
  rfl

/-! ## Region 2: 64 features to 64, no clamp -/

/-- Region 2's payload at entry (p, q): row p of the tile times column q of the weights, plus the bias row's entry q. -/
theorem pay2_apply (x : Vec Ideal S5000x64 .f32) (W : Vec Ideal S64x64 .f32) (b : Vec Ideal S1x64 .f32)
    (p : Fin 5000) (q : Fin 64) :
    k2_pay1 (F := Ideal) x W b (ix2 p q) = (∑ k : Fin 64, x (ix2 p k) * W (ix2 k q)) + b (ix2 (0 : Fin 1) q) := by
  unfold k2_pay1
  refine congrArg₂ (· + ·) ?_ ?_
  · refine (PlainDot.matmul_zero_apply (M := 5000) (K := 64) (N := 64) dot_S5000x64_S64x64_S5000x64_1_0_0_1_n_n
      rfl rfl rfl rfl rfl rfl rfl rfl none _ _ p q).trans ?_
    refine Finset.sum_congr rfl fun k _ => ?_
    rw [shapeCast_self]
    rfl
  · rw [shapeCast_self]
    exact broadcastTo_apply b broadcasts_S1x64_S5000x64 (ix2 p q) (ix2 (0 : Fin 1) q) (fun a => by
      match a with
      | ⟨0, _⟩ => rfl
      | ⟨1, _⟩ => rfl)

/-- The third dense layer as one function of the whole arrays: at row i and column j, row i of the features times
    column j of the weights, plus the bias row's entry j. -/
def dense2 (a : Vec Ideal S100000x64 .f32) (W : Vec Ideal S64x64 .f32) (b : Vec Ideal S1x64 .f32) :
    Vec Ideal S100000x64 .f32 := fun i =>
  (∑ k : Fin 64, a (ix2 (⟨(i 0).val, (i 0).isLt⟩ : Fin 100000) k) * W (ix2 k (⟨(i 1).val, (i 1).isLt⟩ : Fin 64)))
    + b (ix2 (0 : Fin 1) (⟨(i 1).val, (i 1).isLt⟩ : Fin 64))

/-- That function at row r and column q. -/
theorem dense2_apply (a : Vec Ideal S100000x64 .f32) (W : Vec Ideal S64x64 .f32) (b : Vec Ideal S1x64 .f32)
    (r : Fin 100000) (q : Fin 64) :
    dense2 a W b (ix2 r q) = (∑ k : Fin 64, a (ix2 r k) * W (ix2 k q)) + b (ix2 (0 : Fin 1) q) := rfl

/-- The block indices of region 2's four windows at every grid point: the row tiles move with the point, the weights
    and the bias row stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Region 2 has 20 points. -/
theorem point2_lt (t : Fin cfg2.N) : t.val < 20 := Nat.lt_of_lt_of_eq t.isLt N_2

/-- The feature tile at point t is rows 5000 t … 5000 t + 4999 of the feature array. -/
theorem iblk2_0_apply (V : KV) (c : Dev nD) (t : Fin cfg2.N) (p : Fin 5000) (k : Fin 64) :
    (iblk2 (F := Ideal) V c 0 t : Vec Ideal S5000x64 .f32) (ix2 p k)
      = (V c main_v66 : Vec Ideal S100000x64 .f32)
          (ix2 (⟨t.val * 5000 + p.val, by have := point2_lt t; omega⟩ : Fin 100000) k) := by
  obtain ⟨e00, e01, -⟩ := idx2 t
  show V c main_v66 (((cfg2.win 0).blk t).view.emb (ix2 p k)) = _
  refine congrArg (V c main_v66) (funext fun a => Fin.ext ?_)
  match a with
  | ⟨0, _⟩ => show win2_0.index t (0 : Fin 2) * 5000 + 1 * p.val = t.val * 5000 + p.val; rw [e00]; omega
  | ⟨1, _⟩ => show win2_0.index t (1 : Fin 2) * 64 + 1 * k.val = k.val; rw [e01]; omega

/-- The weights' block at every point is the weight matrix. -/
theorem iblk2_1_apply (V : KV) (c : Dev nD) (t : Fin cfg2.N) (k : Fin 64) (q : Fin 64) :
    (iblk2 (F := Ideal) V c 1 t : Vec Ideal S64x64 .f32) (ix2 k q)
      = (V c main_arg5 : Vec Ideal S64x64 .f32) (ix2 k q) := by
  obtain ⟨-, -, e10, e11, -⟩ := idx2 t
  show V c main_arg5 (((cfg2.win 1).blk t).view.emb (ix2 k q)) = _
  refine congrArg (V c main_arg5) (funext fun a => Fin.ext ?_)
  match a with
  | ⟨0, _⟩ => show win2_1.index t (0 : Fin 2) * 64 + 1 * k.val = k.val; rw [e10]; omega
  | ⟨1, _⟩ => show win2_1.index t (1 : Fin 2) * 64 + 1 * q.val = q.val; rw [e11]; omega

/-- The bias row's block at every point is the bias row. -/
theorem iblk2_2_apply (V : KV) (c : Dev nD) (t : Fin cfg2.N) (q : Fin 64) :
    (iblk2 (F := Ideal) V c 2 t : Vec Ideal S1x64 .f32) (ix2 (0 : Fin 1) q)
      = (V c main_v67 : Vec Ideal S1x64 .f32) (ix2 (0 : Fin 1) q) := by
  obtain ⟨-, -, -, -, e20, e21, -⟩ := idx2 t
  show V c main_v67 (((cfg2.win 2).blk t).view.emb (ix2 (0 : Fin 1) q)) = _
  refine congrArg (V c main_v67) (funext fun a => Fin.ext ?_)
  match a with
  | ⟨0, _⟩ => show win2_2.index t (0 : Fin 2) * 1 + 1 * 0 = 0; rw [e20]
  | ⟨1, _⟩ => show win2_2.index t (1 : Fin 2) * 64 + 1 * q.val = q.val; rw [e21]; omega

/-- What point t writes back is block t of the layer's function of the arrays the region finds. -/
theorem flushed2_eq (V : KV) (c : Dev nD) (t : Fin cfg2.N) :
    (dat2 (F := Ideal) V c).flushed 3 t
      = ((cfg2.win 3).blk t).view.read (Elt Ideal) (dense2 (V c main_v66) (V c main_arg5) (V c main_v67)) := by
  show (cfg2.win 3).cut (grid2.coords t) ((dat2 (F := Ideal) V c).after 3 t) = _
  rw [after2_3]
  unfold out2_3
  rw [View.canon_unit_zero offsets_zero]
  simp only [View.ld_unit_zero (S := S5000x64) offsets_zero, View.ld_unit_zero (S := S64x64) offsets_zero,
    View.ld_unit_zero (S := S1x64) offsets_zero]
  funext j
  obtain ⟨-, -, -, -, -, -, e30, e31⟩ := idx2 t
  have ht := point2_lt t
  have hj0 : (j 0).val < 5000 := (j 0).isLt
  have hj1 : (j 1).val < 64 := (j 1).isLt
  have hx : (win2 3).xinj (grid2.coords t) j = ix2 (⟨(j 0).val, hj0⟩ : Fin 5000) (⟨(j 1).val, hj1⟩ : Fin 64) :=
    funext fun a => match a with | ⟨0, _⟩ => rfl | ⟨1, _⟩ => rfl
  have hemb : ((cfg2.win 3).blk t).view.emb j
      = ix2 (⟨t.val * 5000 + (j 0).val, by omega⟩ : Fin 100000) (⟨(j 1).val, hj1⟩ : Fin 64) :=
    funext fun a => Fin.ext (by
      match a with
      | ⟨0, _⟩ => show win2_3.index t (0 : Fin 2) * 5000 + 1 * (j 0).val = t.val * 5000 + (j 0).val; rw [e30]; omega
      | ⟨1, _⟩ => show win2_3.index t (1 : Fin 2) * 64 + 1 * (j 1).val = (j 1).val; rw [e31]; omega)
  show k2_pay1 (F := Ideal) (iblk2 V c 0 t) (iblk2 V c 1 t) (iblk2 V c 2 t) ((win2 3).xinj (grid2.coords t) j)
    = dense2 (V c main_v66) (V c main_arg5) (V c main_v67) (((cfg2.win 3).blk t).view.emb j)
  rw [hx, hemb]
  refine (pay2_apply (iblk2 V c 0 t) (iblk2 V c 1 t) (iblk2 V c 2 t) ⟨(j 0).val, hj0⟩ ⟨(j 1).val, hj1⟩).trans ?_
  refine Eq.trans ?_ (dense2_apply (V c main_v66) (V c main_arg5) (V c main_v67)
    ⟨t.val * 5000 + (j 0).val, by omega⟩ ⟨(j 1).val, hj1⟩).symm
  exact congrArg₂ (· + ·) (Finset.sum_congr rfl fun k _ => congrArg₂ (· * ·)
    (iblk2_0_apply V c t ⟨(j 0).val, hj0⟩ k) (iblk2_1_apply V c t k ⟨(j 1).val, hj1⟩))
    (iblk2_2_apply V c t ⟨(j 1).val, hj1⟩)

/-- Row i of the output lies in the tile of point i / 5000. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, e30, e31⟩ := idx2 t
  refine ⟨t, flush2_3 t, ?_⟩
  show i ∈ ((View.whole main_v68).slice (win2_3.rect t)).set
  rw [View.set_slice_whole, Rect.mem_set_unit]
  intro a
  match a with
  | ⟨0, _⟩ =>
    show win2_3.index t (0 : Fin 2) * 5000 ≤ (i 0).val ∧ (i 0).val < win2_3.index t (0 : Fin 2) * 5000 + 5000
    rw [e30, ht]; omega
  | ⟨1, _⟩ =>
    show win2_3.index t (1 : Fin 2) * 64 ≤ (i 1).val ∧ (i 1).val < win2_3.index t (1 : Fin 2) * 64 + 64
    rw [e31]; omega

/-- The array region 2 leaves is the layer's function of the arrays it found. -/
theorem final2 (V : KV) (c : Dev nD) :
    (dat2 (F := Ideal) V c).arrAt 3 cfg2.N = dense2 (V c main_v66) (V c main_arg5) (V c main_v67) :=
  (dat2 (F := Ideal) V c).arrAt_eq_of_cover 3 (dense2 (V c main_v66) (V c main_arg5) (V c main_v67))
    (fun t _ => flushed2_eq V c t) cover2

/-- The reference's third layer is the same function, of the aggregated second layer, the weights and any bias row
    whose entries are the bias vector's. -/
theorem ref2_eq (x0 : (⟨Cert.ReferenceIdeal.S100000x128, .f32⟩ : BufTy).Contents (Elt Ideal)) (x1 : (⟨Cert.ReferenceIdeal.S128x128, .f32⟩ : BufTy).Contents (Elt Ideal)) (x2 : (⟨Cert.ReferenceIdeal.S128, .f32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 x8 : (⟨Cert.ReferenceIdeal.S1600000, .i32⟩ : BufTy).Contents (Elt Ideal))
    (b : Vec Ideal S1x64 .f32) (hb : ∀ j : Fin 64, b (ix2 (0 : Fin 1) j) = x6 (ix1 j)) :
    dense2 (Cert.ReferenceIdeal.Read.val_main_v72 x0 x1 x2 x3 x4 x7 x8) x5 b
      = Cert.ReferenceIdeal.Read.val_main_v76 x0 x1 x2 x3 x4 x5 x6 x7 x8 := by
  funext i
  have hl : ∀ k : Fin 64, Cert.ReferenceIdeal.Read.lidx_main_v73 i k = ix2 (⟨(i 0).val, (i 0).isLt⟩ : Fin 100000) k :=
    fun k => funext fun a => match a with | ⟨0, _⟩ => rfl | ⟨1, _⟩ => rfl
  have hr : ∀ k : Fin 64, Cert.ReferenceIdeal.Read.ridx_main_v73 i k = ix2 k (⟨(i 1).val, (i 1).isLt⟩ : Fin 64) :=
    fun k => funext fun a => match a with | ⟨0, _⟩ => rfl | ⟨1, _⟩ => rfl
  have hbi : Cert.ReferenceIdeal.Read.idx_main_v74 (Cert.ReferenceIdeal.Read.idx_main_v75 i)
      = ix1 (⟨(i 1).val, (i 1).isLt⟩ : Fin 64) :=
    funext fun a => match a with | ⟨0, _⟩ => rfl
  rw [Cert.ReferenceIdeal.Read.val_main_v76_apply, Cert.ReferenceIdeal.Read.val_main_v73_apply,
    Cert.ReferenceIdeal.Read.val_main_v75_apply, Cert.ReferenceIdeal.Read.val_main_v74_apply, hbi, ← hb]
  simp only [hl, hr]
  rfl

/-! ## The three layers -/

/-- Layer 1. The array the first dense region leaves is the reference's first hidden layer: on every row, the row of
    the aggregated features times the weights, plus the bias, negatives replaced by zero. -/
theorem layer0_eq (V : KV) (c : Dev nD) (x0 : (⟨Cert.ReferenceIdeal.S100000x128, .f32⟩ : BufTy).Contents (Elt Ideal)) (x1 : (⟨Cert.ReferenceIdeal.S128x128, .f32⟩ : BufTy).Contents (Elt Ideal)) (x2 : (⟨Cert.ReferenceIdeal.S128, .f32⟩ : BufTy).Contents (Elt Ideal)) (x7 x8 : (⟨Cert.ReferenceIdeal.S1600000, .i32⟩ : BufTy).Contents (Elt Ideal))
    (ha : V c main_v30 = Cert.ReferenceIdeal.Read.val_main_v30 x0 x7 x8) (hW : V c main_arg1 = x1)
    (hb : ∀ j : Fin 128, (V c main_v31 : (⟨S1x128, .f32⟩ : BufTy).Contents (Elt Ideal)) (ix2 (0 : Fin 1) j) = x2 (ix1 j)) :
    (dat0 (F := Ideal) V c).arrAt 3 cfg0.N = Cert.ReferenceIdeal.Read.val_main_v35 x0 x1 x2 x7 x8 := by
  rw [final0 V c, ha, hW]
  exact ref0_eq x0 x1 x2 x7 x8 (V c main_v31) hb

/-- Layer 2, likewise, 128 features to 64. -/
theorem layer1_eq (V : KV) (c : Dev nD) (x0 : (⟨Cert.ReferenceIdeal.S100000x128, .f32⟩ : BufTy).Contents (Elt Ideal)) (x1 : (⟨Cert.ReferenceIdeal.S128x128, .f32⟩ : BufTy).Contents (Elt Ideal)) (x2 : (⟨Cert.ReferenceIdeal.S128, .f32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x7 x8 : (⟨Cert.ReferenceIdeal.S1600000, .i32⟩ : BufTy).Contents (Elt Ideal))
    (ha : V c main_v48 = Cert.ReferenceIdeal.Read.val_main_v51 x0 x1 x2 x7 x8) (hW : V c main_arg3 = x3)
    (hb : ∀ j : Fin 64, (V c main_v49 : (⟨S1x64, .f32⟩ : BufTy).Contents (Elt Ideal)) (ix2 (0 : Fin 1) j) = x4 (ix1 j)) :
    (dat1 (F := Ideal) V c).arrAt 3 cfg1.N = Cert.ReferenceIdeal.Read.val_main_v56 x0 x1 x2 x3 x4 x7 x8 := by
  rw [final1 V c, ha, hW]
  exact ref1_eq x0 x1 x2 x3 x4 x7 x8 (V c main_v49) hb

/-- Layer 3, 64 features to 64, with no clamp at zero. -/
theorem layer2_eq (V : KV) (c : Dev nD) (x0 : (⟨Cert.ReferenceIdeal.S100000x128, .f32⟩ : BufTy).Contents (Elt Ideal)) (x1 : (⟨Cert.ReferenceIdeal.S128x128, .f32⟩ : BufTy).Contents (Elt Ideal)) (x2 : (⟨Cert.ReferenceIdeal.S128, .f32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 x8 : (⟨Cert.ReferenceIdeal.S1600000, .i32⟩ : BufTy).Contents (Elt Ideal))
    (ha : V c main_v66 = Cert.ReferenceIdeal.Read.val_main_v72 x0 x1 x2 x3 x4 x7 x8) (hW : V c main_arg5 = x5)
    (hb : ∀ j : Fin 64, (V c main_v67 : (⟨S1x64, .f32⟩ : BufTy).Contents (Elt Ideal)) (ix2 (0 : Fin 1) j) = x6 (ix1 j)) :
    (dat2 (F := Ideal) V c).arrAt 3 cfg2.N = Cert.ReferenceIdeal.Read.val_main_v76 x0 x1 x2 x3 x4 x5 x6 x7 x8 := by
  rw [final2 V c, ha, hW]
  exact ref2_eq x0 x1 x2 x3 x4 x5 x6 x7 x8 (V c main_v67) hb

end Cert.Bridge.Layers

end
-- ==== Proof.LibScatterRows.lean ====
/-
  ROW SCATTER-ADD READ AT AN ENTRY.

  A segment sum over the leading axis is the accumulating scatter whose dimension numbers are
  update window axes [1] (or none, for a vector), inserted window axes [0], scatter-dims-to-operand-dims
  [0] and index vector axis 1, over an operand [C, A] (or [C]), scatter indices [N, 1] and updates [N, A]
  (or [N]). Update row n carries ONE start index, the word idx[n, 0] read as a signed integer; it is the
  start on operand axis 0, where the window coordinate is 0 because that axis is inserted. On operand axis 1
  the start is 0 (the map does not name the axis) and the window coordinate is the update's own column. So
  update element (n, a') lands at operand element (idx[n, 0], a') when 0 ≤ idx[n, 0] < C and is dropped
  otherwise; the column is always in range, being below A on both sides.

  Hence the result at (c, a) is the operand there plus the sum, over the rows n whose index word reads
  exactly c, of upd[n, a]:

      scatter(x, idx, upd)[c, a] = x[c, a] + ∑ n, if idx[n, 0] = c then upd[n, a] else 0 .

  An index word that is negative or at least C matches no c below C, so the dropped updates need no
  separate clause. The statements hold at every extent C, N, A and every index width w, for any record of
  dimension numbers whose four lists are the ones above. The rank-1 form (operand [C], updates [N]) is the
  same with the column removed.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-! ## Operand [C, A], scatter indices [N, 1], updates [N, A] -/

section Rows2
variable {C N A w : ℕ}

/-- The row scatter's dimension numbers as a record of literal lists: update window axes [1], inserted
    window axes [0], scatter-dims-to-operand-dims [0], index vector axis 1. -/
abbrev rows2 (wf : ScatterDims.WF ⟨2, ![C, A]⟩ ⟨2, ![N, 1]⟩ ⟨2, ![N, A]⟩ [1] [0] [0] 1) :
    ScatterDims ⟨2, ![C, A]⟩ ⟨2, ![N, 1]⟩ ⟨2, ![N, A]⟩ := ⟨[1], [0], [0], 1, wf⟩

/-- On operand axis 0 the window of update (n, a') starts at the index word idx[n, 0], read signed. -/
theorem rows2_start0 (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) :
    (rows2 wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- On operand axis 1, which the map does not name, the window starts at 0. -/
theorem rows2_start1 (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) :
    (rows2 wf).start j idx 1 = 0 := by
  unfold ScatterDims.start
  rw [dif_neg (show ¬ ((1 : Fin 2) ∈ ([0] : List (Fin 2))) by decide)]

/-- Operand axis 0 is inserted: the window coordinate there is 0. -/
theorem rows2_window0 (wf : ScatterDims.WF ⟨2, ![C, A]⟩ ⟨2, ![N, 1]⟩ ⟨2, ![N, A]⟩ [1] [0] [0] 1)
    (j : (⟨2, ![N, A]⟩ : Shape).Idx) :
    (rows2 wf).window j 0 = 0 := by
  unfold ScatterDims.window
  have h : ¬ ((0 : Fin 2) ∈ (rows2 wf).sKept) := by
    show ¬ ((0 : Fin 2) ∈ ([1] : List (Fin 2)))
    decide
  rw [dif_neg h]

/-- Operand axis 1 is the one kept axis: the window coordinate there is the update's column. -/
theorem rows2_window1 (wf : ScatterDims.WF ⟨2, ![C, A]⟩ ⟨2, ![N, 1]⟩ ⟨2, ![N, A]⟩ [1] [0] [0] 1)
    (j : (⟨2, ![N, A]⟩ : Shape).Idx) :
    (rows2 wf).window j 1 = (j 1).val := by
  unfold ScatterDims.window
  have h : (1 : Fin 2) ∈ (rows2 wf).sKept := by
    show (1 : Fin 2) ∈ ([1] : List (Fin 2))
    decide
  rw [dif_pos h]
  rfl

/-- WHERE AN UPDATE LANDS: update (n, a') lands at operand element (c, a) exactly when its row's index word
    reads c and its column is a. (An index word outside [0, C) lands nowhere, and equals no c below C.) -/
theorem rows2_resultIdx?_eq_some (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) (c : Fin C) (a : Fin A) :
    (rows2 wf).resultIdx? j idx = some (ix2 c a) ↔
      (idx (ix2 (j 0) (0 : Fin 1))).toInt = (c.val : ℤ) ∧ j 1 = a := by
  have e0 : (rows2 wf).start j idx 0 + ((rows2 wf).window j 0 : ℕ) = (idx (ix2 (j 0) (0 : Fin 1))).toInt := by
    rw [rows2_start0, rows2_window0]; simp
  have e1 : (rows2 wf).start j idx 1 + ((rows2 wf).window j 1 : ℕ) = ((j 1).val : ℤ) := by
    rw [rows2_start1, rows2_window1]; simp
  unfold ScatterDims.resultIdx?
  split_ifs with h
  · rw [Option.some.injEq]
    constructor
    · intro hf
      have h0 : ((rows2 wf).start j idx 0 + ((rows2 wf).window j 0 : ℕ)).toNat = c.val :=
        congrArg Fin.val (congrFun hf 0)
      have h1 : ((rows2 wf).start j idx 1 + ((rows2 wf).window j 1 : ℕ)).toNat = a.val :=
        congrArg Fin.val (congrFun hf 1)
      have hp := (h 0).1
      rw [e0] at h0 hp
      rw [e1] at h1
      refine ⟨by omega, Fin.ext (by omega)⟩
    · rintro ⟨hc, ha⟩
      funext b
      refine Fin.ext ?_
      match b with
      | ⟨0, _⟩ =>
        show ((rows2 wf).start j idx 0 + ((rows2 wf).window j 0 : ℕ)).toNat = c.val
        rw [e0, hc]; simp
      | ⟨1, _⟩ =>
        show ((rows2 wf).start j idx 1 + ((rows2 wf).window j 1 : ℕ)).toNat = a.val
        rw [e1, ha]; simp
  · constructor
    · intro hf; cases hf
    · rintro ⟨hc, ha⟩
      refine absurd ?_ h
      intro b
      match b with
      | ⟨0, _⟩ =>
        show 0 ≤ (rows2 wf).start j idx 0 + ((rows2 wf).window j 0 : ℕ) ∧
          (rows2 wf).start j idx 0 + ((rows2 wf).window j 0 : ℕ) < ((C : ℕ) : ℤ)
        rw [e0, hc]
        have := c.isLt
        omega
      | ⟨1, _⟩ =>
        show 0 ≤ (rows2 wf).start j idx 1 + ((rows2 wf).window j 1 : ℕ) ∧
          (rows2 wf).start j idx 1 + ((rows2 wf).window j 1 : ℕ) < ((A : ℕ) : ℤ)
        rw [e1, ha]
        have := a.isLt
        omega

/-- The same, for an update index given by its coordinates. -/
theorem rows2_resultIdx?_ix2 (wf : ScatterDims.WF ⟨2, ![C, A]⟩ ⟨2, ![N, 1]⟩ ⟨2, ![N, A]⟩ [1] [0] [0] 1)
    (n : Fin N) (b : Fin A) (idx : IVec ⟨2, ![N, 1]⟩ w) (c : Fin C) (a : Fin A) :
    (rows2 wf).resultIdx? (ix2 n b) idx = some (ix2 c a) ↔
      (idx (ix2 n (0 : Fin 1))).toInt = (c.val : ℤ) ∧ b = a :=
  rows2_resultIdx?_eq_some wf (ix2 n b) idx c a

/-- The row scatter-add of the literal record, read at (c, a). -/
theorem rows2_apply (wf : ScatterDims.WF ⟨2, ![C, A]⟩ ⟨2, ![N, 1]⟩ ⟨2, ![N, A]⟩ [1] [0] [0] 1)
    (x : (⟨2, ![C, A]⟩ : Shape).Idx → EReal) (idx : IVec ⟨2, ![N, 1]⟩ w)
    (upd : (⟨2, ![N, A]⟩ : Shape).Idx → EReal) (c : Fin C) (a : Fin A) :
    Ideal.hostScatterAdd (rows2 wf) x idx upd (ix2 c a) =
      x (ix2 c a) + ∑ n : Fin N, if (idx (ix2 n (0 : Fin 1))).toInt = (c.val : ℤ) then upd (ix2 n a) else 0 := by
  unfold Ideal.hostScatterAdd
  congr 1
  rw [Finset.sum_filter, sum_idx2]
  refine Finset.sum_congr rfl fun n _ => ?_
  simp only [rows2_resultIdx?_ix2]
  by_cases hc : (idx (ix2 n (0 : Fin 1))).toInt = (c.val : ℤ)
  · simp [hc]
  · simp [hc]

end Rows2

/-- ROW SCATTER-ADD AT AN ENTRY, operand [C, A]: for any dimension-number record with update window axes
    [1], inserted window axes [0], scatter-dims-to-operand-dims [0] and index vector axis 1, the result at
    (c, a) is the operand there plus the sum of upd[n, a] over the rows n whose index word idx[n, 0], read
    signed, is c. Rows whose index word is negative or at least C contribute nothing. -/
theorem scatterRows2_apply {C N A w : ℕ} (d : ScatterDims ⟨2, ![C, A]⟩ ⟨2, ![N, 1]⟩ ⟨2, ![N, A]⟩)
    (hu : d.updateWindowDims = [1]) (hi : d.insertedWindowDims = [0]) (hs : d.scatterDimsToOperandDims = [0])
    (hv : d.indexVectorDim = 1)
    (x : (⟨2, ![C, A]⟩ : Shape).Idx → EReal) (idx : IVec ⟨2, ![N, 1]⟩ w)
    (upd : (⟨2, ![N, A]⟩ : Shape).Idx → EReal) (c : Fin C) (a : Fin A) :
    Ideal.hostScatterAdd d x idx upd (ix2 c a) =
      x (ix2 c a) + ∑ n : Fin N, if (idx (ix2 n (0 : Fin 1))).toInt = (c.val : ℤ) then upd (ix2 n a) else 0 := by
  obtain ⟨uw, iw, sd, iv, wf⟩ := d
  dsimp only at hu hi hs hv
  subst hu hi hs hv
  exact rows2_apply wf x idx upd c a

/-! ## Operand [C], scatter indices [N, 1], updates [N] -/

section Rows1
variable {C N w : ℕ}

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The vector scatter's dimension numbers as a record of literal lists: no update window axes, inserted
    window axes [0], scatter-dims-to-operand-dims [0], index vector axis 1. -/
abbrev rows1 (wf : ScatterDims.WF ⟨1, ![C]⟩ ⟨2, ![N, 1]⟩ ⟨1, ![N]⟩ [] [0] [0] 1) :
    ScatterDims ⟨1, ![C]⟩ ⟨2, ![N, 1]⟩ ⟨1, ![N]⟩ := ⟨[], [0], [0], 1, wf⟩

/-- On the operand's one axis the window of update n starts at the index word idx[n, 0], read signed. -/
theorem rows1_start0 (wf : ScatterDims.WF ⟨1, ![C]⟩ ⟨2, ![N, 1]⟩ ⟨1, ![N]⟩ [] [0] [0] 1)
    (j : (⟨1, ![N]⟩ : Shape).Idx) (idx : IVec ⟨2, ![N, 1]⟩ w) :
    (rows1 wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- The operand's one axis is inserted: the window coordinate there is 0. -/
theorem rows1_window0 (wf : ScatterDims.WF ⟨1, ![C]⟩ ⟨2, ![N, 1]⟩ ⟨1, ![N]⟩ [] [0] [0] 1)
    (j : (⟨1, ![N]⟩ : Shape).Idx) :
    (rows1 wf).window j 0 = 0 := by
  unfold ScatterDims.window
  have h : ¬ ((0 : Fin 1) ∈ (rows1 wf).sKept) := by
    show ¬ ((0 : Fin 1) ∈ ([] : List (Fin 1)))
    decide
  rw [dif_neg h]

/-- WHERE AN UPDATE LANDS: update n lands at operand element c exactly when its index word reads c. -/
theorem rows1_resultIdx?_eq_some (wf : ScatterDims.WF ⟨1, ![C]⟩ ⟨2, ![N, 1]⟩ ⟨1, ![N]⟩ [] [0] [0] 1)
    (j : (⟨1, ![N]⟩ : Shape).Idx) (idx : IVec ⟨2, ![N, 1]⟩ w) (c : Fin C) :
    (rows1 wf).resultIdx? j idx = some (ix1 c) ↔ (idx (ix2 (j 0) (0 : Fin 1))).toInt = (c.val : ℤ) := by
  have e0 : (rows1 wf).start j idx 0 + ((rows1 wf).window j 0 : ℕ) = (idx (ix2 (j 0) (0 : Fin 1))).toInt := by
    rw [rows1_start0, rows1_window0]; simp
  unfold ScatterDims.resultIdx?
  split_ifs with h
  · rw [Option.some.injEq]
    constructor
    · intro hf
      have h0 : ((rows1 wf).start j idx 0 + ((rows1 wf).window j 0 : ℕ)).toNat = c.val :=
        congrArg Fin.val (congrFun hf 0)
      have hp := (h 0).1
      rw [e0] at h0 hp
      omega
    · intro hc
      funext b
      refine Fin.ext ?_
      match b with
      | ⟨0, _⟩ =>
        show ((rows1 wf).start j idx 0 + ((rows1 wf).window j 0 : ℕ)).toNat = c.val
        rw [e0, hc]; simp
  · constructor
    · intro hf; cases hf
    · intro hc
      refine absurd ?_ h
      intro b
      match b with
      | ⟨0, _⟩ =>
        show 0 ≤ (rows1 wf).start j idx 0 + ((rows1 wf).window j 0 : ℕ) ∧
          (rows1 wf).start j idx 0 + ((rows1 wf).window j 0 : ℕ) < ((C : ℕ) : ℤ)
        rw [e0, hc]
        have := c.isLt
        omega

/-- The same, for an update index given by its coordinate. -/
theorem rows1_resultIdx?_ix1 (wf : ScatterDims.WF ⟨1, ![C]⟩ ⟨2, ![N, 1]⟩ ⟨1, ![N]⟩ [] [0] [0] 1)
    (n : Fin N) (idx : IVec ⟨2, ![N, 1]⟩ w) (c : Fin C) :
    (rows1 wf).resultIdx? (ix1 n) idx = some (ix1 c) ↔ (idx (ix2 n (0 : Fin 1))).toInt = (c.val : ℤ) :=
  rows1_resultIdx?_eq_some wf (ix1 n) idx c

/-- The vector scatter-add of the literal record, read at c. -/
theorem rows1_apply (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w)
    (upd : (⟨1, ![N]⟩ : Shape).Idx → EReal) (c : Fin C) :
    Ideal.hostScatterAdd (rows1 wf) x idx upd (ix1 c) =
      x (ix1 c) + ∑ n : Fin N, if (idx (ix2 n (0 : Fin 1))).toInt = (c.val : ℤ) then upd (ix1 n) else 0 := by
  unfold Ideal.hostScatterAdd
  congr 1
  rw [Finset.sum_filter, sum_idx1]
  refine Finset.sum_congr rfl fun n _ => ?_
  simp only [rows1_resultIdx?_ix1]

end Rows1

/-- ROW SCATTER-ADD AT AN ENTRY, operand [C]: for any dimension-number record with no update window axes,
    inserted window axes [0], scatter-dims-to-operand-dims [0] and index vector axis 1, the result at c is the
    operand there plus the sum of upd[n] over the positions n whose index word idx[n, 0], read signed, is c.
    Positions whose index word is negative or at least C contribute nothing. -/
theorem scatterRows1_apply {C N w : ℕ} (d : ScatterDims ⟨1, ![C]⟩ ⟨2, ![N, 1]⟩ ⟨1, ![N]⟩)
    (hu : d.updateWindowDims = []) (hi : d.insertedWindowDims = [0]) (hs : d.scatterDimsToOperandDims = [0])
    (hv : d.indexVectorDim = 1)
    (x : (⟨1, ![C]⟩ : Shape).Idx → EReal) (idx : IVec ⟨2, ![N, 1]⟩ w)
    (upd : (⟨1, ![N]⟩ : Shape).Idx → EReal) (c : Fin C) :
    Ideal.hostScatterAdd d x idx upd (ix1 c) =
      x (ix1 c) + ∑ n : Fin N, if (idx (ix2 n (0 : Fin 1))).toInt = (c.val : ℤ) then upd (ix1 n) else 0 := by
  obtain ⟨uw, iw, sd, iv, wf⟩ := d
  dsimp only at hu hi hs hv
  subst hu hi hs hv
  exact rows1_apply wf x idx upd c

end Idealize.ShloMosaic.ScatterRows

end
-- ==== Proof.LibDotCols.lean ====
/-
  A product of two matrices along their ROWS read at an entry.

  For dimension numbers that contract the left operand's axis 0 with the right operand's axis 0, keep the
  left operand's axis 1 and the right operand's axis 1, and have no batch axes, the operand indices at the
  result entry (p, q) and contraction position k are (k, p) and (k, q): the result is the left operand's
  transpose times the right operand. So, at the ideal values, a `tpu.matmul` into the zero accumulator is
  the sum  ∑ k, l (k, p) * r (k, q)  over the extended reals. Stated for ANY record with those six lists
  (each equation is `rfl` at a printed record), at any extents and element formats.
-/
import Idealize.ShloMosaic.Lib.ValueIdx
import Idealize.ShloMosaic.PureOps.Ideal.Laws

noncomputable section

namespace Idealize.ShloMosaic.DotCols

open Idealize.ShloMosaic Idealize.ShloMosaic.ValueIdx

variable {K M N : Nat} (d : DotDims ⟨2, ![K, M]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the contraction position. -/
theorem lhs_row (hlc : d.lhsContracting = [0]) (j : (⟨2, ![M, N]⟩ : Shape).Idx) (k : d.contr.Idx) :
    (d.lhsIdx j k 0).val = (k ⟨0, by rw [d.rank_contr, hlc]; exact Nat.one_pos⟩).val :=
  d.lhsIdx_val_of_single hlc j k

/-- The left operand's column is the result's row. -/
theorem lhs_col (hln : d.lhsNonContracting = [1]) (hlb : d.lhsBatch = [])
    (j : (⟨2, ![M, N]⟩ : Shape).Idx) (k : d.contr.Idx) : (d.lhsIdx j k 1).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [1]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's column p and the right operand's column q. -/
theorem matmul_zero_apply {φ₁ φ₂ : FTy}
    (hlc : d.lhsContracting = [0]) (hrc : d.rhsContracting = [0]) (hln : d.lhsNonContracting = [1])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![K, M]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 k p) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (lhs_row d hlc _ _).trans hk
    | ⟨1, _⟩ => exact lhs_col d hln hlb _ _)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [0]) (hrc : d.rhsContracting = [0]) (hln : d.lhsNonContracting = [1])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![K, M]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 k ⟨(y 0).val, (y 0).isLt⟩) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.DotCols

end
-- ==== Proof.Value.PoolSum.lean ====
/- The pooling region's array, read entry by entry at the extended reals, is the reference's segment sum. -/
import proofs.«420597_j62139586839006_1_alg».proof.Proof.KI.Pool
import proofs.«420597_j62139586839006_1_alg».proof.Proof.RefGen
import proofs.«420597_j62139586839006_1_alg».proof.Proof.LibScatterRows
import proofs.«420597_j62139586839006_1_alg».proof.Proof.LibDotCols
import Idealize.ShloMosaic.Lib.ValueIdx
import Idealize.ShloMosaic.Lib.Pipeline.Value
import Idealize.ShloMosaic.PureOps.Ideal.Laws

set_option maxRecDepth 16384

noncomputable section

namespace Cert.Bridge.PoolSum

open Cert.KernelIdeal Cert.KernelIdeal.Gen Cert.KernelIdeal.Layers
open Idealize.ShloMosaic Idealize.ShloMosaic.TcCoe Idealize.SL.Sem Idealize.ShloMosaic.ValueIdx

/-- The contents of a core's buffers, as a region of the idealized kernel's program finds them. -/
abbrev KV : Type := (c : Dev nD) → (b : Ref sig .tc) → Buf (Elt Ideal) ((c : Thread nD τ).loc b)

/-! ## The body's arithmetic at an entry -/

/-- The zeros the first point stores into the scratch. -/
theorem pay1_apply (g d : Fin 64) : (k3_pay1 (F := Ideal)) (ix2 g d) = 0 := by
  unfold k3_pay1
  refine (congrFun (shapeCast_self _ _) _).trans ?_
  show Ideal.ofBits .f32 0x00000000#32 = 0
  exact Ideal.ofBits_zero_f32

/-- One point's update of the scratch at entry (g, d): what it held plus the sum, over the tile's 5000 rows, of the
    one-hot tile's column g times the feature tile's column d (the change of format before the product is the identity
    on extended reals). -/
theorem pay2_apply (oh : Vec Ideal S5000x64 .bf16) (h : Vec Ideal S5000x64 .f32) (acc : Vec Ideal S64x64 .f32) (g d : Fin 64) :
    k3_pay2 (F := Ideal) oh h acc (ix2 g d) = acc (ix2 g d) + ∑ r : Fin 5000, oh (ix2 r g) * h (ix2 r d) := by
  unfold k3_pay2
  refine (congrFun (shapeCast_self _ _) _).trans ?_
  refine (addf_apply _ _ _).trans ?_
  refine congrArg (acc (ix2 g d) + ·) ?_
  rw [shapeCast_self, shapeCast_self]
  exact DotCols.matmul_zero_apply dot_S5000x64_S5000x64_S64x64_0_0_1_1_n_n rfl rfl rfl rfl rfl rfl rfl rfl none oh
    (truncf .bf16 h bitsLt_bf16_f32) g d

/-! ## The tiles read off the arrays -/

/-- The index maps of the two input windows over the grid: row tile t, column tile 0. -/
theorem idx_in : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- The one-hot matrix as the region finds it, an array of extended reals. -/
abbrev arrOH (V : KV) (c : Dev nD) : S100000x64.Idx → EReal := V c main_v75
/-- The node features as the region finds them. -/
abbrev arrH (V : KV) (c : Dev nD) : S100000x64.Idx → EReal := V c main_v68
/-- Row tile t of the one-hot matrix. -/
abbrev blkOH (V : KV) (c : Dev nD) (t : Fin cfg3.N) : S5000x64.Idx → EReal := iblk3 (F := Ideal) V c 0 t
/-- Row tile t of the node features. -/
abbrev blkH (V : KV) (c : Dev nD) (t : Fin cfg3.N) : S5000x64.Idx → EReal := iblk3 (F := Ideal) V c 1 t

/-- Row r of tile t of the one-hot matrix is row 5000 t + r of the array. -/
theorem blkOH_apply (V : KV) (c : Dev nD) (t : Fin cfg3.N) (r : Fin 5000) (g : Fin 64) (hb : t.val * 5000 + r.val < 100000) :
    blkOH V c t (ix2 r g) = arrOH V c (ix2 ⟨t.val * 5000 + r.val, hb⟩ g) := by
  obtain ⟨e0, e1, -, -⟩ := idx_in t
  show arrOH V c (((cfg3.win 0).blk t).view.emb (ix2 r g)) = arrOH V c _
  refine congrArg (arrOH V c) (funext fun a => Fin.ext ?_)
  match a with
  | ⟨0, _⟩ => show win3_0.index t (0 : Fin 2) * 5000 + 1 * r.val = t.val * 5000 + r.val; omega
  | ⟨1, _⟩ => show win3_0.index t (1 : Fin 2) * 64 + 1 * g.val = g.val; omega

/-- Row r of tile t of the features is row 5000 t + r of the array. -/
theorem blkH_apply (V : KV) (c : Dev nD) (t : Fin cfg3.N) (r : Fin 5000) (g : Fin 64) (hb : t.val * 5000 + r.val < 100000) :
    blkH V c t (ix2 r g) = arrH V c (ix2 ⟨t.val * 5000 + r.val, hb⟩ g) := by
  obtain ⟨-, -, e0, e1⟩ := idx_in t
  show arrH V c (((cfg3.win 1).blk t).view.emb (ix2 r g)) = arrH V c _
  refine congrArg (arrH V c) (funext fun a => Fin.ext ?_)
  match a with
  | ⟨0, _⟩ => show win3_1.index t (0 : Fin 2) * 5000 + 1 * r.val = t.val * 5000 + r.val; omega
  | ⟨1, _⟩ => show win3_1.index t (1 : Fin 2) * 64 + 1 * g.val = g.val; omega

/-! ## The accumulation over the tiles -/

/-- Tile t's share of a sum over the 100000 rows: the 5000 rows 5000 t, …, 5000 t + 4999 (nothing past the 20 tiles). -/
def tileSum (f : Fin 100000 → EReal) (t : ℕ) : EReal :=
  if h : t < 20 then ∑ r : Fin 5000, f ⟨t * 5000 + r.val, by have := r.isLt; omega⟩ else 0

/-- The region's grid has 20 points. -/
theorem N3 : cfg3.N = 20 := N_3

/-- What the scratch holds after point n, at entry (g, d): the sum over the tiles up to n. -/
theorem poolAt_apply (V : KV) (c : Dev nD) (g d : Fin 64) : ∀ (n : ℕ) (hn : n < cfg3.N),
    poolAt (F := Ideal) V c n hn (ix2 g d)
      = ∑ t ∈ Finset.range (n + 1), tileSum (fun m => arrOH V c (ix2 m g) * arrH V c (ix2 m d)) t
  | 0, hn => by
    have h20 : (0 : ℕ) < 20 := by omega
    show k3_pay2 (F := Ideal) (blkOH V c ⟨0, hn⟩) (blkH V c ⟨0, hn⟩) (k3_pay1 (F := Ideal)) (ix2 g d) = _
    refine (pay2_apply (blkOH V c ⟨0, hn⟩) (blkH V c ⟨0, hn⟩) (k3_pay1 (F := Ideal)) g d).trans ?_
    rw [pay1_apply, zero_add, Finset.sum_range_one]
    unfold tileSum
    rw [dif_pos h20]
    refine Finset.sum_congr rfl fun r _ => ?_
    have hb : (⟨0, hn⟩ : Fin cfg3.N).val * 5000 + r.val < 100000 := by have := r.isLt; show 0 * 5000 + r.val < 100000; omega
    exact congrArg₂ (fun a b : EReal => a * b) (blkOH_apply V c ⟨0, hn⟩ r g hb) (blkH_apply V c ⟨0, hn⟩ r d hb)
  | n + 1, hn => by
    have h20 : n + 1 < 20 := by have := N3; omega
    show k3_pay2 (F := Ideal) (blkOH V c ⟨n + 1, hn⟩) (blkH V c ⟨n + 1, hn⟩) (poolAt (F := Ideal) V c n (Nat.lt_of_succ_lt hn)) (ix2 g d) = _
    refine (pay2_apply (blkOH V c ⟨n + 1, hn⟩) (blkH V c ⟨n + 1, hn⟩) (poolAt (F := Ideal) V c n (Nat.lt_of_succ_lt hn)) g d).trans ?_
    rw [poolAt_apply V c g d n (Nat.lt_of_succ_lt hn), Finset.sum_range_succ _ (n + 1)]
    refine congrArg (_ + ·) ?_
    unfold tileSum
    rw [dif_pos h20]
    refine Finset.sum_congr rfl fun r _ => ?_
    have hb : (⟨n + 1, hn⟩ : Fin cfg3.N).val * 5000 + r.val < 100000 := by have := r.isLt; show (n + 1) * 5000 + r.val < 100000; omega
    exact congrArg₂ (fun a b : EReal => a * b) (blkOH_apply V c ⟨n + 1, hn⟩ r g hb) (blkH_apply V c ⟨n + 1, hn⟩ r d hb)

/-- The 20 tiles' shares add up to the sum over all the rows. -/
theorem sum_tileSum (f : Fin 100000 → EReal) : ∑ t ∈ Finset.range 20, tileSum f t = ∑ n : Fin 100000, f n := by
  rw [← Fin.sum_univ_eq_sum_range (fun t => tileSum f t) 20]
  have e : ∀ t : Fin 20, tileSum f t.val
      = ∑ r : Fin 5000, f ⟨t.val * 5000 + r.val, by have := t.isLt; have := r.isLt; omega⟩ := fun t => dif_pos t.isLt
  rw [Finset.sum_congr rfl fun t _ => e t]
  rw [← Fintype.sum_prod_type' (f := fun (t : Fin 20) (r : Fin 5000) => f ⟨t.val * 5000 + r.val, by have := t.isLt; have := r.isLt; omega⟩)]
  refine Fintype.sum_equiv (finProdFinEquiv.trans (finCongr (by norm_num : 20 * 5000 = 100000))) _ _ (fun p => ?_)
  refine congrArg f (Fin.ext ?_)
  simp [finProdFinEquiv]
  omega

/-- For g below 64, a 32-bit word is the word of g exactly when it reads, signed, g. -/
theorem word_eq_iff (x : BitVec 32) (g : Fin 64) : x = BitVec.ofNat 32 g.val ↔ x.toInt = (g.val : ℤ) := by
  have hg := g.isLt
  have e : (BitVec.ofNat 32 g.val).toInt = (g.val : ℤ) := by
    have hn : (BitVec.ofNat 32 g.val).toNat = g.val := by
      rw [BitVec.toNat_ofNat]; exact Nat.mod_eq_of_lt (by omega)
    rw [BitVec.toInt_eq_toNat_of_lt (by rw [hn]; omega), hn]
  constructor
  · rintro rfl; exact e
  · intro h; exact BitVec.eq_of_toInt_eq (h.trans e.symm)

/-! ## The reference's segment sum at an entry -/

/-- The reference's segment sum at entry (g, d): the sum of the features' column d over the nodes whose id word reads g. -/
theorem ref_apply (x0 : (⟨Cert.ReferenceIdeal.S100000x128, .f32⟩ : BufTy).Contents (Elt Ideal)) (x1 : (⟨Cert.ReferenceIdeal.S128x128, .f32⟩ : BufTy).Contents (Elt Ideal)) (x2 : (⟨Cert.ReferenceIdeal.S128, .f32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 x8 : (⟨Cert.ReferenceIdeal.S1600000, .i32⟩ : BufTy).Contents (Elt Ideal)) (x9 : (⟨Cert.ReferenceIdeal.S100000, .i32⟩ : BufTy).Contents (Elt Ideal))
    (g d : Fin 64) :
    (Cert.ReferenceIdeal.Read.val_main_v83 (F := Ideal) x0 x1 x2 x3 x4 x5 x6 x7 x8 x9 (ix2 g d) : EReal)
      = ∑ n : Fin 100000, if (x9 (ix1 n)).toInt = (g.val : ℤ)
          then (Cert.ReferenceIdeal.Read.val_main_v76 (F := Ideal) x0 x1 x2 x3 x4 x5 x6 x7 x8 (ix2 n d) : EReal) else 0 := by
  unfold Cert.ReferenceIdeal.Read.val_main_v83
  generalize Cert.ReferenceIdeal.Read.val_main_v76 (F := Ideal) x0 x1 x2 x3 x4 x5 x6 x7 x8 = upd
  refine (ScatterRows.scatterRows2_apply Cert.ReferenceIdeal.scatter_S64x64_S100000x1_S100000x64_1_0_0_1 rfl rfl rfl rfl
    (Cert.ReferenceIdeal.Read.val_main_v81 (F := Ideal)) (Cert.ReferenceIdeal.Read.val_main_v82 (F := Ideal) x9) upd g d).trans ?_
  have hz : (Cert.ReferenceIdeal.Read.val_main_v81 (F := Ideal) (ix2 g d) : EReal) = 0 := by
    rw [Cert.ReferenceIdeal.Read.val_main_v81_apply, Cert.ReferenceIdeal.Read.val_main_cst_16_apply]
    exact Ideal.ofBits_zero_f32
  rw [hz, zero_add]
  refine Finset.sum_congr rfl fun n _ => ?_
  have hi : Cert.ReferenceIdeal.Read.idx_main_v82 (ix2 n (0 : Fin 1)) = ix1 n :=
    funext fun a => match a with | ⟨0, _⟩ => rfl
  rw [Cert.ReferenceIdeal.Read.val_main_v82_apply, hi]

/-! ## From the scratch to the array -/

/-- The output window's one block index is (0, 0) at every point. -/
theorem idx_out : ∀ t : Fin cfg3.N, win3_2.index t (0 : Fin 2) = 0 ∧ win3_2.index t (1 : Fin 2) = 0 :=
  (by decide +kernel : ∀ t : Fin grid3.N, _)

/-- The scratch's contents after a point depend on the point's number only. -/
theorem poolAt_congr (V : KV) (c : Dev nD) : ∀ (n m : ℕ) (hn : n < cfg3.N) (hm : m < cfg3.N), n = m →
    poolAt (F := Ideal) V c n hn = poolAt (F := Ideal) V c m hm := fun n m hn hm e => by subst e; rfl

/-- An index of the output array is in point t's block iff each coordinate is in the block's range on its axis. -/
theorem mem_blk_out (t : Fin cfg3.N) (i : S64x64.Idx) :
    i ∈ ((cfg3.win 2).blk t).view.set ↔ ∀ a : Fin 2, win3_2.index t a * S64x64.size a ≤ (i a).val ∧ (i a).val < win3_2.index t a * S64x64.size a + S64x64.size a := by
  show i ∈ ((View.whole main_v80).slice (win3_2.rect t)).set ↔ _
  rw [View.set_slice_whole, Rect.mem_set_unit]
  exact Iff.rfl

/-- The array the region leaves is the scratch after the last point: the one write-back, at point 19, moves the whole
    64 × 64 block. -/
theorem arr_final (V : KV) (c : Dev nD) (h19 : 19 < cfg3.N) :
    (dat3 (F := Ideal) V c).arrAt 2 cfg3.N = poolAt (F := Ideal) V c 19 h19 := by
  refine (dat3 (F := Ideal) V c).arrAt_eq_of_cover 2 (poolAt (F := Ideal) V c 19 h19) (fun t ht => ?_) (fun i => ?_)
  · have ht19 : t.val = 19 := by
      have h1 := (flush3_2 t).mp ht
      have h2 : t.val < 20 := N3 ▸ t.isLt
      omega
    obtain ⟨e0, e1⟩ := idx_out t
    show (cfg3.win 2).cut (grid3.coords t) ((dat3 (F := Ideal) V c).after 2 t) = _
    rw [after3_2, poolAt_congr V c t.val 19 t.isLt h19 ht19]
    funext y
    show poolAt (F := Ideal) V c 19 h19 _ = poolAt (F := Ideal) V c 19 h19 (((cfg3.win 2).blk t).view.emb y)
    refine congrArg (poolAt (F := Ideal) V c 19 h19) (funext fun a => Fin.ext ?_)
    match a with
    | ⟨0, _⟩ => show (y 0).val = win3_2.index t (0 : Fin 2) * 64 + 1 * (y 0).val; omega
    | ⟨1, _⟩ => show (y 1).val = win3_2.index t (1 : Fin 2) * 64 + 1 * (y 1).val; omega
  · obtain ⟨e0, e1⟩ := idx_out ⟨19, h19⟩
    refine ⟨⟨19, h19⟩, (flush3_2 _).mpr rfl, ?_⟩
    rw [mem_blk_out]
    intro a
    match a with
    | ⟨0, _⟩ =>
      show win3_2.index ⟨19, h19⟩ (0 : Fin 2) * 64 ≤ (i 0).val ∧ (i 0).val < win3_2.index ⟨19, h19⟩ (0 : Fin 2) * 64 + 64
      have hi : (i 0).val < 64 := (i 0).isLt
      omega
    | ⟨1, _⟩ =>
      show win3_2.index ⟨19, h19⟩ (1 : Fin 2) * 64 ≤ (i 1).val ∧ (i 1).val < win3_2.index ⟨19, h19⟩ (1 : Fin 2) * 64 + 64
      have hi : (i 1).val < 64 := (i 1).isLt
      omega

/-- The pooled sums. The array the pooling region leaves — the scratch after the last of the 20 row tiles — is the
    reference's segment sum of the node features by graph id, when window 0's array is the one-hot matrix of the
    graph ids (entry (n, g) is one where node n's id is g, zero elsewhere: an id outside 0..63 gives a zero row, and the
    segment sum drops that node too). -/
theorem pool_eq (V : KV) (c : Dev nD) (x0 : (⟨Cert.ReferenceIdeal.S100000x128, .f32⟩ : BufTy).Contents (Elt Ideal)) (x1 : (⟨Cert.ReferenceIdeal.S128x128, .f32⟩ : BufTy).Contents (Elt Ideal)) (x2 : (⟨Cert.ReferenceIdeal.S128, .f32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 x8 : (⟨Cert.ReferenceIdeal.S1600000, .i32⟩ : BufTy).Contents (Elt Ideal)) (x9 : (⟨Cert.ReferenceIdeal.S100000, .i32⟩ : BufTy).Contents (Elt Ideal))
    (hoh : ∀ (n : Fin 100000) (g : Fin 64), (V c main_v75 : (⟨S100000x64, .bf16⟩ : BufTy).Contents (Elt Ideal)) (ix2 n g)
      = (if x9 (ix1 n) = BitVec.ofNat 32 g.val then (1 : EReal) else 0))
    (hh : V c main_v68 = Cert.ReferenceIdeal.Read.val_main_v76 x0 x1 x2 x3 x4 x5 x6 x7 x8) :
    (dat3 (F := Ideal) V c).arrAt 2 cfg3.N = Cert.ReferenceIdeal.Read.val_main_v83 x0 x1 x2 x3 x4 x5 x6 x7 x8 x9 := by
  have h19 : 19 < cfg3.N := by rw [N3]; omega
  rw [arr_final V c h19]
  funext i
  obtain ⟨g, d, rfl⟩ : ∃ (g d : Fin 64), i = ix2 g d := ⟨i 0, i 1, eq_ix2 i⟩
  refine (poolAt_apply V c g d 19 h19).trans ?_
  rw [sum_tileSum]
  refine Eq.trans ?_ (ref_apply x0 x1 x2 x3 x4 x5 x6 x7 x8 x9 g d).symm
  refine Finset.sum_congr rfl fun n _ => ?_
  have e1 : arrOH V c (ix2 n g) = if x9 (ix1 n) = BitVec.ofNat 32 g.val then (1 : EReal) else 0 := hoh n g
  have e2 : arrH V c (ix2 n d) = (Cert.ReferenceIdeal.Read.val_main_v76 (F := Ideal) x0 x1 x2 x3 x4 x5 x6 x7 x8 (ix2 n d) : EReal) :=
    congrFun hh (ix2 n d)
  show arrOH V c (ix2 n g) * arrH V c (ix2 n d) = _
  rw [e1, e2]
  by_cases hw : x9 (ix1 n) = BitVec.ofNat 32 g.val
  · rw [if_pos hw, if_pos ((word_eq_iff _ g).mp hw), one_mul]
  · rw [if_neg hw, if_neg (fun h => hw ((word_eq_iff _ g).mpr h)), zero_mul]

end Cert.Bridge.PoolSum

end
-- ==== Proof.Value.Host.lean ====
/- The host operations of the idealized kernel's program between its regions, read as the reference's stages. -/
import proofs.«420597_j62139586839006_1_alg».proof.Proof.Gen.KernelIdeal.Regions
import proofs.«420597_j62139586839006_1_alg».proof.Proof.KI.Dense0
import proofs.«420597_j62139586839006_1_alg».proof.Proof.RefGen
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

set_option maxRecDepth 16384

noncomputable section

namespace Cert.Bridge.Host

open Cert.KernelIdeal Cert.KernelIdeal.Layers
open Idealize.ShloMosaic Idealize.ShloMosaic.TcCoe Idealize.SL.Sem Idealize.ShloMosaic.ValueIdx

/-- The contents of a core's buffers, as a region of the idealized kernel's program finds them. -/
abbrev KV : Type := (c : Dev nD) → (b : Ref sig .tc) → Buf (Elt Ideal) ((c : Thread nD τ).loc b)

/-! ## The host stretches, stated for any float instance

Each lemma reads one buffer after one host stretch as the composed term of the stretch's operations over the buffers
the stretch reads, and identifies that term with the reference's stage of the same operation. -/

section AnyInstance

variable {F : FTy → Type} [FloatOps F]
variable (m : (ℓ : Loc nD τ sig) → Buf (Elt F) ℓ) (c : Dev nD)

/-- After the first stretch: the source-degree normalisation, the inverse square root of the clamped out-degree. -/
theorem v1_v10 : Gen.V1 m c main_v10 = Cert.ReferenceIdeal.Read.val_main_v10 (F := F) (m ((c.tc : Thread nD τ).loc main_arg7)) := by
  show StableHlo.after Gen.hostOps0 (Gen.V0 m c) (Proc.devRef .tc main_v10) = _
  after_results_simp
  rfl

/-- After the first stretch: the target-degree normalisation, the inverse square root of the clamped in-degree. -/
theorem v1_v14 : Gen.V1 m c main_v14 = Cert.ReferenceIdeal.Read.val_main_v14 (F := F) (m ((c.tc : Thread nD τ).loc main_arg8)) := by
  show StableHlo.after Gen.hostOps0 (Gen.V0 m c) (Proc.devRef .tc main_v14) = _
  after_results_simp
  rfl

/-- After the first stretch: the input features scaled, gathered along the edges, summed at the targets, scaled again. -/
theorem v1_v30 : Gen.V1 m c main_v30 = Cert.ReferenceIdeal.Read.val_main_v30 (F := F) (m ((c.tc : Thread nD τ).loc main_arg0)) (m ((c.tc : Thread nD τ).loc main_arg7)) (m ((c.tc : Thread nD τ).loc main_arg8)) := by
  show StableHlo.after Gen.hostOps0 (Gen.V0 m c) (Proc.devRef .tc main_v30) = _
  after_results_simp
  rfl

/-- After the first stretch: the first bias vector laid out as a row. -/
theorem v1_v31 : (Gen.V1 m c main_v31 : (⟨S1x128, .f32⟩ : BufTy).Contents (Elt F))
    = shapeCast S1x128 ((m ((c.tc : Thread nD τ).loc main_arg2)) : (⟨S128, .f32⟩ : BufTy).Contents (Elt F)) Gen.shapeCasts_S128_S1x128 := by
  show StableHlo.after Gen.hostOps0 (Gen.V0 m c) (Proc.devRef .tc main_v31) = _
  after_results_simp
  rfl

variable (outs : Gen.Outs (F := F))

/-- The two degree normalisations and the edge lists stay as the first stretch left them. -/
theorem v2_v10 : Gen.V2 m outs c main_v10 = Cert.ReferenceIdeal.Read.val_main_v10 (F := F) (m ((c.tc : Thread nD τ).loc main_arg7)) :=
  (Gen.V2_of m outs c main_v10 (by decide)).trans (v1_v10 m c)
theorem v2_v14 : Gen.V2 m outs c main_v14 = Cert.ReferenceIdeal.Read.val_main_v14 (F := F) (m ((c.tc : Thread nD τ).loc main_arg8)) :=
  (Gen.V2_of m outs c main_v14 (by decide)).trans (v1_v14 m c)
theorem v2_arg7 : Gen.V2 m outs c main_arg7 = (m ((c.tc : Thread nD τ).loc main_arg7)) := (Gen.V2_of m outs c main_arg7 (by decide)).trans <| (Gen.V1_of m c main_arg7 (by decide)).trans rfl
theorem v2_arg8 : Gen.V2 m outs c main_arg8 = (m ((c.tc : Thread nD τ).loc main_arg8)) := (Gen.V2_of m outs c main_arg8 (by decide)).trans <| (Gen.V1_of m c main_arg8 (by decide)).trans rfl
theorem v2_arg4 : Gen.V2 m outs c main_arg4 = (m ((c.tc : Thread nD τ).loc main_arg4)) := (Gen.V2_of m outs c main_arg4 (by decide)).trans <| (Gen.V1_of m c main_arg4 (by decide)).trans rfl

/-- After the second stretch: the first hidden layer scaled, gathered, summed and scaled again. -/
theorem v3_v48 (h : Gen.V2 m outs c main_v32 = Cert.ReferenceIdeal.Read.val_main_v35 (F := F) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8))) :
    Gen.V3 m outs c main_v48 = Cert.ReferenceIdeal.Read.val_main_v51 (F := F) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) := by
  show StableHlo.after Gen.hostOps1 (Gen.V2 m outs c) (Proc.devRef .tc main_v48) = _
  after_results_simp
  rw [h, v2_v10, v2_v14, v2_arg7, v2_arg8]
  rfl

/-- After the second stretch: the second bias vector laid out as a row. -/
theorem v3_v49 : (Gen.V3 m outs c main_v49 : (⟨S1x64, .f32⟩ : BufTy).Contents (Elt F))
    = shapeCast S1x64 ((m ((c.tc : Thread nD τ).loc main_arg4)) : (⟨S64, .f32⟩ : BufTy).Contents (Elt F)) Gen.shapeCasts_S64_S1x64 := by
  show StableHlo.after Gen.hostOps1 (Gen.V2 m outs c) (Proc.devRef .tc main_v49) = _
  after_results_simp
  rw [v2_arg4]
  rfl

theorem v4_v10 : Gen.V4 m outs c main_v10 = Cert.ReferenceIdeal.Read.val_main_v10 (F := F) (m ((c.tc : Thread nD τ).loc main_arg7)) :=
  (Gen.V4_of m outs c main_v10 (by decide)).trans <| (Gen.V3_of m outs c main_v10 (by decide)).trans (v2_v10 m c outs)
theorem v4_v14 : Gen.V4 m outs c main_v14 = Cert.ReferenceIdeal.Read.val_main_v14 (F := F) (m ((c.tc : Thread nD τ).loc main_arg8)) :=
  (Gen.V4_of m outs c main_v14 (by decide)).trans <| (Gen.V3_of m outs c main_v14 (by decide)).trans (v2_v14 m c outs)
theorem v4_arg7 : Gen.V4 m outs c main_arg7 = (m ((c.tc : Thread nD τ).loc main_arg7)) := (Gen.V4_of m outs c main_arg7 (by decide)).trans <| (Gen.V3_of m outs c main_arg7 (by decide)).trans <| (Gen.V2_of m outs c main_arg7 (by decide)).trans <| (Gen.V1_of m c main_arg7 (by decide)).trans rfl
theorem v4_arg8 : Gen.V4 m outs c main_arg8 = (m ((c.tc : Thread nD τ).loc main_arg8)) := (Gen.V4_of m outs c main_arg8 (by decide)).trans <| (Gen.V3_of m outs c main_arg8 (by decide)).trans <| (Gen.V2_of m outs c main_arg8 (by decide)).trans <| (Gen.V1_of m c main_arg8 (by decide)).trans rfl
theorem v4_arg6 : Gen.V4 m outs c main_arg6 = (m ((c.tc : Thread nD τ).loc main_arg6)) := (Gen.V4_of m outs c main_arg6 (by decide)).trans <| (Gen.V3_of m outs c main_arg6 (by decide)).trans <| (Gen.V2_of m outs c main_arg6 (by decide)).trans <| (Gen.V1_of m c main_arg6 (by decide)).trans rfl

/-- After the third stretch: the second hidden layer scaled, gathered, summed and scaled again. -/
theorem v5_v66 (h : Gen.V4 m outs c main_v50 = Cert.ReferenceIdeal.Read.val_main_v56 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))) :
    Gen.V5 m outs c main_v66 = Cert.ReferenceIdeal.Read.val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  show StableHlo.after Gen.hostOps2 (Gen.V4 m outs c) (Proc.devRef .tc main_v66) = _
  after_results_simp
  rw [h, v4_v10, v4_v14, v4_arg7, v4_arg8]
  rfl

/-- After the third stretch: the third bias vector laid out as a row. -/
theorem v5_v67 : (Gen.V5 m outs c main_v67 : (⟨S1x64, .f32⟩ : BufTy).Contents (Elt F))
    = shapeCast S1x64 ((m ((c.tc : Thread nD τ).loc main_arg6)) : (⟨S64, .f32⟩ : BufTy).Contents (Elt F)) Gen.shapeCasts_S64_S1x64 := by
  show StableHlo.after Gen.hostOps2 (Gen.V4 m outs c) (Proc.devRef .tc main_v67) = _
  after_results_simp
  rw [v4_arg6]
  rfl

theorem v6_arg9 : Gen.V6 m outs c main_arg9 = (m ((c.tc : Thread nD τ).loc main_arg9)) := (Gen.V6_of m outs c main_arg9 (by decide)).trans <| (Gen.V5_of m outs c main_arg9 (by decide)).trans <| (Gen.V4_of m outs c main_arg9 (by decide)).trans <| (Gen.V3_of m outs c main_arg9 (by decide)).trans <| (Gen.V2_of m outs c main_arg9 (by decide)).trans <| (Gen.V1_of m c main_arg9 (by decide)).trans rfl

/-- After the fourth stretch: the comparison of every node's graph id with every graph number, as a number. -/
theorem v7_v75 : (Gen.V7 m outs c main_v75 : (⟨S100000x64, .bf16⟩ : BufTy).Contents (Elt F))
    = uitofp .bf16 (cmpi .eq
        (broadcastInDim S100000x64 ![0, 1] Gen.bcast_S100000x1_S100000x64_0_1
          (broadcastInDim S100000x1 ![0] Gen.bcast_S100000_S100000x1_0 ((m ((c.tc : Thread nD τ).loc main_arg9)) : (⟨S100000, .i32⟩ : BufTy).Contents (Elt F))))
        (broadcastInDim S100000x64 ![0, 1] Gen.bcast_S1x64_S100000x64_0_1
          (broadcastInDim S1x64 ![1] Gen.bcast_S64_S1x64_1 (iotaInDim S64 32 0)))) := by
  show StableHlo.after Gen.hostOps3 (Gen.V6 m outs c) (Proc.devRef .tc main_v75) = _
  after_results_simp
  rw [v6_arg9]

/-- After the fourth stretch: the number of nodes of every graph. -/
theorem v7_v79 : Gen.V7 m outs c main_v79 = Cert.ReferenceIdeal.Read.val_main_v80 (F := F) (m ((c.tc : Thread nD τ).loc main_arg9)) := by
  show StableHlo.after Gen.hostOps3 (Gen.V6 m outs c) (Proc.devRef .tc main_v79) = _
  after_results_simp
  rw [v6_arg9]
  rfl

theorem v8_v79 : Gen.V8 m outs c main_v79 = Cert.ReferenceIdeal.Read.val_main_v80 (F := F) (m ((c.tc : Thread nD τ).loc main_arg9)) :=
  (Gen.V8_of m outs c main_v79 (by decide)).trans (v7_v79 m c outs)

/-- After the last stretch: the pooled sums divided by the clamped node counts. -/
theorem v9_v85 (h : Gen.V8 m outs c main_v80 = Cert.ReferenceIdeal.Read.val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) :
    Gen.V9 m outs c main_v85 = Cert.ReferenceIdeal.Read.val_main_v88 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show StableHlo.after Gen.hostOps4 (Gen.V8 m outs c) (Proc.devRef .tc main_v85) = _
  after_results_simp
  rw [h, v8_v79]
  rfl

end AnyInstance

/-! ## The one-hot matrix read at an entry -/

section OneHot

variable {F : FTy → Type} [FloatOps F]

/-- Entry (n, g) of the comparison of the ids laid along the rows with the graph numbers 0 … 63 laid along the columns
    compares node n's id with the word of g. -/
theorem onehot_bit (x9 : (⟨S100000, .i32⟩ : BufTy).Contents (Elt F)) (n : Fin 100000) (g : Fin 64) :
    cmpi .eq
        (broadcastInDim S100000x64 ![0, 1] Gen.bcast_S100000x1_S100000x64_0_1
          (broadcastInDim S100000x1 ![0] Gen.bcast_S100000_S100000x1_0 x9))
        (broadcastInDim S100000x64 ![0, 1] Gen.bcast_S1x64_S100000x64_0_1
          (broadcastInDim S1x64 ![1] Gen.bcast_S64_S1x64_1 (iotaInDim S64 32 0))) (ix2 n g)
      = IntOp.cmpi .eq (x9 (ix1 n)) (BitVec.ofNat 32 g.val) := by
  refine congrArg₂ (IntOp.cmpi .eq) ?_ ?_
  · refine (broadcastInDim_apply _ Gen.bcast_S100000x1_S100000x64_0_1 _ (ix2 n g) (ix2 n (0 : Fin 1)) (fun a => match a with
      | ⟨0, _⟩ => by show n.val = if (100000 : Nat) = 1 then 0 else n.val; rw [if_neg (by decide)]
      | ⟨1, _⟩ => by show 0 = if (1 : Nat) = 1 then 0 else g.val; rw [if_pos rfl])).trans ?_
    exact broadcastInDim_apply _ Gen.bcast_S100000_S100000x1_0 x9 (ix2 n (0 : Fin 1)) (ix1 n) (fun a => match a with
      | ⟨0, _⟩ => by show n.val = if (100000 : Nat) = 1 then 0 else n.val; rw [if_neg (by decide)])
  · refine (broadcastInDim_apply _ Gen.bcast_S1x64_S100000x64_0_1 _ (ix2 n g) (ix2 (0 : Fin 1) g) (fun a => match a with
      | ⟨0, _⟩ => by show 0 = if (1 : Nat) = 1 then 0 else n.val; rw [if_pos rfl]
      | ⟨1, _⟩ => by show g.val = if (64 : Nat) = 1 then 0 else g.val; rw [if_neg (by decide)])).trans ?_
    exact broadcastInDim_apply _ Gen.bcast_S64_S1x64_1 (iotaInDim S64 32 0) (ix2 (0 : Fin 1) g) (ix1 g) (fun a => match a with
      | ⟨0, _⟩ => by show g.val = if (64 : Nat) = 1 then 0 else g.val; rw [if_neg (by decide)])

end OneHot

/-- At the extended reals a one-bit word converted to a number is its value, 0 or 1. -/
theorem uitofp_bit_apply {s : Shape} {φ : FTy} (x : IVec s 1) (i : s.Idx) :
    (uitofp φ x : FVec Ideal s φ) i = (((x i).toNat : ℝ) : EReal) := rfl

variable (m : (ℓ : Loc nD τ sig) → Buf (Elt Ideal) ℓ) (c : Dev nD)

/-! ## Before the first region: the aggregated, normalised input features; the weights; the bias as a row -/

theorem host0_v30 : Gen.V1 m c main_v30 = Cert.ReferenceIdeal.Read.val_main_v30 (m ((c.tc : Thread nD τ).loc main_arg0)) (m ((c.tc : Thread nD τ).loc main_arg7)) (m ((c.tc : Thread nD τ).loc main_arg8)) :=
  v1_v30 m c
theorem host0_arg1 : Gen.V1 m c main_arg1 = (m ((c.tc : Thread nD τ).loc main_arg1)) :=
  (Gen.V1_of m c main_arg1 (by decide)).trans rfl
theorem host0_v31 (j : Fin 128) : (Gen.V1 m c main_v31 : (⟨S1x128, .f32⟩ : BufTy).Contents (Elt Ideal)) (ix2 (0 : Fin 1) j) = (m ((c.tc : Thread nD τ).loc main_arg2)) (ix1 j) := by
  rw [v1_v31 m c]
  exact shapeCast_a_1a_apply _ _ (0 : Fin 1) j

/-! ## Between the regions: the same host operations applied to the layer the region before left -/

theorem host1_v48 (outs : Gen.Outs (F := Ideal)) (h : Gen.V2 m outs c main_v32 = Cert.ReferenceIdeal.Read.val_main_v35 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8))) :
    Gen.V3 m outs c main_v48 = Cert.ReferenceIdeal.Read.val_main_v51 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) :=
  v3_v48 m c outs h
theorem host1_arg3 (outs : Gen.Outs (F := Ideal)) : Gen.V3 m outs c main_arg3 = (m ((c.tc : Thread nD τ).loc main_arg3)) :=
  (Gen.V3_of m outs c main_arg3 (by decide)).trans <| (Gen.V2_of m outs c main_arg3 (by decide)).trans <| (Gen.V1_of m c main_arg3 (by decide)).trans rfl
theorem host1_v49 (outs : Gen.Outs (F := Ideal)) (j : Fin 64) :
    (Gen.V3 m outs c main_v49 : (⟨S1x64, .f32⟩ : BufTy).Contents (Elt Ideal)) (ix2 (0 : Fin 1) j) = (m ((c.tc : Thread nD τ).loc main_arg4)) (ix1 j) := by
  rw [v3_v49 m c outs]
  exact shapeCast_a_1a_apply _ _ (0 : Fin 1) j

theorem host2_v66 (outs : Gen.Outs (F := Ideal)) (h : Gen.V4 m outs c main_v50 = Cert.ReferenceIdeal.Read.val_main_v56 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))) :
    Gen.V5 m outs c main_v66 = Cert.ReferenceIdeal.Read.val_main_v72 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) :=
  v5_v66 m c outs h
theorem host2_arg5 (outs : Gen.Outs (F := Ideal)) : Gen.V5 m outs c main_arg5 = (m ((c.tc : Thread nD τ).loc main_arg5)) :=
  (Gen.V5_of m outs c main_arg5 (by decide)).trans <| (Gen.V4_of m outs c main_arg5 (by decide)).trans <| (Gen.V3_of m outs c main_arg5 (by decide)).trans <| (Gen.V2_of m outs c main_arg5 (by decide)).trans <| (Gen.V1_of m c main_arg5 (by decide)).trans rfl
theorem host2_v67 (outs : Gen.Outs (F := Ideal)) (j : Fin 64) :
    (Gen.V5 m outs c main_v67 : (⟨S1x64, .f32⟩ : BufTy).Contents (Elt Ideal)) (ix2 (0 : Fin 1) j) = (m ((c.tc : Thread nD τ).loc main_arg6)) (ix1 j) := by
  rw [v5_v67 m c outs]
  exact shapeCast_a_1a_apply _ _ (0 : Fin 1) j

/-! ## Before the pooling region: the third layer kept; the one-hot matrix of the graph ids -/

theorem host3_v68 (outs : Gen.Outs (F := Ideal)) (h : Gen.V6 m outs c main_v68 = Cert.ReferenceIdeal.Read.val_main_v76 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :
    Gen.V7 m outs c main_v68 = Cert.ReferenceIdeal.Read.val_main_v76 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Gen.V7_of m outs c main_v68 (by decide)).trans h
theorem host3_v75 (outs : Gen.Outs (F := Ideal)) (n : Fin 100000) (g : Fin 64) :
    (Gen.V7 m outs c main_v75 : (⟨S100000x64, .bf16⟩ : BufTy).Contents (Elt Ideal)) (ix2 n g)
      = (if (m ((c.tc : Thread nD τ).loc main_arg9)) (ix1 n) = BitVec.ofNat 32 g.val then (1 : EReal) else 0) := by
  rw [v7_v75 m c outs]
  refine (uitofp_bit_apply _ _).trans ?_
  rw [onehot_bit]
  by_cases hx : (m ((c.tc : Thread nD τ).loc main_arg9)) (ix1 n) = BitVec.ofNat 32 g.val
  · rw [if_pos hx, StableHlo.Predicate.cmpi_eq_iff.mpr hx]
    simp
  · rw [if_neg hx, eq_zero_of_ne_one fun h1 => hx (StableHlo.Predicate.cmpi_eq_iff.mp h1)]
    simp

/-! ## After the pooling region: the division by the clamped node counts -/

theorem host4_v85 (outs : Gen.Outs (F := Ideal)) (h : Gen.V8 m outs c main_v80 = Cert.ReferenceIdeal.Read.val_main_v83 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) :
    Gen.V9 m outs c main_v85 = Cert.ReferenceIdeal.Read.val_main_v88 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  v9_v85 m c outs h

end Cert.Bridge.Host

end
-- ==== Proof.Value.Chain.lean ====
/- The idealized kernel's result is the reference's, stage by stage. The two programs apply the same host operations
   to their arguments; where the kernel's program runs a dense region the reference computes product, bias and clamp
   on the host, and where it runs the pooling region the reference takes a segment sum. So, walking the kernel's
   program from the launch: the buffers its first region reads hold the reference's stages; hence the region leaves
   the reference's first layer; hence the buffers the second region reads hold the reference's next stages; and so
   on through the third layer, the pooled sums, and the division by the clamped node counts. -/
import proofs.«420597_j62139586839006_1_alg».proof.Proof.KI.Whole
import proofs.«420597_j62139586839006_1_alg».proof.Proof.Value.Layers
import proofs.«420597_j62139586839006_1_alg».proof.Proof.Value.PoolSum
import proofs.«420597_j62139586839006_1_alg».proof.Proof.Value.Host

set_option maxRecDepth 16384

noncomputable section

namespace Cert.Bridge

open Cert.KernelIdeal Cert.KernelIdeal.Layers
open Idealize.ShloMosaic Idealize.ShloMosaic.TcCoe Idealize.SL.Sem Idealize.ShloMosaic.ValueIdx

variable (m : (ℓ : Loc nD τ sig) → Buf (Elt Ideal) ℓ) (c : Dev nD)

/-- The first dense region leaves the reference's first hidden layer. -/
theorem first_layer : Gen.V2 m (outs m) c main_v32 = Cert.ReferenceIdeal.Read.val_main_v35 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) := by
  show Function.update (Gen.V1 m c) (Proc.devRef .tc main_v32) (outs m 2 main_v32 c) (Proc.devRef .tc main_v32) = _
  rw [Function.update_self, outs_v32]
  exact Layers.layer0_eq (E0 m) c _ _ _ _ _ (Host.host0_v30 m c) (Host.host0_arg1 m c) (Host.host0_v31 m c)

/-- The second dense region leaves the reference's second hidden layer. -/
theorem second_layer : Gen.V4 m (outs m) c main_v50 = Cert.ReferenceIdeal.Read.val_main_v56 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  show Function.update (Gen.V3 m (outs m) c) (Proc.devRef .tc main_v50) (outs m 4 main_v50 c) (Proc.devRef .tc main_v50) = _
  rw [Function.update_self, outs_v50]
  refine Layers.layer1_eq (E1 m) c _ _ _ _ _ _ _ ?_ ?_ ?_
  · exact (congrFun (V3_eq m c) _).symm.trans (Host.host1_v48 m c (outs m) (first_layer m c))
  · exact (congrFun (V3_eq m c) _).symm.trans (Host.host1_arg3 m c (outs m))
  · intro j; exact (congrFun (congrFun (V3_eq m c) _).symm _).trans (Host.host1_v49 m c (outs m) j)

/-- The third dense region leaves the reference's third layer. -/
theorem third_layer : Gen.V6 m (outs m) c main_v68 = Cert.ReferenceIdeal.Read.val_main_v76 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show Function.update (Gen.V5 m (outs m) c) (Proc.devRef .tc main_v68) (outs m 6 main_v68 c) (Proc.devRef .tc main_v68) = _
  rw [Function.update_self, outs_v68]
  refine Layers.layer2_eq (E2 m) c _ _ _ _ _ _ _ _ _ ?_ ?_ ?_
  · exact (congrFun (V5_eq m c) _).symm.trans (Host.host2_v66 m c (outs m) (second_layer m c))
  · exact (congrFun (V5_eq m c) _).symm.trans (Host.host2_arg5 m c (outs m))
  · intro j; exact (congrFun (congrFun (V5_eq m c) _).symm _).trans (Host.host2_v67 m c (outs m) j)

/-- The pooling region leaves the reference's segment sums. -/
theorem pooled : Gen.V8 m (outs m) c main_v80 = Cert.ReferenceIdeal.Read.val_main_v83 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show Function.update (Gen.V7 m (outs m) c) (Proc.devRef .tc main_v80) (outs m 8 main_v80 c) (Proc.devRef .tc main_v80) = _
  rw [Function.update_self, outs_v80]
  refine PoolSum.pool_eq (E3 m) c _ _ _ _ _ _ _ _ _ _ ?_ ?_
  · intro n g; exact (congrFun (congrFun (V7_eq m c) _).symm _).trans (Host.host3_v75 m c (outs m) n g)
  · exact (congrFun (V7_eq m c) _).symm.trans (Host.host3_v68 m c (outs m) (third_layer m c))

/-- THE RESULT: what the kernel's program ends with in its result buffer is the reference's last stage of the same
    arguments. -/
theorem result_eq : Gen.V9 m (outs m) c main_v85 = Cert.ReferenceIdeal.Read.val_main_v88 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  Host.host4_v85 m c (outs m) (pooled m c)

end Cert.Bridge

end
-- ==== Proof.lean ====
/- A three-layer graph convolution followed by per-graph mean pooling, as a kernel program of four regions among
   host operations, against the plain reference.

   Both programs compute the same degree normalisations and the same gather / scatter-add aggregation on the host.
   They differ in two places. (1) Each layer's "features times weights, plus bias" (clamped at zero in the first two
   layers) is, in the kernel's program, a region that walks the 100000 rows in 20 tiles of 5000, rounding both
   operands to a narrower float format before the product; over the extended reals the rounding is the identity and
   a product into a zero accumulator is the plain sum of products, so every row of the region's output is the
   reference's row. (2) The per-graph sums are, in the kernel's program, the product of the transposed one-hot matrix
   of the graph ids with the node features, accumulated tile by tile in a scratch buffer and copied out at the last
   tile; over the extended reals 1·x = x and 0·x = 0, so entry (g, d) is the sum of the features' column d over the
   nodes whose id is g — which is what the reference's segment sum is, a node whose id lies outside 0..63 contributing
   to neither. The final division by the clamped node counts is the same operation on both sides.

   The frames: each program terminates from any memory, faults nowhere and leaves its arguments as launched — the
   kernel's programs by the launch theorem for several regions over one segment record per region (the dense regions'
   bodies leave their inputs in place and cover their output tile; the pooling region carries its scratch from point
   to point), the reference by its run. No float law that fails at infinities is used, so the precondition is never
   opened. -/
import proofs.«420597_j62139586839006_1_alg».proof.Defs
import proofs.«420597_j62139586839006_1_alg».proof.Proof.Gen.Kernel
import proofs.«420597_j62139586839006_1_alg».proof.Proof.Gen.KernelIdeal
import proofs.«420597_j62139586839006_1_alg».proof.Proof.Gen.ReferenceIdeal
import proofs.«420597_j62139586839006_1_alg».proof.Proof.Gen.Pre_finite_inputs
import proofs.«420597_j62139586839006_1_alg».proof.Proof.K.Whole
import proofs.«420597_j62139586839006_1_alg».proof.Proof.KI.Whole
import proofs.«420597_j62139586839006_1_alg».proof.Proof.RefGen
import proofs.«420597_j62139586839006_1_alg».proof.Proof.Value.Chain
import Idealize.ShloMosaic.Adequacy
import Idealize.ShloMosaic.Init

noncomputable section

namespace Cert.Proof

open Idealize.ShloMosaic Idealize.ShloMosaic.TcCoe Idealize.SL.Sem

/-- The kernel's program as printed: its run, the result dropped. -/
theorem frame_kernel : Cert.frame_Kernel := fun m ρ _ =>
  (θ_run (Cert.Kernel.defs (F := Bits)) _ _).mono (fun _ h c => (h c).2) (Cert.Kernel.Layers.run (F := Bits) m ρ)

/-- The idealized kernel's program: the same run read at the extended reals. -/
theorem frame_kernel_ideal : Cert.frame_KernelIdeal := fun m ρ _ =>
  (θ_run (Cert.KernelIdeal.defs (F := Ideal)) _ _).mono (fun _ h c => (h c).2) (Cert.KernelIdeal.Layers.run (F := Ideal) m ρ)

/-- The reference: its run, the result dropped. -/
theorem frame_reference_ideal : Cert.frame_ReferenceIdeal := fun m ρ _ =>
  (θ_run (Cert.ReferenceIdeal.defs (F := Ideal)) _ _).mono (fun _ h c => (h c).2) (Cert.ReferenceIdeal.Value.run (F := Ideal) m ρ)

/-- The idealization rewrote nothing. -/
theorem preserves : Cert.preserves_Kernel_KernelIdeal := trivial

/-- From memories agreeing on the arguments both programs end, with equal results: the kernel's result buffer holds
    the reference's last stage of the kernel's arguments, and the reference's run ends at that stage of its own
    arguments, which are the same arrays. -/
theorem algebraic : Cert.algebraic_KernelIdeal_ReferenceIdeal := by
  intro m ρ m' ρ' _ hagree
  refine ⟨fun c => Cert.KernelIdeal.Gen.V9 m (Cert.KernelIdeal.Layers.outs m) c Cert.KernelIdeal.main_v85,
    Cert.KernelIdeal.Layers.run (F := Ideal) m ρ, ?_⟩
  refine (θ_run (Cert.ReferenceIdeal.defs (F := Ideal)) _ _).mono (fun _ h c => ⟨(h c).1.trans ?_, (h c).2⟩)
    (Cert.ReferenceIdeal.Value.run (F := Ideal) m' ρ')
  rw [Cert.ReferenceIdeal.Read.val_main_v88_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
